-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x64x64 : Shape := ⟨4, ![8, 256, 64, 64]⟩
abbrev S8x256x4096 : Shape := ⟨3, ![8, 256, 4096]⟩
abbrev S256x256 : Shape := ⟨2, ![256, 256]⟩
abbrev S256 : Shape := ⟨1, ![256]⟩
abbrev S_ : Shape := ⟨0, ![]⟩
abbrev S8x256 : Shape := ⟨2, ![8, 256]⟩

class Facts : Prop where
  bcast_S_S8x256x64x64 : S_.BroadcastsInDim S8x256x64x64 (![] : Fin 0 → Fin S8x256x64x64.rank)
  reducesTo_S8x256x64x64_S_d0_1_2_3 : S8x256x64x64.ReducesTo [0, 1, 2, 3] S_
  h_S_ : 0 < S_.numel
  bcast_S_S8x256x4096 : S_.BroadcastsInDim S8x256x4096 (![] : Fin 0 → Fin S8x256x4096.rank)
  reducesTo_S8x256x4096_S_d0_1_2 : S8x256x4096.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  reducesTo_S8x256x4096_S8x256_d2 : S8x256x4096.ReducesTo [2] S8x256
  bcast_S_S8x256 : S_.BroadcastsInDim S8x256 (![] : Fin 0 → Fin S8x256.rank)
  reducesTo_S8x256_S_d0_1 : S8x256.ReducesTo [0, 1] S_

variable [Facts]

def fn_part2 {F : FTy → Type} [FloatOps F] (main_arg1 : FVec F S8x256x4096 .f32) (main_v33 : IVec S_ 1) : IVec S_ 1 :=
  let main_cst_12 : FVec F S_ .f32 := constant S_ .f32 0x00000000#32
  let main_v34 : FVec F S8x256 .f32 := (fun x v => Host.reduceAdd x v reducesTo_S8x256x4096_S8x256_d2 h_S_) main_arg1 main_cst_12
  let main_cst_13 : FVec F S_ .f32 := constant S_ .f32 0x24E69595#32
  let main_v35 : FVec F S8x256 .f32 := broadcastInDim S8x256 ![] bcast_S_S8x256 main_cst_13
  let main_v36 : FVec F S8x256 .f32 := addf main_v34 main_v35
  let main_cst_14 : FVec F S_ .f32 := constant S_ .f32 0x00000000#32
  let main_v37 : FVec F S8x256 .f32 := broadcastInDim S8x256 ![] bcast_S_S8x256 main_cst_14
  let main_v38 : IVec S8x256 1 := cmpf .une main_v36 main_v37
  let main_c_15 : IVec S_ 1 := constantI S_ 1 1#1
  let main_v39 : IVec S_ 1 := (fun x v => Host.reduce IntOp.andi x v reducesTo_S8x256_S_d0_1 h_S_) main_v38 main_c_15
  let main_v40 : IVec S_ 1 := andi main_v33 main_v39
  main_v40

def fn_part1 {F : FTy → Type} [FloatOps F] (main_arg1 : FVec F S8x256x4096 .f32) (main_arg4 : FVec F S256x256 .f32) (main_arg5 : FVec F S256 .f32) (main_arg6 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg1 main_v33

def fn {F : FTy → Type} [FloatOps F] (main_arg0 : FVec F S8x256x64x64 .f32) (main_arg1 : FVec F S8x256x4096 .f32) (main_arg2 : FVec F S256x256 .f32) (main_arg3 : FVec F S256x256 .f32) (main_arg4 : FVec F S256x256 .f32) (main_arg5 : FVec F S256 .f32) (main_arg6 : FVec F S256 .f32) : IVec S_ 1 :=
  let main_v0 : FVec F S8x256x64x64 .f32 := Host.absf main_arg0
  let main_cst : FVec F S_ .f32 := constant S_ .f32 0x7F800000#32
  let main_v1 : FVec F S8x256x64x64 .f32 := broadcastInDim S8x256x64x64 ![] bcast_S_S8x256x64x64 main_cst
  let main_v2 : IVec S8x256x64x64 1 := cmpf .olt main_v0 main_v1
  let main_c : IVec S_ 1 := constantI S_ 1 1#1
  let main_v3 : IVec S_ 1 := (fun x v => Host.reduce IntOp.andi x v reducesTo_S8x256x64x64_S_d0_1_2_3 h_S_) main_v2 main_c
  let main_v4 : FVec F S8x256x4096 .f32 := Host.absf main_arg1
  let main_cst_0 : FVec F S_ .f32 := constant S_ .f32 0x7F800000#32
  let main_v5 : FVec F S8x256x4096 .f32 := broadcastInDim S8x256x4096 ![] bcast_S_S8x256x4096 main_cst_0
  let main_v6 : IVec S8x256x4096 1 := cmpf .olt main_v4 main_v5
  let main_c_1 : IVec S_ 1 := constantI S_ 1 1#1
  let main_v7 : IVec S_ 1 := (fun x v => Host.reduce IntOp.andi x v reducesTo_S8x256x4096_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg1 main_arg4 main_arg5 main_arg6 main_v13 main_v16
-- ==== Kernel.lean ====
abbrev S8x256x64x64 : Shape := ⟨4, ![8, 256, 64, 64]⟩
abbrev S8x256x4096 : Shape := ⟨3, ![8, 256, 4096]⟩
abbrev S256x256 : Shape := ⟨2, ![256, 256]⟩
abbrev S256 : Shape := ⟨1, ![256]⟩
abbrev S768x256 : Shape := ⟨2, ![768, 256]⟩
abbrev S256x1 : Shape := ⟨2, ![256, 1]⟩
abbrev S1x256x4096 : Shape := ⟨3, ![1, 256, 4096]⟩
abbrev S256x4096 : Shape := ⟨2, ![256, 4096]⟩
abbrev S768x4096 : Shape := ⟨2, ![768, 4096]⟩
abbrev S4096 : Shape := ⟨1, ![4096]⟩
abbrev S1x4096 : Shape := ⟨2, ![1, 4096]⟩
abbrev S1x256 : Shape := ⟨2, ![1, 256]⟩
abbrev S32x4096 : Shape := ⟨2, ![32, 4096]⟩
abbrev S32x256 : Shape := ⟨2, ![32, 256]⟩
abbrev S4096x256 : Shape := ⟨2, ![4096, 256]⟩
abbrev S1x32x4096 : Shape := ⟨3, ![1, 32, 4096]⟩

abbrev nBuf : Space → Nat
  | .hbm => 14
  | .vmem => 12
  | .smem => 0
  | _ => 0

abbrev bufTy : (tb : Table) → Fin (tcTables nBuf tb) → BufTy
  | .hbm, ⟨0, _⟩ => ⟨S8x256x64x64, .f32⟩
  | .hbm, ⟨1, _⟩ => ⟨S8x256x4096, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256, .f32⟩
  | .hbm, ⟨6, _⟩ => ⟨S256, .f32⟩
  | .hbm, ⟨7, _⟩ => ⟨S8x256x4096, .f32⟩
  | .hbm, ⟨8, _⟩ => ⟨S768x256, .f32⟩
  | .hbm, ⟨9, _⟩ => ⟨S768x256, .bf16⟩
  | .hbm, ⟨10, _⟩ => ⟨S256x1, .f32⟩
  | .hbm, ⟨11, _⟩ => ⟨S256x1, .f32⟩
  | .hbm, ⟨12, _⟩ => ⟨S8x256x4096, .f32⟩
  | .hbm, ⟨13, _⟩ => ⟨S8x256x64x64, .f32⟩
  | .local _ .vmem, ⟨0, _⟩ => ⟨S1x256x4096, .f32⟩
  | .local _ .vmem, ⟨1, _⟩ => ⟨S1x256x4096, .f32⟩
  | .local _ .vmem, ⟨2, _⟩ => ⟨S1x256x4096, .f32⟩
  | .local _ .vmem, ⟨3, _⟩ => ⟨S1x256x4096, .f32⟩
  | .local _ .vmem, ⟨4, _⟩ => ⟨S768x256, .bf16⟩
  | .local _ .vmem, ⟨5, _⟩ => ⟨S256x1, .f32⟩
  | .local _ .vmem, ⟨6, _⟩ => ⟨S256x1, .f32⟩
  | .local _ .vmem, ⟨7, _⟩ => ⟨S1x256x4096, .f32⟩
  | .local _ .vmem, ⟨8, _⟩ => ⟨S1x256x4096, .f32⟩
  | .local _ .vmem, ⟨9, _⟩ => ⟨S256x4096, .bf16⟩
  | .local _ .vmem, ⟨10, _⟩ => ⟨S256x256, .bf16⟩
  | .local _ .vmem, ⟨11, _⟩ => ⟨S768x4096, .bf16⟩
  | _, _ => ⟨S8x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v57 : BitVec 32 := Scalar.addi c0_i32 c8_i32
  let c1_i32 : BitVec 32 := 1#32
  ⟨c0_i32, v57, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c32_i32 : BitVec 32 := 32#32
  let v58 : BitVec 32 := Scalar.muli arg10 c32_i32
  v58
def k0_mult2 (k0_t1 : Fin k0_t1_loop.trips) : BitVec 32 :=
  let c256_i32 : BitVec 32 := 256#32
  let c0_i32 : BitVec 32 := 0#32
  let c1_i32 : BitVec 32 := 1#32
  let arg10 : BitVec 32 := Scf.iv c0_i32 c1_i32 k0_t1
  let c32_i32_34 : BitVec 32 := 32#32
  let v60 : BitVec 32 := Scalar.muli arg10 c32_i32_34
  let v61 : BitVec 32 := Scalar.addi c256_i32 v60
  v61
def k0_mult3 (k0_t1 : Fin k0_t1_loop.trips) : BitVec 32 :=
  let c0_i32 : BitVec 32 := 0#32
  let c1_i32 : BitVec 32 := 1#32
  let arg10 : BitVec 32 := Scf.iv c0_i32 c1_i32 k0_t1
  let c32_i32_35 : BitVec 32 := 32#32
  let v63 : BitVec 32 := Scalar.muli arg10 c32_i32_35
  v63
def k0_mult4 (k0_t1 : Fin k0_t1_loop.trips) : BitVec 32 :=
  let c512_i32 : BitVec 32 := 512#32
  let c0_i32 : BitVec 32 := 0#32
  let c1_i32 : BitVec 32 := 1#32
  let arg10 : BitVec 32 := Scf.iv c0_i32 c1_i32 k0_t1
  let c32_i32_36 : BitVec 32 := 32#32
  let v65 : BitVec 32 := Scalar.muli arg10 c32_i32_36
  let v66 : BitVec 32 := Scalar.addi c512_i32 v65
  v66
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v58 : BitVec 32 := Scalar.muli arg10 c32_i32
  let v59 : BitVec 32 := v58
  let v68 : Index := Scalar.indexCast v59
  let c0_37 : Index := 0#32
  ![v68.toNat, 0]
def k0_off2 (k0_t1 : Fin k0_t1_loop.trips) (c256_i32 : BitVec 32) : Fin 2 → Nat :=
  let c0_i32 : BitVec 32 := 0#32
  let c1_i32 : BitVec 32 := 1#32
  let arg10 : BitVec 32 := Scf.iv c0_i32 c1_i32 k0_t1
  let c32_i32_34 : BitVec 32 := 32#32
  let v60 : BitVec 32 := Scalar.muli arg10 c32_i32_34
  let v61 : BitVec 32 := Scalar.addi c256_i32 v60
  let v62 : BitVec 32 := v61
  let v70 : Index := Scalar.indexCast v62
  let c0_38 : Index := 0#32
  ![v70.toNat, 0]
def k0_off3 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v58 : BitVec 32 := Scalar.muli arg10 c32_i32
  let v59 : BitVec 32 := v58
  let v74 : Index := Scalar.indexCast v59
  let c0_40 : Index := 0#32
  ![v74.toNat, 0]
def k0_off4 (k0_t1 : Fin k0_t1_loop.trips) : Fin 3 → Nat :=
  let c0_49 : Index := 0#32
  let c0_i32 : BitVec 32 := 0#32
  let c1_i32 : BitVec 32 := 1#32
  let arg10 : BitVec 32 := Scf.iv c0_i32 c1_i32 k0_t1
  let c32_i32_35 : BitVec 32 := 32#32
  let v63 : BitVec 32 := Scalar.muli arg10 c32_i32_35
  let v64 : BitVec 32 := v63
  let v99 : Index := Scalar.indexCast v64
  let c0_50 : Index := 0#32
  ![0, v99.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S8x256x64x64_S8x256x4096 : S8x256x64x64.ShapeCasts S8x256x4096
  concatenates_S256x256_S256x256_S256x256_S768x256_d0 : Shape.Concatenates [S256x256, S256x256, S256x256] S768x256 0
  bitsLt_bf16_f32 : FTy.bits .bf16 < FTy.bits .f32
  shapeCasts_S256_S256x1 : S256.ShapeCasts S256x1
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  reduces_S256x4096_S4096 : S256x4096.Reduces [0] S4096
  shapeCasts_S4096_S1x4096 : S4096.ShapeCasts S1x4096
  broadcasts_S1x4096_S256x4096 : S1x4096.Broadcasts S256x4096
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x4096 : S256x1.Broadcasts S256x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  packedbf16_S256x4096_S256x4096_0_0 : (Rect.unit (s := S256x4096) ![0, 0] S256x4096.size inb_S256x4096_S256x4096_0_0).PackedRows (EltTy.packing .bf16)
  broadcasts_S1x256_S256x256 : S1x256.Broadcasts S256x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  packedbf16_S256x256_S256x256_0_0 : (Rect.unit (s := S256x256) ![0, 0] S256x256.size inb_S256x256_S256x256_0_0).PackedRows (EltTy.packing .bf16)
  inb_S768x256_S768x256_0_0 : ∀ a, (![0, 0] : Fin 2 → Nat) a + S768x256.size a ≤ S768x256.size a
  h_S768x256 : 0 < S768x256.numel
  shapeCasts_S768x256_S768x256 : S768x256.ShapeCasts S768x256
  inb_S768x4096_S768x4096_0_0 : ∀ a, (![0, 0] : Fin 2 → Nat) a + S768x4096.size a ≤ S768x4096.size a
  h_S768x4096 : 0 < S768x4096.numel
  shapeCasts_S768x4096_S768x4096 : S768x4096.ShapeCasts S768x4096
  packedbf16_S768x4096_S768x4096_0_0 : (Rect.unit (s := S768x4096) ![0, 0] S768x4096.size inb_S768x4096_S768x4096_0_0).PackedRows (EltTy.packing .bf16)
  h_S32x4096 : 0 < S32x4096.numel
  h_S32x256 : 0 < S32x256.numel
  reduces_S4096x256_S256 : S4096x256.Reduces [0] S256
  shapeCasts_S256_S1x256 : S256.ShapeCasts S1x256
  broadcasts_S1x256_S4096x256 : S1x256.Broadcasts S4096x256
  broadcasts_S1x256_S32x256 : S1x256.Broadcasts S32x256
  broadcasts_S1x4096_S32x4096 : S1x4096.Broadcasts S32x4096
  h_S1x32x4096 : 0 < S1x32x4096.numel
  shapeCasts_S1x32x4096_S32x4096 : S1x32x4096.ShapeCasts S32x4096
  shapeCasts_S32x4096_S1x32x4096 : S32x4096.ShapeCasts S1x32x4096
  shapeCasts_S8x256x4096_S8x256x64x64 : S8x256x4096.ShapeCasts S8x256x64x64
  dot_S1x4096_S256x4096_S1x256_1_1_0_0_n_n_wf : DotDims.WF S1x4096 S256x4096 S1x256 [1] [1] [0] [0] [] []
  dot_S256x4096_S256x4096_S256x256_1_1_0_0_n_n_wf : DotDims.WF S256x4096 S256x4096 S256x256 [1] [1] [0] [0] [] []
  dot_S768x256_S256x4096_S768x4096_1_0_0_1_n_n_wf : DotDims.WF S768x256 S256x4096 S768x4096 [1] [0] [0] [1] [] []
  dot_S32x4096_S32x256_S4096x256_0_0_1_1_n_n_wf : DotDims.WF S32x4096 S32x256 S4096x256 [0] [0] [1] [1] [] []
  dot_S1x4096_S4096x256_S1x256_1_0_0_1_n_n_wf : DotDims.WF S1x4096 S4096x256 S1x256 [1] [0] [0] [1] [] []
  dot_S32x4096_S4096x256_S32x256_1_0_0_1_n_n_wf : DotDims.WF S32x4096 S4096x256 S32x256 [1] [0] [0] [1] [] []
  dot_S32x256_S32x4096_S256x4096_0_0_1_1_n_n_wf : DotDims.WF S32x256 S32x4096 S256x4096 [0] [0] [1] [1] [] []
  dot_S1x256_S256x4096_S1x4096_1_0_0_1_n_n_wf : DotDims.WF S1x256 S256x4096 S1x4096 [1] [0] [0] [1] [] []
  dot_S32x256_S256x4096_S32x4096_1_0_0_1_n_n_wf : DotDims.WF S32x256 S256x4096 S32x4096 [1] [0] [0] [1] [] []
  hrank0 : 0 < grid0.rank
  k0_t1_ok : k0_t1_loop.OK
  k0_mult1_dvd : ∀ k0_t1 : Fin k0_t1_loop.trips, 32 ∣ (k0_mult1 k0_t1).toNat
  k0_mult2_dvd : ∀ k0_t1 : Fin k0_t1_loop.trips, 32 ∣ (k0_mult2 k0_t1).toNat
  k0_mult3_dvd : ∀ k0_t1 : Fin k0_t1_loop.trips, 32 ∣ (k0_mult3 k0_t1).toNat
  k0_mult4_dvd : ∀ k0_t1 : Fin k0_t1_loop.trips, 32 ∣ (k0_mult4 k0_t1).toNat
  k0_off1_inb : ∀ k0_t1 : Fin k0_t1_loop.trips, ∀ a, (k0_off1 k0_t1) a + S32x4096.size a ≤ S768x4096.size a
  k0_off2_inb : ∀ k0_t1 : Fin k0_t1_loop.trips, ∀ (r : Fin 2), ∀ a, (k0_off2 k0_t1 (BitVec.ofNat 32 (256 + 256 * r.val))) a + S32x4096.size a ≤ S768x4096.size a
  k0_off3_inb : ∀ k0_t1 : Fin k0_t1_loop.trips, ∀ a, (k0_off3 k0_t1) a + S32x256.size a ≤ S256x256.size a
  k0_off4_inb : ∀ k0_t1 : Fin k0_t1_loop.trips, ∀ a, (k0_off4 k0_t1) a + S1x32x4096.size a ≤ S1x256x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S8x256x4096.size a
  hwx0_0 : ∀ i : grid0.Coords, EltTy.bits .f32 = 32 ∨ (Rect.block (s := S8x256x4096) S1x256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x4096.size a ≤ S8x256x4096.size a
  hwx0_1 : ∀ i : grid0.Coords, EltTy.bits .f32 = 32 ∨ (Rect.block (s := S8x256x4096) S1x256x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x256.size a ≤ S768x256.size a
  hwx0_2 : ∀ i : grid0.Coords, EltTy.bits .bf16 = 32 ∨ (Rect.block (s := S768x256) S768x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S256x1.size a
  hwx0_3 : ∀ i : grid0.Coords, EltTy.bits .f32 = 32 ∨ (Rect.block (s := S256x1) S256x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S256x1.size a
  hwx0_4 : ∀ i : grid0.Coords, EltTy.bits .f32 = 32 ∨ (Rect.block (s := S256x1) S256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x4096.size a ≤ S8x256x4096.size a
  hwx0_5 : ∀ i : grid0.Coords, EltTy.bits .f32 = 32 ∨ (Rect.block (s := S8x256x4096) S1x256x4096.size (cc0_transform_5 i) (hinb0_5 i)).WholeWords (EltTy.packing .f32)

variable [Facts₀]

def dot_S1x4096_S256x4096_S1x256_1_1_0_0_n_n : DotDims S1x4096 S256x4096 S1x256 where
  lhsContracting := [1]
  rhsContracting := [1]
  lhsNonContracting := [0]
  rhsNonContracting := [0]
  lhsBatch := []
  rhsBatch := []
  wf := dot_S1x4096_S256x4096_S1x256_1_1_0_0_n_n_wf
def dot_S256x4096_S256x4096_S256x256_1_1_0_0_n_n : DotDims S256x4096 S256x4096 S256x256 where
  lhsContracting := [1]
  rhsContracting := [1]
  lhsNonContracting := [0]
  rhsNonContracting := [0]
  lhsBatch := []
  rhsBatch := []
  wf := dot_S256x4096_S256x4096_S256x256_1_1_0_0_n_n_wf
def dot_S768x256_S256x4096_S768x4096_1_0_0_1_n_n : DotDims S768x256 S256x4096 S768x4096 where
  lhsContracting := [1]
  rhsContracting := [0]
  lhsNonContracting := [0]
  rhsNonContracting := [1]
  lhsBatch := []
  rhsBatch := []
  wf := dot_S768x256_S256x4096_S768x4096_1_0_0_1_n_n_wf
def dot_S32x4096_S32x256_S4096x256_0_0_1_1_n_n : DotDims S32x4096 S32x256 S4096x256 where
  lhsContracting := [0]
  rhsContracting := [0]
  lhsNonContracting := [1]
  rhsNonContracting := [1]
  lhsBatch := []
  rhsBatch := []
  wf := dot_S32x4096_S32x256_S4096x256_0_0_1_1_n_n_wf
def dot_S1x4096_S4096x256_S1x256_1_0_0_1_n_n : DotDims S1x4096 S4096x256 S1x256 where
  lhsContracting := [1]
  rhsContracting := [0]
  lhsNonContracting := [0]
  rhsNonContracting := [1]
  lhsBatch := []
  rhsBatch := []
  wf := dot_S1x4096_S4096x256_S1x256_1_0_0_1_n_n_wf
def dot_S32x4096_S4096x256_S32x256_1_0_0_1_n_n : DotDims S32x4096 S4096x256 S32x256 where
  lhsContracting := [1]
  rhsContracting := [0]
  lhsNonContracting := [0]
  rhsNonContracting := [1]
  lhsBatch := []
  rhsBatch := []
  wf := dot_S32x4096_S4096x256_S32x256_1_0_0_1_n_n_wf
def dot_S32x256_S32x4096_S256x4096_0_0_1_1_n_n : DotDims S32x256 S32x4096 S256x4096 where
  lhsContracting := [0]
  rhsContracting := [0]
  lhsNonContracting := [1]
  rhsNonContracting := [1]
  lhsBatch := []
  rhsBatch := []
  wf := dot_S32x256_S32x4096_S256x4096_0_0_1_1_n_n_wf
def dot_S1x256_S256x4096_S1x4096_1_0_0_1_n_n : DotDims S1x256 S256x4096 S1x4096 where
  lhsContracting := [1]
  rhsContracting := [0]
  lhsNonContracting := [0]
  rhsNonContracting := [1]
  lhsBatch := []
  rhsBatch := []
  wf := dot_S1x256_S256x4096_S1x4096_1_0_0_1_n_n_wf
def dot_S32x256_S256x4096_S32x4096_1_0_0_1_n_n : DotDims S32x256 S256x4096 S32x4096 where
  lhsContracting := [1]
  rhsContracting := [0]
  lhsNonContracting := [0]
  rhsNonContracting := [1]
  lhsBatch := []
  rhsBatch := []
  wf := dot_S32x256_S256x4096_S32x4096_1_0_0_1_n_n_wf

abbrev win0_0 : Pipeline.Window sig grid0 :=
  Pipeline.Window.ofSpec (Memref.whole main_v0) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S768x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S256x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x256x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x256x64x64 : Shape := ⟨4, ![8, 256, 64, 64]⟩
abbrev S8x256x4096 : Shape := ⟨3, ![8, 256, 4096]⟩
abbrev S256x256 : Shape := ⟨2, ![256, 256]⟩
abbrev S256 : Shape := ⟨1, ![256]⟩
abbrev S8x4096x256 : Shape := ⟨3, ![8, 4096, 256]⟩
abbrev S_ : Shape := ⟨0, ![]⟩
abbrev S8x4096 : Shape := ⟨2, ![8, 4096]⟩
abbrev S8x4096x1 : Shape := ⟨3, ![8, 4096, 1]⟩
abbrev S1x1x256 : Shape := ⟨3, ![1, 1, 256]⟩
abbrev S8x256x256 : Shape := ⟨3, ![8, 256, 256]⟩
abbrev S8x256 : Shape := ⟨2, ![8, 256]⟩
abbrev S8x256x1 : Shape := ⟨3, ![8, 256, 1]⟩
abbrev S8x8x32x256 : Shape := ⟨4, ![8, 8, 32, 256]⟩
abbrev S256x8x4096 : Shape := ⟨3, ![256, 8, 4096]⟩
abbrev S8x8x32x4096 : Shape := ⟨4, ![8, 8, 32, 4096]⟩
abbrev S8x8x4096x256 : Shape := ⟨4, ![8, 8, 4096, 256]⟩
abbrev S8x8x256 : Shape := ⟨3, ![8, 8, 256]⟩
abbrev S8x8x1x256 : Shape := ⟨4, ![8, 8, 1, 256]⟩
abbrev S8x8x256x4096 : Shape := ⟨4, ![8, 8, 256, 4096]⟩
abbrev S8x8x4096 : Shape := ⟨3, ![8, 8, 4096]⟩
abbrev S8x8x1x4096 : Shape := ⟨4, ![8, 8, 1, 4096]⟩

abbrev nBuf : Space → Nat
  | .hbm => 97
  | .vmem => 0
  | .smem => 0
  | _ => 0

abbrev bufTy : (tb : Table) → Fin (tcTables nBuf tb) → BufTy
  | .hbm, ⟨0, _⟩ => ⟨S8x256x64x64, .f32⟩
  | .hbm, ⟨1, _⟩ => ⟨S8x256x4096, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256, .f32⟩
  | .hbm, ⟨6, _⟩ => ⟨S256, .f32⟩
  | .hbm, ⟨7, _⟩ => ⟨S8x256x4096, .f32⟩
  | .hbm, ⟨8, _⟩ => ⟨S8x4096x256, .f32⟩
  | .hbm, ⟨9, _⟩ => ⟨S_, .f32⟩
  | .hbm, ⟨10, _⟩ => ⟨S8x4096, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x256, .f32⟩
  | .hbm, ⟨16, _⟩ => ⟨S8x4096x256, .f32⟩
  | .hbm, ⟨17, _⟩ => ⟨S8x4096x256, .f32⟩
  | .hbm, ⟨18, _⟩ => ⟨S_, .f32⟩
  | .hbm, ⟨19, _⟩ => ⟨S8x4096, .f32⟩
  | .hbm, ⟨20, _⟩ => ⟨S8x4096x1, .f32⟩
  | .hbm, ⟨21, _⟩ => ⟨S_, .f32⟩
  | .hbm, ⟨22, _⟩ => ⟨S8x4096x1, .f32⟩
  | .hbm, ⟨23, _⟩ => ⟨S8x4096x1, .f32⟩
  | .hbm, ⟨24, _⟩ => ⟨S8x4096x256, .f32⟩
  | .hbm, ⟨25, _⟩ => ⟨S8x4096x256, .f32⟩
  | .hbm, ⟨26, _⟩ => ⟨S_, .f32⟩
  | .hbm, ⟨27, _⟩ => ⟨S8x4096x1, .f32⟩
  | .hbm, ⟨28, _⟩ => ⟨S8x4096x1, .f32⟩
  | .hbm, ⟨29, _⟩ => ⟨S8x4096x1, .f32⟩
  | .hbm, ⟨30, _⟩ => ⟨S8x4096x256, .f32⟩
  | .hbm, ⟨31, _⟩ => ⟨S8x4096x256, .f32⟩
  | .hbm, ⟨32, _⟩ => ⟨S1x1x256, .f32⟩
  | .hbm, ⟨33, _⟩ => ⟨S8x4096x256, .f32⟩
  | .hbm, ⟨34, _⟩ => ⟨S8x4096x256, .f32⟩
  | .hbm, ⟨35, _⟩ => ⟨S1x1x256, .f32⟩
  | .hbm, ⟨36, _⟩ => ⟨S8x4096x256, .f32⟩
  | .hbm, ⟨37, _⟩ => ⟨S8x4096x256, .f32⟩
  | .hbm, ⟨38, _⟩ => ⟨S8x256x256, .f32⟩
  | .hbm, ⟨39, _⟩ => ⟨S_, .f32⟩
  | .hbm, ⟨40, _⟩ => ⟨S8x256, .f32⟩
  | .hbm, ⟨41, _⟩ => ⟨S8x256x1, .f32⟩
  | .hbm, ⟨42, _⟩ => ⟨S_, .f32⟩
  | .hbm, ⟨43, _⟩ => ⟨S8x256x1, .f32⟩
  | .hbm, ⟨44, _⟩ => ⟨S8x256x1, .f32⟩
  | .hbm, ⟨45, _⟩ => ⟨S8x256x256, .f32⟩
  | .hbm, ⟨46, _⟩ => ⟨S8x256x256, .f32⟩
  | .hbm, ⟨47, _⟩ => ⟨S8x256x256, .f32⟩
  | .hbm, ⟨48, _⟩ => ⟨S8x8x32x256, .f32⟩
  | .hbm, ⟨49, _⟩ => ⟨S256x8x4096, .f32⟩
  | .hbm, ⟨50, _⟩ => ⟨S8x256x4096, .f32⟩
  | .hbm, ⟨51, _⟩ => ⟨S8x8x32x4096, .f32⟩
  | .hbm, ⟨52, _⟩ => ⟨S256x8x4096, .f32⟩
  | .hbm, ⟨53, _⟩ => ⟨S8x256x4096, .f32⟩
  | .hbm, ⟨54, _⟩ => ⟨S8x8x32x4096, .f32⟩
  | .hbm, ⟨55, _⟩ => ⟨S256x8x4096, .f32⟩
  | .hbm, ⟨56, _⟩ => ⟨S8x256x4096, .f32⟩
  | .hbm, ⟨57, _⟩ => ⟨S8x8x32x4096, .f32⟩
  | .hbm, ⟨58, _⟩ => ⟨S8x8x4096x256, .f32⟩
  | .hbm, ⟨59, _⟩ => ⟨S_, .f32⟩
  | .hbm, ⟨60, _⟩ => ⟨S8x8x4096x256, .f32⟩
  | .hbm, ⟨61, _⟩ => ⟨S8x8x4096x256, .f32⟩
  | .hbm, ⟨62, _⟩ => ⟨S_, .f32⟩
  | .hbm, ⟨63, _⟩ => ⟨S8x8x256, .f32⟩
  | .hbm, ⟨64, _⟩ => ⟨S_, .f32⟩
  | .hbm, ⟨65, _⟩ => ⟨S8x8x256, .f32⟩
  | .hbm, ⟨66, _⟩ => ⟨S8x8x256, .f32⟩
  | .hbm, ⟨67, _⟩ => ⟨S8x8x1x256, .f32⟩
  | .hbm, ⟨68, _⟩ => ⟨S8x8x4096x256, .f32⟩
  | .hbm, ⟨69, _⟩ => ⟨S8x8x4096x256, .f32⟩
  | .hbm, ⟨70, _⟩ => ⟨S8x8x4096x256, .f32⟩
  | .hbm, ⟨71, _⟩ => ⟨S_, .f32⟩
  | .hbm, ⟨72, _⟩ => ⟨S8x8x256, .f32⟩
  | .hbm, ⟨73, _⟩ => ⟨S8x8x1x256, .f32⟩
  | .hbm, ⟨74, _⟩ => ⟨S8x8x4096x256, .f32⟩
  | .hbm, ⟨75, _⟩ => ⟨S8x8x4096x256, .f32⟩
  | .hbm, ⟨76, _⟩ => ⟨S8x8x32x256, .f32⟩
  | .hbm, ⟨77, _⟩ => ⟨S8x8x256x4096, .f32⟩
  | .hbm, ⟨78, _⟩ => ⟨S_, .f32⟩
  | .hbm, ⟨79, _⟩ => ⟨S8x8x256x4096, .f32⟩
  | .hbm, ⟨80, _⟩ => ⟨S8x8x256x4096, .f32⟩
  | .hbm, ⟨81, _⟩ => ⟨S_, .f32⟩
  | .hbm, ⟨82, _⟩ => ⟨S8x8x4096, .f32⟩
  | .hbm, ⟨83, _⟩ => ⟨S_, .f32⟩
  | .hbm, ⟨84, _⟩ => ⟨S8x8x4096, .f32⟩
  | .hbm, ⟨85, _⟩ => ⟨S8x8x4096, .f32⟩
  | .hbm, ⟨86, _⟩ => ⟨S8x8x1x4096, .f32⟩
  | .hbm, ⟨87, _⟩ => ⟨S8x8x256x4096, .f32⟩
  | .hbm, ⟨88, _⟩ => ⟨S8x8x256x4096, .f32⟩
  | .hbm, ⟨89, _⟩ => ⟨S8x8x256x4096, .f32⟩
  | .hbm, ⟨90, _⟩ => ⟨S_, .f32⟩
  | .hbm, ⟨91, _⟩ => ⟨S8x8x4096, .f32⟩
  | .hbm, ⟨92, _⟩ => ⟨S8x8x1x4096, .f32⟩
  | .hbm, ⟨93, _⟩ => ⟨S8x8x256x4096, .f32⟩
  | .hbm, ⟨94, _⟩ => ⟨S8x8x256x4096, .f32⟩
  | .hbm, ⟨95, _⟩ => ⟨S8x8x32x4096, .f32⟩
  | .hbm, ⟨96, _⟩ => ⟨S8x256x64x64, .f32⟩
  | _, _ => ⟨S8x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_6 : Ref sig .tc := ⟨.hbm, 59, rfl⟩
abbrev main_v45 : Ref sig .tc := ⟨.hbm, 60, rfl⟩
abbrev main_v46 : Ref sig .tc := ⟨.hbm, 61, rfl⟩
abbrev main_cst_7 : Ref sig .tc := ⟨.hbm, 62, rfl⟩
abbrev main_v47 : Ref sig .tc := ⟨.hbm, 63, rfl⟩
abbrev main_cst_8 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_9 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_10 : Ref sig .tc := ⟨.hbm, 78, rfl⟩
abbrev main_v60 : Ref sig .tc := ⟨.hbm, 79, rfl⟩
abbrev main_v61 : Ref sig .tc := ⟨.hbm, 80, rfl⟩
abbrev main_cst_11 : Ref sig .tc := ⟨.hbm, 81, rfl⟩
abbrev main_v62 : Ref sig .tc := ⟨.hbm, 82, rfl⟩
abbrev main_cst_12 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_13 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩

abbrev nD : Nat := 1
abbrev τ : Topo := Topo.v7x

variable {F : FTy → Type} [FloatOps F]

class Facts₀ : Prop where
  shapeCasts_S8x256x64x64_S8x256x4096 : S8x256x64x64.ShapeCasts S8x256x4096
  transposes_S8x256x4096_S8x4096x256_0_2_1 : S8x256x4096.Transposes [0, 2, 1] S8x4096x256
  reducesTo_S8x4096x256_S8x4096_d2 : S8x4096x256.ReducesTo [2] S8x4096
  h_S_ : 0 < S_.numel
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S8x4096x1_S8x4096x256_0_1_2 : S8x4096x1.BroadcastsInDim S8x4096x256 (![0, 1, 2] : Fin 3 → Fin S8x4096x256.rank)
  bcast_S256_S1x1x256_2 : S256.BroadcastsInDim S1x1x256 (![2] : Fin 1 → Fin S1x1x256.rank)
  bcast_S1x1x256_S8x4096x256_0_1_2 : S1x1x256.BroadcastsInDim S8x4096x256 (![0, 1, 2] : Fin 3 → Fin S8x4096x256.rank)
  reducesTo_S8x256x4096_S8x256_d2 : S8x256x4096.ReducesTo [2] S8x256
  bcast_S8x256_S8x256x1_0_1 : S8x256.BroadcastsInDim S8x256x1 (![0, 1] : Fin 2 → Fin S8x256x1.rank)
  bcast_S_S8x256x1 : S_.BroadcastsInDim S8x256x1 (![] : Fin 0 → Fin S8x256x1.rank)
  bcast_S8x256x1_S8x256x256_0_1_2 : S8x256x1.BroadcastsInDim S8x256x256 (![0, 1, 2] : Fin 3 → Fin S8x256x256.rank)
  transposes_S8x256x256_S8x256x256_0_2_1 : S8x256x256.Transposes [0, 2, 1] S8x256x256
  shapeCasts_S8x256x256_S8x8x32x256 : S8x256x256.ShapeCasts S8x8x32x256
  transposes_S256x8x4096_S8x256x4096_1_0_2 : S256x8x4096.Transposes [1, 0, 2] S8x256x4096
  shapeCasts_S8x256x4096_S8x8x32x4096 : S8x256x4096.ShapeCasts S8x8x32x4096
  bcast_S_S8x8x4096x256 : S_.BroadcastsInDim S8x8x4096x256 (![] : Fin 0 → Fin S8x8x4096x256.rank)
  reducesTo_S8x8x4096x256_S8x8x256_d2 : S8x8x4096x256.ReducesTo [2] S8x8x256
  bcast_S_S8x8x256 : S_.BroadcastsInDim S8x8x256 (![] : Fin 0 → Fin S8x8x256.rank)
  bcast_S8x8x256_S8x8x1x256_0_1_3 : S8x8x256.BroadcastsInDim S8x8x1x256 (![0, 1, 3] : Fin 3 → Fin S8x8x1x256.rank)
  bcast_S8x8x1x256_S8x8x4096x256_0_1_2_3 : S8x8x1x256.BroadcastsInDim S8x8x4096x256 (![0, 1, 2, 3] : Fin 4 → Fin S8x8x4096x256.rank)
  bcast_S_S8x8x256x4096 : S_.BroadcastsInDim S8x8x256x4096 (![] : Fin 0 → Fin S8x8x256x4096.rank)
  reducesTo_S8x8x256x4096_S8x8x4096_d2 : S8x8x256x4096.ReducesTo [2] S8x8x4096
  bcast_S_S8x8x4096 : S_.BroadcastsInDim S8x8x4096 (![] : Fin 0 → Fin S8x8x4096.rank)
  bcast_S8x8x4096_S8x8x1x4096_0_1_3 : S8x8x4096.BroadcastsInDim S8x8x1x4096 (![0, 1, 3] : Fin 3 → Fin S8x8x1x4096.rank)
  bcast_S8x8x1x4096_S8x8x256x4096_0_1_2_3 : S8x8x1x4096.BroadcastsInDim S8x8x256x4096 (![0, 1, 2, 3] : Fin 4 → Fin S8x8x256x4096.rank)
  shapeCasts_S8x8x32x4096_S8x256x64x64 : S8x8x32x4096.ShapeCasts S8x256x64x64
  dot_S8x256x4096_S8x4096x256_S8x256x256_2_1_1_2_0_0_wf : DotDims.WF S8x256x4096 S8x4096x256 S8x256x256 [2] [1] [1] [2] [0] [0]
  dot_S256x256_S8x4096x256_S256x8x4096_1_2_0_01_n_n_wf : DotDims.WF S256x256 S8x4096x256 S256x8x4096 [1] [2] [0] [0, 1] [] []
  dot_S8x8x32x4096_S8x8x32x256_S8x8x4096x256_2_2_3_3_01_01_wf : DotDims.WF S8x8x32x4096 S8x8x32x256 S8x8x4096x256 [2] [2] [3] [3] [0, 1] [0, 1]
  dot_S8x8x32x4096_S8x8x4096x256_S8x8x32x256_3_2_2_3_01_01_wf : DotDims.WF S8x8x32x4096 S8x8x4096x256 S8x8x32x256 [3] [2] [2] [3] [0, 1] [0, 1]
  dot_S8x8x32x256_S8x8x32x4096_S8x8x256x4096_2_2_3_3_01_01_wf : DotDims.WF S8x8x32x256 S8x8x32x4096 S8x8x256x4096 [2] [2] [3] [3] [0, 1] [0, 1]
  dot_S8x8x32x256_S8x8x256x4096_S8x8x32x4096_3_2_2_3_01_01_wf : DotDims.WF S8x8x32x256 S8x8x256x4096 S8x8x32x4096 [3] [2] [2] [3] [0, 1] [0, 1]

variable [Facts₀]

def dot_S8x256x4096_S8x4096x256_S8x256x256_2_1_1_2_0_0 : DotDims S8x256x4096 S8x4096x256 S8x256x256 where
  lhsContracting := [2]
  rhsContracting := [1]
  lhsNonContracting := [1]
  rhsNonContracting := [2]
  lhsBatch := [0]
  rhsBatch := [0]
  wf := dot_S8x256x4096_S8x4096x256_S8x256x256_2_1_1_2_0_0_wf
def dot_S256x256_S8x4096x256_S256x8x4096_1_2_0_01_n_n : DotDims S256x256 S8x4096x256 S256x8x4096 where
  lhsContracting := [1]
  rhsContracting := [2]
  lhsNonContracting := [0]
  rhsNonContracting := [0, 1]
  lhsBatch := []
  rhsBatch := []
  wf := dot_S256x256_S8x4096x256_S256x8x4096_1_2_0_01_n_n_wf
def dot_S8x8x32x4096_S8x8x32x256_S8x8x4096x256_2_2_3_3_01_01 : DotDims S8x8x32x4096 S8x8x32x256 S8x8x4096x256 where
  lhsContracting := [2]
  rhsContracting := [2]
  lhsNonContracting := [3]
  rhsNonContracting := [3]
  lhsBatch := [0, 1]
  rhsBatch := [0, 1]
  wf := dot_S8x8x32x4096_S8x8x32x256_S8x8x4096x256_2_2_3_3_01_01_wf
def dot_S8x8x32x4096_S8x8x4096x256_S8x8x32x256_3_2_2_3_01_01 : DotDims S8x8x32x4096 S8x8x4096x256 S8x8x32x256 where
  lhsContracting := [3]
  rhsContracting := [2]
  lhsNonContracting := [2]
  rhsNonContracting := [3]
  lhsBatch := [0, 1]
  rhsBatch := [0, 1]
  wf := dot_S8x8x32x4096_S8x8x4096x256_S8x8x32x256_3_2_2_3_01_01_wf
def dot_S8x8x32x256_S8x8x32x4096_S8x8x256x4096_2_2_3_3_01_01 : DotDims S8x8x32x256 S8x8x32x4096 S8x8x256x4096 where
  lhsContracting := [2]
  rhsContracting := [2]
  lhsNonContracting := [3]
  rhsNonContracting := [3]
  lhsBatch := [0, 1]
  rhsBatch := [0, 1]
  wf := dot_S8x8x32x256_S8x8x32x4096_S8x8x256x4096_2_2_3_3_01_01_wf
def dot_S8x8x32x256_S8x8x256x4096_S8x8x32x4096_3_2_2_3_01_01 : DotDims S8x8x32x256 S8x8x256x4096 S8x8x32x4096 where
  lhsContracting := [3]
  rhsContracting := [2]
  lhsNonContracting := [2]
  rhsNonContracting := [3]
  lhsBatch := [0, 1]
  rhsBatch := [0, 1]
  wf := dot_S8x8x32x256_S8x8x256x4096_S8x8x32x4096_3_2_2_3_01_01_wf

class Facts : Prop extends Facts₀ where

variable [Facts]
-- ==== Proof.K.Runs.lean ====
/-
  The launch side of the kernel program's frame: what the host lines before the tiled region leave in each
  buffer, the program read as "host lines, region, host lines", the blocks each window shows the body at a grid
  point, and how the final memory is read back at the seven argument arrays.
-/
import proofs.«409201_j15178414424521_3_alg».proof.Proof.Gen.Kernel.Launch
import proofs.«409201_j15178414424521_3_alg».proof.Proof.Gen.Kernel.Skeleton
import proofs.«409201_j15178414424521_3_alg».proof.Proof.Gen.Kernel.Loops
import proofs.«409201_j15178414424521_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- The contents of core `c`'s buffers when the region is entered: the launch contents pushed through the five
    host lines that come first (a reshape, the stacking of the three weights, their narrowing, two reshapes). -/
abbrev V₀ (c : Dev nD) : Valuation τ sig (Elt F) := StableHlo.after (List.flatten [hostOps0]) (fun b => m (c, b))
/-- The same, read at one buffer of the core. -/
abbrev V (c : Dev nD) (b : Ref sig .tc) : Buf (Elt F) ((c : Thread nD τ).loc b) := V₀ m c (Proc.devRef .tc b)

/-- No host line allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the first five host lines, then the region, then one more host line. Run from the launch
    contents it reaches the region at `V`, and what is left to run after the region is that last line. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The line after the region touches only buffers that are a window's array or bypass the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- It writes its own result buffer only, which is no window's array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-! ## The argument arrays at the region's entry

Each of the five host lines writes a buffer of its own (`main_v0` … `main_v4`), never an argument array: an
argument array enters the region as it was launched. -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

/-! ## The argument arrays at the end

An argument array that is no window's array bypasses the region, and the last host line does not write it either. -/

theorem W_main_arg0 (dats : (p : Fin _) → (c : Dev nD) → Dat τ (Elt F) Unit ℕ (UR sig nD τ) ℕ (cfgs p) c) (c : Dev nD) :
    Pipeline.afterTail₀ cfgs dats 0 (V₀ m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V₀ m c) _ main_arg0 (by exact (by decide : ∀ w, Pipeline.arrRef spec0 w ≠ main_arg0))]
  exact V_main_arg0 m c
theorem W_main_arg2 (dats : (p : Fin _) → (c : Dev nD) → Dat τ (Elt F) Unit ℕ (UR sig nD τ) ℕ (cfgs p) c) (c : Dev nD) :
    Pipeline.afterTail₀ cfgs dats 0 (V₀ m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V₀ m c) _ main_arg2 (by exact (by decide : ∀ w, Pipeline.arrRef spec0 w ≠ main_arg2))]
  exact V_main_arg2 m c
theorem W_main_arg3 (dats : (p : Fin _) → (c : Dev nD) → Dat τ (Elt F) Unit ℕ (UR sig nD τ) ℕ (cfgs p) c) (c : Dev nD) :
    Pipeline.afterTail₀ cfgs dats 0 (V₀ m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V₀ m c) _ main_arg3 (by exact (by decide : ∀ w, Pipeline.arrRef spec0 w ≠ main_arg3))]
  exact V_main_arg3 m c
theorem W_main_arg4 (dats : (p : Fin _) → (c : Dev nD) → Dat τ (Elt F) Unit ℕ (UR sig nD τ) ℕ (cfgs p) c) (c : Dev nD) :
    Pipeline.afterTail₀ cfgs dats 0 (V₀ m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V₀ m c) _ main_arg4 (by exact (by decide : ∀ w, Pipeline.arrRef spec0 w ≠ main_arg4))]
  exact V_main_arg4 m c
theorem W_main_arg5 (dats : (p : Fin _) → (c : Dev nD) → Dat τ (Elt F) Unit ℕ (UR sig nD τ) ℕ (cfgs p) c) (c : Dev nD) :
    Pipeline.afterTail₀ cfgs dats 0 (V₀ m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V₀ m c) _ main_arg5 (by exact (by decide : ∀ w, Pipeline.arrRef spec0 w ≠ main_arg5))]
  exact V_main_arg5 m c
theorem W_main_arg6 (dats : (p : Fin _) → (c : Dev nD) → Dat τ (Elt F) Unit ℕ (UR sig nD τ) ℕ (cfgs p) c) (c : Dev nD) :
    Pipeline.afterTail₀ cfgs dats 0 (V₀ m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V₀ m c) _ main_arg6 (by exact (by decide : ∀ w, Pipeline.arrRef spec0 w ≠ main_arg6))]
  exact V_main_arg6 m c

/-! ## The windows' blocks -/

/-- The block window `w` shows at grid point `t`, cut out of its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's staging buffer holds the window's block at every point, whether the block was fetched at
    that point or an earlier one (the block index has then not moved): for any proof data whose array is the
    region-entry contents and whose body leaves the block where it found it. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame statement from a run of the region -/

/-- A run that ends with every window's array at what the proof data compute and every bypassing buffer at what
    the last host line leaves, ends with the seven argument arrays as launched: the mask is an input window's
    array (inputs are never written back), the other six bypass the region. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V₀ m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_arg0 (Pipeline.mem_restRefs_of main_arg0 (by decide) (by decide))).trans (W_main_arg0 m dats c),
     ((h c).1 1).trans (((dats 0 c).arrAt_in 1 rfl _).trans ((hA c 1).trans (V_main_arg1 m c))),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c),
     ((h c).2 main_arg4 (Pipeline.mem_restRefs_of main_arg4 (by decide) (by decide))).trans (W_main_arg4 m dats c),
     ((h c).2 main_arg5 (Pipeline.mem_restRefs_of main_arg5 (by decide) (by decide))).trans (W_main_arg5 m dats c),
     ((h c).2 main_arg6 (Pipeline.mem_restRefs_of main_arg6 (by decide) (by decide))).trans (W_main_arg6 m dats c)⟩) h

/-! ## The memrefs the body is called with -/

/-- One staging buffer of the output window, through which the output block's contents are stated (which of the
    two is chosen does not matter: both are whole buffers of the block's shape). -/
abbrev VO0_5 : View sig .tc .vmem S1x256x4096 .f32 := (Memref.whole cc0_stg5_0 : Memref sig .tc .vmem S1x256x4096 .f32).view
/-- Each window's current staging memref at point `t`, and that it is a whole buffer. -/
abbrev ms0_0 (t : Fin cfg0.N) : Memref sig .tc .vmem S1x256x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S768x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256x4096 .f32 := win0_5.stage (cfg0.slots t 5)
abbrev hs0_5 (t : Fin cfg0.N) : (ms0_5 t).IsWhole := hstage0_5 ((cfg0.slots t 5).cast nbuf0_5)
/-- The three scratch operands: whole buffers of the kernel's own, passed beside the windows. -/
abbrev scM0_0 : Memref sig .tc .vmem S256x4096 .bf16 := Memref.whole cc0_scratch0
abbrev scM0_1 : Memref sig .tc .vmem S256x256 .bf16 := Memref.whole cc0_scratch1
abbrev scM0_2 : Memref sig .tc .vmem S768x4096 .bf16 := Memref.whole cc0_scratch2

/-- What the region keeps between points: the three scratch buffers, each whole at some contents, and the
    random-number register at some state. The body is handed these and gives them back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Fr

end
-- ==== Proof.K.RunA.lean ====
/-
  The kernel body run once, from start to end, on any nine whole memory regions.

  The body reads five inputs (the activations, the mask, the stacked weights, the two affine vectors of the
  normalisation), owns three work buffers (the normalised activations, the scaled tokens, the stacked
  query/key/value rows) and one output. It first fills the three work buffers, each by one store of the whole
  buffer: the normalised activations first, which are then read back to compute the tokens and the
  query/key/value rows. It then runs eight trips, one per head; trip h reads the blocks of the tokens and of the
  query/key/value rows that belong to head h and stores one block of 32 rows of the output, rows 32h to 32h+31.

  What is proved: started with the five inputs at their contents and the other four regions at anything, the
  body ends with the inputs as they were, the three work buffers at some contents, and the output holding
  the listed blocks written over whatever it held. The list of blocks is the witness of the statement; it is
  found by the run (the blocks of the eight trips, the last trip's in front, computed from the two work buffers the
  trips read as their whole-buffer stores left them) and is never written out here.
-/
import proofs.«409201_j15178414424521_3_alg».proof.Proof.K.Runs

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The blocks the body leaves in the output region (the last trip's in front), with the proof that the body, given
    the five inputs at `x0 … x4` and the output and the three work buffers at any contents, reaches its
    continuation holding the inputs unchanged, the output with those blocks written over its old contents, and
    each work buffer at some contents.

    The steps before the loop are followed one by one: a load of a region held at known contents returns those
    contents, a store of a whole buffer replaces what it held, and a later load of that buffer returns what was
    stored. The eight trips are passed in one step by the loop's invariant: before trip k the two work buffers
    the trips read are as the stores left them and the output holds the blocks of trips 0 … k-1. -/
noncomputable def kernelRun0_A (c : Dev nD) (i : grid0.Coords)
    (arg1 : Memref sig .tc .vmem S1x256x4096 .f32) (harg1 : arg1.IsWhole) (arg2 : Memref sig .tc .vmem S1x256x4096 .f32) (harg2 : arg2.IsWhole)
    (arg3 : Memref sig .tc .vmem S768x256 .bf16) (harg3 : arg3.IsWhole) (arg4 : Memref sig .tc .vmem S256x1 .f32) (harg4 : arg4.IsWhole)
    (arg5 : Memref sig .tc .vmem S256x1 .f32) (harg5 : arg5.IsWhole) (arg6 : Memref sig .tc .vmem S1x256x4096 .f32) (harg6 : arg6.IsWhole)
    (arg7 : Memref sig .tc .vmem S256x4096 .bf16) (harg7 : arg7.IsWhole) (arg8 : Memref sig .tc .vmem S256x256 .bf16) (harg8 : arg8.IsWhole)
    (arg9 : Memref sig .tc .vmem S768x4096 .bf16) (harg9 : arg9.IsWhole)
    (x0 x1 : Vec F S1x256x4096 .f32) (x2 : Vec F S768x256 .bf16) (x3 x4 : Vec F S256x1 .f32) :
    { L5 : List (View.Piece (Elt F) S1x256x4096 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d)
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0__kernel i arg1 harg1 arg2 harg2 arg3 harg3 arg4 harg4 arg5 harg5 arg6 harg6 arg7 harg7 arg8 harg8 arg9 harg9) K } := by
  refine ⟨?_, fun E K => ?run⟩
  case run =>
    -- the body as its sequence of loads and stores over named values
    simp only [cc0__kernel_eq_skeleton]; unfold cc0__kernel_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, Hk⟩
    -- a whole region that reads as x holds exactly x
    obtain rfl := harg1.eq_unread hf0
    obtain rfl := harg2.eq_unread hf1
    obtain rfl := harg3.eq_unread hf2
    obtain rfl := harg4.eq_unread hf3
    obtain rfl := harg5.eq_unread hf4
    -- the loads and stores in order, the eight trips by their invariant
    sl_exec
    sl_step
    iapply Hk
    -- each input is still the whole region reading as its contents
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    -- the output: the trips' blocks over its old contents (this fixes the witness)
    isplitl [H5]; · iexists _; iexact H5
    -- the work buffers: at whatever they now read as
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

/-- The witness read off: the blocks of the eight trips (the last trip's in front), computed from the two work
    buffers the trips read, each as the one store of the whole buffer left it over whatever it held. The two
    sides are the same term once the run's definition is opened. -/
theorem kernelRun0_A_pieces (c : Dev nD) (i : grid0.Coords)
    (arg1 : Memref sig .tc .vmem S1x256x4096 .f32) (harg1 : arg1.IsWhole) (arg2 : Memref sig .tc .vmem S1x256x4096 .f32) (harg2 : arg2.IsWhole)
    (arg3 : Memref sig .tc .vmem S768x256 .bf16) (harg3 : arg3.IsWhole) (arg4 : Memref sig .tc .vmem S256x1 .f32) (harg4 : arg4.IsWhole)
    (arg5 : Memref sig .tc .vmem S256x1 .f32) (harg5 : arg5.IsWhole) (arg6 : Memref sig .tc .vmem S1x256x4096 .f32) (harg6 : arg6.IsWhole)
    (arg7 : Memref sig .tc .vmem S256x4096 .bf16) (harg7 : arg7.IsWhole) (arg8 : Memref sig .tc .vmem S256x256 .bf16) (harg8 : arg8.IsWhole)
    (arg9 : Memref sig .tc .vmem S768x4096 .bf16) (harg9 : arg9.IsWhole)
    (x0 x1 : Vec F S1x256x4096 .f32) (x2 : Vec F S768x256 .bf16) (x3 x4 : Vec F S256x1 .f32) :
    (kernelRun0_A (F := F) c i arg1 harg1 arg2 harg2 arg3 harg3 arg4 harg4 arg5 harg5 arg6 harg6 arg7 harg7 arg8 harg8 arg9 harg9 x0 x1 x2 x3 x4).1
      = pb_k0_t1 Variants.none c none i arg1 harg1 arg2 harg2 arg3 harg3 arg4 harg4 arg5 harg5 arg6 harg6 arg7 harg7 arg8 harg8 arg9 harg9
          (arg8.view.writes (Elt F) arg8.view.junk (kernelRun0_A.sl.HS1_1 c arg1 harg1 arg2 harg2 arg4 harg4 arg5 harg5 arg7 x0 x1 x3 x4))
          (arg9.view.writes (Elt F) arg9.view.junk (kernelRun0_A.sl.HS2_1 c arg1 harg1 arg3 harg3 arg4 harg4 arg5 harg5 arg7 x0 x2 x3 x4))
          8 := by
  unfold kernelRun0_A; rfl

end Cert.Kernel.Fr

end
-- ==== Proof.K.Frame.lean ====
/-
  The frame of the kernel program: the body's run placed at every grid point, the region launched between the
  host lines, and the seven argument arrays read back unchanged at the end.
-/
import proofs.«409201_j15178414424521_3_alg».proof.Proof.K.RunA

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves in the output block -/

/-- The pieces the body's run stores into the output's staging buffer are eight slabs of 32 channels, one per
    head, at channel offsets 0, 32, …, 224: together they tile the block of 256 channels, so every position of
    the block lies in one of them. -/
theorem cover0_A_5 (c : Dev nD) (i : grid0.Coords) (arg1 : Memref sig .tc .vmem S1x256x4096 .f32) (harg1 : arg1.IsWhole) (arg2 : Memref sig .tc .vmem S1x256x4096 .f32) (harg2 : arg2.IsWhole) (arg3 : Memref sig .tc .vmem S768x256 .bf16) (harg3 : arg3.IsWhole) (arg4 : Memref sig .tc .vmem S256x1 .f32) (harg4 : arg4.IsWhole) (arg5 : Memref sig .tc .vmem S256x1 .f32) (harg5 : arg5.IsWhole) (arg6 : Memref sig .tc .vmem S1x256x4096 .f32) (harg6 : arg6.IsWhole) (arg7 : Memref sig .tc .vmem S256x4096 .bf16) (harg7 : arg7.IsWhole) (arg8 : Memref sig .tc .vmem S256x256 .bf16) (harg8 : arg8.IsWhole) (arg9 : Memref sig .tc .vmem S768x4096 .bf16) (harg9 : arg9.IsWhole)
    (x0 x1 : Vec F S1x256x4096 .f32) (x2 : Vec F S768x256 .bf16) (x3 x4 : Vec F S256x1 .f32) (y : S1x256x4096.Idx) :
    ∃ pc ∈ (kernelRun0_A c i arg1 harg1 arg2 harg2 arg3 harg3 arg4 harg4 arg5 harg5 arg6 harg6 arg7 harg7 arg8 harg8 arg9 harg9 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 x0 x1 x2 x3 x4).1 S1x32x4096.size (by sl_kernel_rfl) y

/-- What the run leaves in the output's staging buffer: its pieces read back (over contents that, the pieces
    covering the block, do not show). -/
def out0_A_5 (c : Dev nD) (i : grid0.Coords) (arg1 : Memref sig .tc .vmem S1x256x4096 .f32) (harg1 : arg1.IsWhole) (arg2 : Memref sig .tc .vmem S1x256x4096 .f32) (harg2 : arg2.IsWhole) (arg3 : Memref sig .tc .vmem S768x256 .bf16) (harg3 : arg3.IsWhole) (arg4 : Memref sig .tc .vmem S256x1 .f32) (harg4 : arg4.IsWhole) (arg5 : Memref sig .tc .vmem S256x1 .f32) (harg5 : arg5.IsWhole) (arg6 : Memref sig .tc .vmem S1x256x4096 .f32) (harg6 : arg6.IsWhole) (arg7 : Memref sig .tc .vmem S256x4096 .bf16) (harg7 : arg7.IsWhole) (arg8 : Memref sig .tc .vmem S256x256 .bf16) (harg8 : arg8.IsWhole) (arg9 : Memref sig .tc .vmem S768x4096 .bf16) (harg9 : arg9.IsWhole)
    (x0 x1 : Vec F S1x256x4096 .f32) (x2 : Vec F S768x256 .bf16) (x3 x4 : Vec F S256x1 .f32) : Vec F S1x256x4096 .f32 :=
  VO0_5.read (Elt F) (VO0_5.writes (Elt F) VO0_5.junk (kernelRun0_A c i arg1 harg1 arg2 harg2 arg3 harg3 arg4 harg4 arg5 harg5 arg6 harg6 arg7 harg7 arg8 harg8 arg9 harg9 x0 x1 x2 x3 x4).1)

/-- What the output's staging buffer holds after the body at grid point `t`: the run's contents at that point's
    memrefs and the five input blocks there (the batch's image, its mask, the stacked weights, scale and shift). -/
def outsAt0 (c : Dev nD) (t : Fin cfg0.N) : Vec F S1x256x4096 .f32 :=
  out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) (iblk m c 4 t)

/-! ## The proof data of the region -/

/-- On core `c`: the arrays as the region finds them; after the body at point `t` each input's buffer still at
    its block and the output's at `outsAt0`; between points the three scratch buffers and the random-number
    register at anything; full shares; nothing owed to other cores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t)
  Φ _ := Pipeline.ΦA spec0 c
  q _ := fullShare
  owed _ := 0

/-- The proof data's arrays are the region-entry contents (read off the definition, the host lines never opened). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outsAt0 m c t := by dsimp only [dats]

/-- Each input's current staging buffer holds its block at every point, fetched there or earlier. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body at a grid point -/

/-- What the body is called with at point `t`: the invariant, what the core owes, and each window's current
    staging buffer at what it then holds, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

/-- The body at any point. The five inputs' buffers hold their blocks, so the run applies; the invariant hands
    it the three scratch buffers at some contents and takes them back at some contents; the inputs come back as
    they were; the output's buffer comes back with the run's pieces written, which cover it, so it holds
    `outsAt0`; the core owes nothing before or after. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  unfold outsAt0
  unfold out0_A_5
  iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
  iapply ((kernelRun0_A c (grid0.coords t) _ _ _ _ _ _ _ _ _ _ _ _ _ _ _ _ _ _ (iblk m c 0 t) (iblk m c 1 t) (iblk m c 2 t) (iblk m c 3 t) (iblk m c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  iintro ⟨H0, H1, H2, H3, H4, ⟨%e5, H5⟩, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover0_A_5 c _ _ _ _ _ _ _ _ _ _ _ _ _ _ _ _ _ _ _ _ _ _ _ _)

/-- The same at every point, in the form the launch asks for (the windows as one indexed conjunction). -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of the program on the cores terminates, and
    at the end every window's array holds what the proof data compute (the output array: the blocks the points
    wrote back) and every other buffer outside the region's own what the last host line leaves. -/
theorem run_main : θ_run defs (onTc (τ := τ) (main (F := F))) (s₀ m ρ) (Pipeline.FramePost cfgs (dats m) 0 (Pipeline.afterTail₀ cfgs (dats m) 0 (V₀ m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V₀ m) (opss := [hostOps1]) (hsub := sfx_sub) (hfresh := sfx_fresh) (hkeep := sfx_keeps)
    (hmain := hmain m Variants.none) (hA := A_eq m) (hΦ := fun _ _ => rfl)

/-- The program runs to the end and leaves its seven argument arrays as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Fr

end
-- ==== Proof.KI.Runs.lean ====
/-
  The launch side of the kernel program's frame: what the host lines before the tiled region leave in each
  buffer, the program read as "host lines, region, host lines", the blocks each window shows the body at a grid
  point, and how the final memory is read back at the seven argument arrays.
-/
import proofs.«409201_j15178414424521_3_alg».proof.Proof.Gen.KernelIdeal.Launch
import proofs.«409201_j15178414424521_3_alg».proof.Proof.Gen.KernelIdeal.Skeleton
import proofs.«409201_j15178414424521_3_alg».proof.Proof.Gen.KernelIdeal.Loops
import proofs.«409201_j15178414424521_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- The contents of core `c`'s buffers when the region is entered: the launch contents pushed through the five
    host lines that come first (a reshape, the stacking of the three weights, their narrowing, two reshapes). -/
abbrev V₀ (c : Dev nD) : Valuation τ sig (Elt F) := StableHlo.after (List.flatten [hostOps0]) (fun b => m (c, b))
/-- The same, read at one buffer of the core. -/
abbrev V (c : Dev nD) (b : Ref sig .tc) : Buf (Elt F) ((c : Thread nD τ).loc b) := V₀ m c (Proc.devRef .tc b)

/-- No host line allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the first five host lines, then the region, then one more host line. Run from the launch
    contents it reaches the region at `V`, and what is left to run after the region is that last line. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The line after the region touches only buffers that are a window's array or bypass the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- It writes its own result buffer only, which is no window's array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-! ## The argument arrays at the region's entry

Each of the five host lines writes a buffer of its own (`main_v0` … `main_v4`), never an argument array: an
argument array enters the region as it was launched. -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

/-! ## The argument arrays at the end

An argument array that is no window's array bypasses the region, and the last host line does not write it either. -/

theorem W_main_arg0 (dats : (p : Fin _) → (c : Dev nD) → Dat τ (Elt F) Unit ℕ (UR sig nD τ) ℕ (cfgs p) c) (c : Dev nD) :
    Pipeline.afterTail₀ cfgs dats 0 (V₀ m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V₀ m c) _ main_arg0 (by exact (by decide : ∀ w, Pipeline.arrRef spec0 w ≠ main_arg0))]
  exact V_main_arg0 m c
theorem W_main_arg2 (dats : (p : Fin _) → (c : Dev nD) → Dat τ (Elt F) Unit ℕ (UR sig nD τ) ℕ (cfgs p) c) (c : Dev nD) :
    Pipeline.afterTail₀ cfgs dats 0 (V₀ m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V₀ m c) _ main_arg2 (by exact (by decide : ∀ w, Pipeline.arrRef spec0 w ≠ main_arg2))]
  exact V_main_arg2 m c
theorem W_main_arg3 (dats : (p : Fin _) → (c : Dev nD) → Dat τ (Elt F) Unit ℕ (UR sig nD τ) ℕ (cfgs p) c) (c : Dev nD) :
    Pipeline.afterTail₀ cfgs dats 0 (V₀ m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V₀ m c) _ main_arg3 (by exact (by decide : ∀ w, Pipeline.arrRef spec0 w ≠ main_arg3))]
  exact V_main_arg3 m c
theorem W_main_arg4 (dats : (p : Fin _) → (c : Dev nD) → Dat τ (Elt F) Unit ℕ (UR sig nD τ) ℕ (cfgs p) c) (c : Dev nD) :
    Pipeline.afterTail₀ cfgs dats 0 (V₀ m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V₀ m c) _ main_arg4 (by exact (by decide : ∀ w, Pipeline.arrRef spec0 w ≠ main_arg4))]
  exact V_main_arg4 m c
theorem W_main_arg5 (dats : (p : Fin _) → (c : Dev nD) → Dat τ (Elt F) Unit ℕ (UR sig nD τ) ℕ (cfgs p) c) (c : Dev nD) :
    Pipeline.afterTail₀ cfgs dats 0 (V₀ m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V₀ m c) _ main_arg5 (by exact (by decide : ∀ w, Pipeline.arrRef spec0 w ≠ main_arg5))]
  exact V_main_arg5 m c
theorem W_main_arg6 (dats : (p : Fin _) → (c : Dev nD) → Dat τ (Elt F) Unit ℕ (UR sig nD τ) ℕ (cfgs p) c) (c : Dev nD) :
    Pipeline.afterTail₀ cfgs dats 0 (V₀ m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V₀ m c) _ main_arg6 (by exact (by decide : ∀ w, Pipeline.arrRef spec0 w ≠ main_arg6))]
  exact V_main_arg6 m c

/-! ## The windows' blocks -/

/-- The block window `w` shows at grid point `t`, cut out of its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's staging buffer holds the window's block at every point, whether the block was fetched at
    that point or an earlier one (the block index has then not moved): for any proof data whose array is the
    region-entry contents and whose body leaves the block where it found it. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame statement from a run of the region -/

/-- A run that ends with every window's array at what the proof data compute and every bypassing buffer at what
    the last host line leaves, ends with the seven argument arrays as launched: the mask is an input window's
    array (inputs are never written back), the other six bypass the region. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V₀ m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_arg0 (Pipeline.mem_restRefs_of main_arg0 (by decide) (by decide))).trans (W_main_arg0 m dats c),
     ((h c).1 1).trans (((dats 0 c).arrAt_in 1 rfl _).trans ((hA c 1).trans (V_main_arg1 m c))),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c),
     ((h c).2 main_arg4 (Pipeline.mem_restRefs_of main_arg4 (by decide) (by decide))).trans (W_main_arg4 m dats c),
     ((h c).2 main_arg5 (Pipeline.mem_restRefs_of main_arg5 (by decide) (by decide))).trans (W_main_arg5 m dats c),
     ((h c).2 main_arg6 (Pipeline.mem_restRefs_of main_arg6 (by decide) (by decide))).trans (W_main_arg6 m dats c)⟩) h

/-! ## The memrefs the body is called with -/

/-- One staging buffer of the output window, through which the output block's contents are stated (which of the
    two is chosen does not matter: both are whole buffers of the block's shape). -/
abbrev VO0_5 : View sig .tc .vmem S1x256x4096 .f32 := (Memref.whole cc0_stg5_0 : Memref sig .tc .vmem S1x256x4096 .f32).view
/-- Each window's current staging memref at point `t`, and that it is a whole buffer. -/
abbrev ms0_0 (t : Fin cfg0.N) : Memref sig .tc .vmem S1x256x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S768x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256x4096 .f32 := win0_5.stage (cfg0.slots t 5)
abbrev hs0_5 (t : Fin cfg0.N) : (ms0_5 t).IsWhole := hstage0_5 ((cfg0.slots t 5).cast nbuf0_5)
/-- The three scratch operands: whole buffers of the kernel's own, passed beside the windows. -/
abbrev scM0_0 : Memref sig .tc .vmem S256x4096 .bf16 := Memref.whole cc0_scratch0
abbrev scM0_1 : Memref sig .tc .vmem S256x256 .bf16 := Memref.whole cc0_scratch1
abbrev scM0_2 : Memref sig .tc .vmem S768x4096 .bf16 := Memref.whole cc0_scratch2

/-- What the region keeps between points: the three scratch buffers, each whole at some contents, and the
    random-number register at some state. The body is handed these and gives them back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Fr

end
-- ==== Proof.KI.RunA.lean ====
/-
  The kernel body run once, from start to end, on any nine whole memory regions.

  The body reads five inputs (the activations, the mask, the stacked weights, the two affine vectors of the
  normalisation), owns three work buffers (the normalised activations, the scaled tokens, the stacked
  query/key/value rows) and one output. It first fills the three work buffers, each by one store of the whole
  buffer: the normalised activations first, which are then read back to compute the tokens and the
  query/key/value rows. It then runs eight trips, one per head; trip h reads the blocks of the tokens and of the
  query/key/value rows that belong to head h and stores one block of 32 rows of the output, rows 32h to 32h+31.

  What is proved: started with the five inputs at their contents and the other four regions at anything, the
  body ends with the inputs as they were, the three work buffers at some contents, and the output holding
  the listed blocks written over whatever it held. The list of blocks is the witness of the statement; it is
  found by the run (the blocks of the eight trips, the last trip's in front, computed from the two work buffers the
  trips read as their whole-buffer stores left them) and is never written out here.
-/
import proofs.«409201_j15178414424521_3_alg».proof.Proof.KI.Runs

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The blocks the body leaves in the output region (the last trip's in front), with the proof that the body, given
    the five inputs at `x0 … x4` and the output and the three work buffers at any contents, reaches its
    continuation holding the inputs unchanged, the output with those blocks written over its old contents, and
    each work buffer at some contents.

    The steps before the loop are followed one by one: a load of a region held at known contents returns those
    contents, a store of a whole buffer replaces what it held, and a later load of that buffer returns what was
    stored. The eight trips are passed in one step by the loop's invariant: before trip k the two work buffers
    the trips read are as the stores left them and the output holds the blocks of trips 0 … k-1. -/
noncomputable def kernelRun0_A (c : Dev nD) (i : grid0.Coords)
    (arg1 : Memref sig .tc .vmem S1x256x4096 .f32) (harg1 : arg1.IsWhole) (arg2 : Memref sig .tc .vmem S1x256x4096 .f32) (harg2 : arg2.IsWhole)
    (arg3 : Memref sig .tc .vmem S768x256 .bf16) (harg3 : arg3.IsWhole) (arg4 : Memref sig .tc .vmem S256x1 .f32) (harg4 : arg4.IsWhole)
    (arg5 : Memref sig .tc .vmem S256x1 .f32) (harg5 : arg5.IsWhole) (arg6 : Memref sig .tc .vmem S1x256x4096 .f32) (harg6 : arg6.IsWhole)
    (arg7 : Memref sig .tc .vmem S256x4096 .bf16) (harg7 : arg7.IsWhole) (arg8 : Memref sig .tc .vmem S256x256 .bf16) (harg8 : arg8.IsWhole)
    (arg9 : Memref sig .tc .vmem S768x4096 .bf16) (harg9 : arg9.IsWhole)
    (x0 x1 : Vec F S1x256x4096 .f32) (x2 : Vec F S768x256 .bf16) (x3 x4 : Vec F S256x1 .f32) :
    { L5 : List (View.Piece (Elt F) S1x256x4096 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d)
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0__kernel i arg1 harg1 arg2 harg2 arg3 harg3 arg4 harg4 arg5 harg5 arg6 harg6 arg7 harg7 arg8 harg8 arg9 harg9) K } := by
  refine ⟨?_, fun E K => ?run⟩
  case run =>
    -- the body as its sequence of loads and stores over named values
    simp only [cc0__kernel_eq_skeleton]; unfold cc0__kernel_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, Hk⟩
    -- a whole region that reads as x holds exactly x
    obtain rfl := harg1.eq_unread hf0
    obtain rfl := harg2.eq_unread hf1
    obtain rfl := harg3.eq_unread hf2
    obtain rfl := harg4.eq_unread hf3
    obtain rfl := harg5.eq_unread hf4
    -- the loads and stores in order, the eight trips by their invariant
    sl_exec
    sl_step
    iapply Hk
    -- each input is still the whole region reading as its contents
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    -- the output: the trips' blocks over its old contents (this fixes the witness)
    isplitl [H5]; · iexists _; iexact H5
    -- the work buffers: at whatever they now read as
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

/-- The witness read off: the blocks of the eight trips (the last trip's in front), computed from the two work
    buffers the trips read, each as the one store of the whole buffer left it over whatever it held. The two
    sides are the same term once the run's definition is opened. -/
theorem kernelRun0_A_pieces (c : Dev nD) (i : grid0.Coords)
    (arg1 : Memref sig .tc .vmem S1x256x4096 .f32) (harg1 : arg1.IsWhole) (arg2 : Memref sig .tc .vmem S1x256x4096 .f32) (harg2 : arg2.IsWhole)
    (arg3 : Memref sig .tc .vmem S768x256 .bf16) (harg3 : arg3.IsWhole) (arg4 : Memref sig .tc .vmem S256x1 .f32) (harg4 : arg4.IsWhole)
    (arg5 : Memref sig .tc .vmem S256x1 .f32) (harg5 : arg5.IsWhole) (arg6 : Memref sig .tc .vmem S1x256x4096 .f32) (harg6 : arg6.IsWhole)
    (arg7 : Memref sig .tc .vmem S256x4096 .bf16) (harg7 : arg7.IsWhole) (arg8 : Memref sig .tc .vmem S256x256 .bf16) (harg8 : arg8.IsWhole)
    (arg9 : Memref sig .tc .vmem S768x4096 .bf16) (harg9 : arg9.IsWhole)
    (x0 x1 : Vec F S1x256x4096 .f32) (x2 : Vec F S768x256 .bf16) (x3 x4 : Vec F S256x1 .f32) :
    (kernelRun0_A (F := F) c i arg1 harg1 arg2 harg2 arg3 harg3 arg4 harg4 arg5 harg5 arg6 harg6 arg7 harg7 arg8 harg8 arg9 harg9 x0 x1 x2 x3 x4).1
      = pb_k0_t1 Variants.none c none i arg1 harg1 arg2 harg2 arg3 harg3 arg4 harg4 arg5 harg5 arg6 harg6 arg7 harg7 arg8 harg8 arg9 harg9
          (arg8.view.writes (Elt F) arg8.view.junk (kernelRun0_A.sl.HS1_1 c arg1 harg1 arg2 harg2 arg4 harg4 arg5 harg5 arg7 x0 x1 x3 x4))
          (arg9.view.writes (Elt F) arg9.view.junk (kernelRun0_A.sl.HS2_1 c arg1 harg1 arg3 harg3 arg4 harg4 arg5 harg5 arg7 x0 x2 x3 x4))
          8 := by
  unfold kernelRun0_A; rfl

end Cert.KernelIdeal.Fr

end
-- ==== Proof.KI.Frame.lean ====
/-
  The frame of the kernel program: the body's run placed at every grid point, the region launched between the
  host lines, and the seven argument arrays read back unchanged at the end.
-/
import proofs.«409201_j15178414424521_3_alg».proof.Proof.KI.RunA

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves in the output block -/

/-- The pieces the body's run stores into the output's staging buffer are eight slabs of 32 channels, one per
    head, at channel offsets 0, 32, …, 224: together they tile the block of 256 channels, so every position of
    the block lies in one of them. -/
theorem cover0_A_5 (c : Dev nD) (i : grid0.Coords) (arg1 : Memref sig .tc .vmem S1x256x4096 .f32) (harg1 : arg1.IsWhole) (arg2 : Memref sig .tc .vmem S1x256x4096 .f32) (harg2 : arg2.IsWhole) (arg3 : Memref sig .tc .vmem S768x256 .bf16) (harg3 : arg3.IsWhole) (arg4 : Memref sig .tc .vmem S256x1 .f32) (harg4 : arg4.IsWhole) (arg5 : Memref sig .tc .vmem S256x1 .f32) (harg5 : arg5.IsWhole) (arg6 : Memref sig .tc .vmem S1x256x4096 .f32) (harg6 : arg6.IsWhole) (arg7 : Memref sig .tc .vmem S256x4096 .bf16) (harg7 : arg7.IsWhole) (arg8 : Memref sig .tc .vmem S256x256 .bf16) (harg8 : arg8.IsWhole) (arg9 : Memref sig .tc .vmem S768x4096 .bf16) (harg9 : arg9.IsWhole)
    (x0 x1 : Vec F S1x256x4096 .f32) (x2 : Vec F S768x256 .bf16) (x3 x4 : Vec F S256x1 .f32) (y : S1x256x4096.Idx) :
    ∃ pc ∈ (kernelRun0_A c i arg1 harg1 arg2 harg2 arg3 harg3 arg4 harg4 arg5 harg5 arg6 harg6 arg7 harg7 arg8 harg8 arg9 harg9 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 x0 x1 x2 x3 x4).1 S1x32x4096.size (by sl_kernel_rfl) y

/-- What the run leaves in the output's staging buffer: its pieces read back (over contents that, the pieces
    covering the block, do not show). -/
def out0_A_5 (c : Dev nD) (i : grid0.Coords) (arg1 : Memref sig .tc .vmem S1x256x4096 .f32) (harg1 : arg1.IsWhole) (arg2 : Memref sig .tc .vmem S1x256x4096 .f32) (harg2 : arg2.IsWhole) (arg3 : Memref sig .tc .vmem S768x256 .bf16) (harg3 : arg3.IsWhole) (arg4 : Memref sig .tc .vmem S256x1 .f32) (harg4 : arg4.IsWhole) (arg5 : Memref sig .tc .vmem S256x1 .f32) (harg5 : arg5.IsWhole) (arg6 : Memref sig .tc .vmem S1x256x4096 .f32) (harg6 : arg6.IsWhole) (arg7 : Memref sig .tc .vmem S256x4096 .bf16) (harg7 : arg7.IsWhole) (arg8 : Memref sig .tc .vmem S256x256 .bf16) (harg8 : arg8.IsWhole) (arg9 : Memref sig .tc .vmem S768x4096 .bf16) (harg9 : arg9.IsWhole)
    (x0 x1 : Vec F S1x256x4096 .f32) (x2 : Vec F S768x256 .bf16) (x3 x4 : Vec F S256x1 .f32) : Vec F S1x256x4096 .f32 :=
  VO0_5.read (Elt F) (VO0_5.writes (Elt F) VO0_5.junk (kernelRun0_A c i arg1 harg1 arg2 harg2 arg3 harg3 arg4 harg4 arg5 harg5 arg6 harg6 arg7 harg7 arg8 harg8 arg9 harg9 x0 x1 x2 x3 x4).1)

/-- What the output's staging buffer holds after the body at grid point `t`: the run's contents at that point's
    memrefs and the five input blocks there (the batch's image, its mask, the stacked weights, scale and shift). -/
def outsAt0 (c : Dev nD) (t : Fin cfg0.N) : Vec F S1x256x4096 .f32 :=
  out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) (iblk m c 4 t)

/-! ## The proof data of the region -/

/-- On core `c`: the arrays as the region finds them; after the body at point `t` each input's buffer still at
    its block and the output's at `outsAt0`; between points the three scratch buffers and the random-number
    register at anything; full shares; nothing owed to other cores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t)
  Φ _ := Pipeline.ΦA spec0 c
  q _ := fullShare
  owed _ := 0

/-- The proof data's arrays are the region-entry contents (read off the definition, the host lines never opened). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outsAt0 m c t := by dsimp only [dats]

/-- Each input's current staging buffer holds its block at every point, fetched there or earlier. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body at a grid point -/

/-- What the body is called with at point `t`: the invariant, what the core owes, and each window's current
    staging buffer at what it then holds, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

/-- The body at any point. The five inputs' buffers hold their blocks, so the run applies; the invariant hands
    it the three scratch buffers at some contents and takes them back at some contents; the inputs come back as
    they were; the output's buffer comes back with the run's pieces written, which cover it, so it holds
    `outsAt0`; the core owes nothing before or after. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  unfold outsAt0
  unfold out0_A_5
  iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
  iapply ((kernelRun0_A c (grid0.coords t) _ _ _ _ _ _ _ _ _ _ _ _ _ _ _ _ _ _ (iblk m c 0 t) (iblk m c 1 t) (iblk m c 2 t) (iblk m c 3 t) (iblk m c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  iintro ⟨H0, H1, H2, H3, H4, ⟨%e5, H5⟩, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover0_A_5 c _ _ _ _ _ _ _ _ _ _ _ _ _ _ _ _ _ _ _ _ _ _ _ _)

/-- The same at every point, in the form the launch asks for (the windows as one indexed conjunction). -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of the program on the cores terminates, and
    at the end every window's array holds what the proof data compute (the output array: the blocks the points
    wrote back) and every other buffer outside the region's own what the last host line leaves. -/
theorem run_main : θ_run defs (onTc (τ := τ) (main (F := F))) (s₀ m ρ) (Pipeline.FramePost cfgs (dats m) 0 (Pipeline.afterTail₀ cfgs (dats m) 0 (V₀ m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V₀ m) (opss := [hostOps1]) (hsub := sfx_sub) (hfresh := sfx_fresh) (hkeep := sfx_keeps)
    (hmain := hmain m Variants.none) (hA := A_eq m) (hΦ := fun _ _ => rfl)

/-- The program runs to the end and leaves its seven argument arrays as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Fr

end
-- ==== Proof.Spec.lean ====
/-
  The mathematics both programs compute, over the extended reals, written as plain functions of the
  argument arrays read as `x b c n` (batch, channel, pixel), `mk b m n` (batch, superpixel, pixel),
  one stacked weight matrix `w o c` (rows 0–255 the query weights, 256–511 the key weights, 512–767
  the value weights) and the two normalisation vectors.

  Both programs normalise each pixel over its 256 channels, pool the normalised pixels into 256
  superpixel tokens by the affinities (dividing by the affinities' sum plus a small constant),
  project queries, keys and values, and run, head by head (8 heads of 32 channels), a softmax over
  the pixels (keys against tokens) followed by a softmax over the superpixels (tokens against
  queries).  They differ in where the score scale sits (the kernel folds it into the tokens once;
  the reference multiplies each score matrix) and in where each softmax divides (the kernel divides
  the small product by the column sum; the reference normalises the weights first).  `outK` is the
  kernel's arrangement, `outR` the reference's; `outK_eq_outR` says they agree wherever every input
  is finite and no pooling divisor is zero.
-/
import Idealize.ShloMosaic.PureOps.Ideal
import Idealize.ShloMosaic.PureOps.Ideal.Laws
import Idealize.ShloMosaic.Lib.ValueIdx

noncomputable section

namespace Cert.Spec

open Idealize.ShloMosaic
open scoped BigOperators

/-- The literals the two programs share, as the extended reals their words denote. -/
abbrev c256 : EReal := Ideal.ofBits .f32 0x43800000#32
abbrev epsLn : EReal := Ideal.ofBits .f32 0x358637BD#32
abbrev epsSp : EReal := Ideal.ofBits .f32 0x24E69595#32
abbrev scl : EReal := Ideal.ofBits .f32 0x3E3504F3#32
abbrev negInf : EReal := Ideal.ofBits .f32 0xFF800000#32

/-- Channel `32 h + d` of head `h`. -/
def hd (h : Fin 8) (d : Fin 32) : Fin 256 := ⟨32 * h.val + d.val, by omega⟩
/-- The stacked weight rows of head `h`'s queries, keys and values. -/
def qrow (h : Fin 8) (d : Fin 32) : Fin 768 := ⟨32 * h.val + d.val, by omega⟩
def krow (h : Fin 8) (d : Fin 32) : Fin 768 := ⟨256 + (32 * h.val + d.val), by omega⟩
def vrow (h : Fin 8) (d : Fin 32) : Fin 768 := ⟨512 + (32 * h.val + d.val), by omega⟩

/-- Three 256-row matrices stacked along the rows. -/
def wcat (wq wk wv : Fin 256 → Fin 256 → EReal) (o : Fin 768) (c : Fin 256) : EReal :=
  if h₁ : o.val < 256 then wq ⟨o.val, h₁⟩ c
  else if h₂ : o.val < 512 then wk ⟨o.val - 256, by omega⟩ c
  else wv ⟨o.val - 512, by omega⟩ c

section
variable (x mk : Fin 8 → Fin 256 → Fin 4096 → EReal) (w : Fin 768 → Fin 256 → EReal) (ga be : Fin 256 → EReal)

/-! ## The part the two programs share: normalisation, pooling, projections -/

/-- The channel mean at a pixel. -/
def mu (b : Fin 8) (n : Fin 4096) : EReal := Ideal.div (∑ c : Fin 256, x b c n) c256
/-- The centred value. -/
def xc (b : Fin 8) (c : Fin 256) (n : Fin 4096) : EReal := x b c n - mu x b n
/-- The channel variance at a pixel. -/
def var (b : Fin 8) (n : Fin 4096) : EReal := Ideal.div (∑ c : Fin 256, xc x b c n * xc x b c n) c256
/-- The normalised, scaled and shifted value. -/
def xn (b : Fin 8) (c : Fin 256) (n : Fin 4096) : EReal :=
  xc x b c n * Ideal.rsqrt (var x b n + epsLn) * ga c + be c
/-- The pooling divisor of a superpixel. -/
def msum (b : Fin 8) (m : Fin 256) : EReal := (∑ n : Fin 4096, mk b m n) + epsSp
/-- The affinity-weighted sum of a channel over the pixels. -/
def stok (b : Fin 8) (c m : Fin 256) : EReal := ∑ n : Fin 4096, xn x ga be b c n * mk b m n
/-- The superpixel token. -/
def sth (b : Fin 8) (c m : Fin 256) : EReal := Ideal.div (stok x mk ga be b c m) (msum mk b m)
/-- The stacked projections of the normalised pixels. -/
def proj (b : Fin 8) (o : Fin 768) (n : Fin 4096) : EReal := ∑ c : Fin 256, w o c * xn x ga be b c n

/-! ## One head: 32 query, key and value rows over the pixels, 32 token rows over the superpixels -/

end

section
variable (q k v : Fin 32 → Fin 4096 → EReal) (s : Fin 32 → Fin 256 → EReal)

/-! ### The kernel's arrangement of a head (it is handed tokens already scaled) -/

def hs1K (n : Fin 4096) (m : Fin 256) : EReal := ∑ d : Fin 32, k d n * s d m
def hm1K (m : Fin 256) : EReal := (Finset.univ : Finset (Fin 4096)).fold max negInf (fun n => hs1K k s n m)
def he1K (n : Fin 4096) (m : Fin 256) : EReal := Ideal.exp (hs1K k s n m - hm1K k s m)
def hl1K (m : Fin 256) : EReal := ∑ n : Fin 4096, he1K k s n m
def hsoK (d : Fin 32) (m : Fin 256) : EReal := Ideal.div (∑ n : Fin 4096, v d n * he1K k s n m) (hl1K k s m)
def hs2K (m : Fin 256) (n : Fin 4096) : EReal := ∑ d : Fin 32, s d m * q d n
def hm2K (n : Fin 4096) : EReal := (Finset.univ : Finset (Fin 256)).fold max negInf (fun m => hs2K q s m n)
def he2K (m : Fin 256) (n : Fin 4096) : EReal := Ideal.exp (hs2K q s m n - hm2K q s n)
def hl2K (n : Fin 4096) : EReal := ∑ m : Fin 256, he2K q s m n
/-- The kernel's head: both softmaxes divide after their products. -/
def headK (d : Fin 32) (n : Fin 4096) : EReal :=
  Ideal.div (∑ m : Fin 256, hsoK k v s d m * he2K q s m n) (hl2K q s n)

/-! ### The reference's arrangement of a head (it is handed unscaled tokens and scales each score) -/

def hs1R (n : Fin 4096) (m : Fin 256) : EReal := (∑ d : Fin 32, k d n * s d m) * scl
def hm1R (m : Fin 256) : EReal := (Finset.univ : Finset (Fin 4096)).fold max negInf (fun n => hs1R k s n m)
def he1R (n : Fin 4096) (m : Fin 256) : EReal := Ideal.exp (hs1R k s n m - hm1R k s m)
def hp1R (n : Fin 4096) (m : Fin 256) : EReal := Ideal.div (he1R k s n m) (∑ n' : Fin 4096, he1R k s n' m)
def hsoR (d : Fin 32) (m : Fin 256) : EReal := ∑ n : Fin 4096, v d n * hp1R k s n m
def hs2R (m : Fin 256) (n : Fin 4096) : EReal := (∑ d : Fin 32, s d m * q d n) * scl
def hm2R (n : Fin 4096) : EReal := (Finset.univ : Finset (Fin 256)).fold max negInf (fun m => hs2R q s m n)
def he2R (m : Fin 256) (n : Fin 4096) : EReal := Ideal.exp (hs2R q s m n - hm2R q s n)
def hp2R (m : Fin 256) (n : Fin 4096) : EReal := Ideal.div (he2R q s m n) (∑ m' : Fin 256, he2R q s m' n)
/-- The reference's head: both softmaxes normalise their weights first. -/
def headR (d : Fin 32) (n : Fin 4096) : EReal := ∑ m : Fin 256, hsoR k v s d m * hp2R q s m n

end

/-- An extended real that is a real number. -/
def Fin' (a : EReal) : Prop := a ≠ ⊤ ∧ a ≠ ⊥

section
variable (x mk : Fin 8 → Fin 256 → Fin 4096 → EReal) (w : Fin 768 → Fin 256 → EReal) (ga be : Fin 256 → EReal)

/-- The kernel's result at batch `b`, head `h`, channel `d` of the head, pixel `n`: its head over the
    projections' rows of that head and the SCALED tokens. -/
def outK (b h : Fin 8) (d : Fin 32) (n : Fin 4096) : EReal :=
  headK (fun d n => proj x w ga be b (qrow h d) n) (fun d n => proj x w ga be b (krow h d) n)
    (fun d n => proj x w ga be b (vrow h d) n) (fun d m => sth x mk ga be b (hd h d) m * scl) d n

/-- The reference's result at the same place: its head over the same rows and the unscaled tokens. -/
def outR (b h : Fin 8) (d : Fin 32) (n : Fin 4096) : EReal :=
  headR (fun d n => proj x w ga be b (qrow h d) n) (fun d n => proj x w ga be b (krow h d) n)
    (fun d n => proj x w ga be b (vrow h d) n) (fun d m => sth x mk ga be b (hd h d) m) d n

end

/-! ## The argument arrays read as the functions above, and the whole result -/

open ValueIdx in
/-- Pixel `64 i + j` of the 64×64 image. -/
def pix (i j : Fin 64) : Fin 4096 := ⟨64 * i.val + j.val, by omega⟩

section
open ValueIdx
variable (X : (⟨4, ![8, 256, 64, 64]⟩ : Shape).Idx → EReal) (M : (⟨3, ![8, 256, 4096]⟩ : Shape).Idx → EReal)
  (Wq Wk Wv : (⟨2, ![256, 256]⟩ : Shape).Idx → EReal) (Ga Be : (⟨1, ![256]⟩ : Shape).Idx → EReal)

/-- The image array with its two spatial axes flattened. -/
def x3 (b : Fin 8) (c : Fin 256) (n : Fin 4096) : EReal :=
  X (ix4 b c ⟨n.val / 64, by omega⟩ ⟨n.val % 64, by omega⟩)
def m3 (b : Fin 8) (m : Fin 256) (n : Fin 4096) : EReal := M (ix3 b m n)
def w2 (W : (⟨2, ![256, 256]⟩ : Shape).Idx → EReal) (o c : Fin 256) : EReal := W (ix2 o c)
def g1 (G : (⟨1, ![256]⟩ : Shape).Idx → EReal) (c : Fin 256) : EReal := G (ix1 c)

/-- The kernel's whole result, at batch `b`, channel `c`, image position `(i, j)`. -/
def GK (b : Fin 8) (c : Fin 256) (i j : Fin 64) : EReal :=
  outK (x3 X) (m3 M) (wcat (w2 Wq) (w2 Wk) (w2 Wv)) (g1 Ga) (g1 Be) b ⟨c.val / 32, by omega⟩ ⟨c.val % 32, by omega⟩ (pix i j)
/-- The reference's whole result at the same place. -/
def GR (b : Fin 8) (c : Fin 256) (i j : Fin 64) : EReal :=
  outR (x3 X) (m3 M) (wcat (w2 Wq) (w2 Wk) (w2 Wv)) (g1 Ga) (g1 Be) b ⟨c.val / 32, by omega⟩ ⟨c.val % 32, by omega⟩ (pix i j)

end

end Cert.Spec

end
-- ==== Proof.KV.Final.lean ====
/-
  From the kernel program's frame run to its result array, named as a function.  The region writes its result
  array one batch's slab at a time: grid point `t` writes back the block the body left at that point, and the
  eight blocks tile the array, so the array ends as ONE function of (batch, channel, pixel) — the body's output
  block of that batch at (channel, pixel).  The one host line after the region unflattens the pixel axis into the
  image's two spatial axes; at image position (i, j) it reads pixel 64 i + j.  The seven argument arrays end as
  they were launched.  No arithmetic of the body is opened here.
-/
import proofs.«409201_j15178414424521_3_alg».proof.Proof.KI.Frame
import proofs.«409201_j15178414424521_3_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## Where the result's block sits in its array -/

/-- The result window's index map, decided over the eight grid points: block index `t` on the batch axis, the
    other two axes whole. -/
theorem idx5 : ∀ t : Fin cfg0.N, win0_5.index t (0 : Fin 3) = t.val ∧ win0_5.index t (1 : Fin 3) = 0 ∧ win0_5.index t (2 : Fin 3) = 0 :=
  (by decide +kernel : ∀ t : Fin grid0.N, _)

/-- A batch is a grid point, and a grid point a batch. -/
theorem batch_lt (b : Fin 8) : b.val < cfg0.N := by rw [show cfg0.N = 8 from N_0]; exact b.isLt
theorem pt_lt (t : Fin cfg0.N) : t.val < 8 := by have := t.isLt; have h : cfg0.N = 8 := N_0; omega

/-- The whole result array of the region as ONE function: batch `b`'s slab is what the body leaves in the
    output block at grid point `b`. -/
def G5 (c : Dev nD) : S8x256x4096.Idx → EReal := fun idx =>
  outsAt0 m c ⟨(idx 0).val, batch_lt (idx 0)⟩ (ix3 (0 : Fin 1) (idx 1 : Fin 256) (idx 2 : Fin 4096) : S1x256x4096.Idx)

/-- That function at batch `b`, channel `ch`, pixel `n`. -/
theorem G5_apply (c : Dev nD) (b : Fin 8) (ch : Fin 256) (n : Fin 4096) :
    G5 m c (ix3 b ch n) = outsAt0 m c ⟨b.val, batch_lt b⟩ (ix3 0 ch n) := by
  unfold G5
  exact congrArg₂ (outsAt0 m c) (Fin.ext rfl) (funext fun a => by match a with | ⟨0, _⟩ => rfl | ⟨1, _⟩ => rfl | ⟨2, _⟩ => rfl)

/-- Position `j` of point `t`'s block is position (`t`, `j 1`, `j 2`) of the array: block index times block size plus
    the coordinate inside the block, axis by axis. -/
theorem emb5 (t : Fin cfg0.N) (j : S1x256x4096.Idx) (i : S8x256x4096.Idx) (h0 : (i 0).val = t.val) (h1 : (i 1).val = (j 1).val) (h2 : (i 2).val = (j 2).val) :
    ((cfg0.win 5).blk t).view.emb j = i := by
  obtain ⟨e0, e1, e2⟩ := idx5 t
  funext a; apply Fin.ext
  match a with
  | ⟨0, _⟩ => show win0_5.index t (0 : Fin 3) * 1 + 1 * (j 0).val = (i 0).val; have : (j 0).val < 1 := (j 0).isLt; omega
  | ⟨1, _⟩ => show win0_5.index t (1 : Fin 3) * 256 + 1 * (j 1).val = (i 1).val; omega
  | ⟨2, _⟩ => show win0_5.index t (2 : Fin 3) * 4096 + 1 * (j 2).val = (i 2).val; omega

/-! ## From the blocks to the array -/

/-- What point `t` writes back is block `t` of the whole-array function. -/
theorem flushed5_eq (c : Dev nD) (t : Fin cfg0.N) :
    (dats m 0 c).flushed 5 t = ((cfg0.win 5).blk t).view.read (Elt Ideal) (G5 m c) := by
  show (cfg0.win 5).cut (grid0.coords t) ((dats m 0 c).after 5 t) = _
  rw [after0_5]
  funext j
  have hj : (j : S1x256x4096.Idx) = ix3 (0 : Fin 1) (j 1) (j 2) := by
    funext a
    match a with
    | ⟨0, _⟩ => exact Fin.ext (by show (j 0).val = 0; have : (j 0).val < 1 := (j 0).isLt; omega)
    | ⟨1, _⟩ => rfl
    | ⟨2, _⟩ => rfl
  show outsAt0 m c t j = G5 m c (((cfg0.win 5).blk t).view.emb j)
  rw [emb5 t j (ix3 ⟨t.val, pt_lt t⟩ (j 1) (j 2)) rfl rfl rfl]
  refine Eq.trans ?_ (G5_apply m c ⟨t.val, pt_lt t⟩ (j 1) (j 2)).symm
  exact congrArg₂ (outsAt0 m c) (Fin.ext rfl) hj

/-- An index of the result array lies in point `t`'s block iff each coordinate is in the block's range. -/
theorem mem_blk5 (t : Fin cfg0.N) (i : S8x256x4096.Idx) :
    i ∈ ((cfg0.win 5).blk t).view.set ↔ ∀ a : Fin 3, win0_5.index t a * S1x256x4096.size a ≤ (i a).val ∧ (i a).val < win0_5.index t a * S1x256x4096.size a + S1x256x4096.size a := by
  show i ∈ ((View.whole main_v5).slice (win0_5.rect t)).set ↔ _
  rw [View.set_slice_whole, Rect.mem_set_unit]
  exact Iff.rfl

/-- Every index of the result array is in the block of the point that is its batch: the eight one-batch blocks
    tile the array. -/
theorem cover5 (i : S8x256x4096.Idx) : ∃ t : Fin cfg0.N, (cfg0.win 5).flush t = true ∧ i ∈ ((cfg0.win 5).blk t).view.set := by
  refine ⟨⟨(i 0).val, batch_lt (i 0)⟩, flush0_5 _, ?_⟩
  rw [mem_blk5]
  obtain ⟨e0, e1, e2⟩ := idx5 ⟨(i 0).val, batch_lt (i 0)⟩
  intro a
  match a with
  | ⟨0, _⟩ => show win0_5.index _ (0 : Fin 3) * 1 ≤ (i 0).val ∧ (i 0).val < win0_5.index _ (0 : Fin 3) * 1 + 1; rw [e0]; show (i 0).val * 1 ≤ (i 0).val ∧ (i 0).val < (i 0).val * 1 + 1; omega
  | ⟨1, _⟩ => show win0_5.index _ (1 : Fin 3) * 256 ≤ (i 1).val ∧ (i 1).val < win0_5.index _ (1 : Fin 3) * 256 + 256; rw [e1]; have : (i 1).val < 256 := (i 1).isLt; omega
  | ⟨2, _⟩ => show win0_5.index _ (2 : Fin 3) * 4096 ≤ (i 2).val ∧ (i 2).val < win0_5.index _ (2 : Fin 3) * 4096 + 4096; rw [e2]; have : (i 2).val < 4096 := (i 2).isLt; omega

/-- The result array of the region after the run is the whole-array function. -/
theorem final5 (c : Dev nD) : (dats m 0 c).arrAt 5 cfg0.N = G5 m c :=
  (dats m 0 c).arrAt_eq_of_cover 5 (G5 m c) (fun t _ => flushed5_eq m c t) cover5

/-! ## The host line after the region -/

/-- The kernel program's result array, named: the region's result array with its pixel axis unflattened into the
    image's two spatial axes. -/
def kout (c : Dev nD) : Buf (Elt Ideal) ((c.tc : Thread nD τ).loc main_v6) :=
  shapeCast S8x256x64x64 (G5 m c) shapeCasts_S8x256x4096_S8x256x64x64

/-- The region's result array, as the last host line finds it. -/
theorem arrays_main_v5 (c : Dev nD) :
    Pipeline.withArrays (cfgs 0).spec c (V₀ m c) (fun w => (dats m 0 c).arrAt w (cfgs 0).N) (Proc.devRef .tc main_v5) = G5 m c :=
  (Pipeline.withArrays_arr spec0 launch0.win.arr_inj c _ _ 5).trans (final5 m c)

/-- What the last host line leaves in the program's result buffer. -/
theorem tail_main_v6 (c : Dev nD) :
    Pipeline.afterTail₀ cfgs (dats m) 0 (V₀ m) [hostOps1] c main_v6 = kout m c := by
  unfold Pipeline.afterTail₀
  show StableHlo.after hostOps1 _ (Proc.devRef .tc main_v6) = _
  after_results
  rw [arrays_main_v5]
  unfold kout
  generalize G5 m c = g
  funext i
  exact rfl

/-- The result array at batch `b`, channel `ch`, image position `(i, j)`: what the body leaves at grid point `b`,
    at channel `ch` and pixel `64 i + j` (both sides of the unflattening have the same row-major position). -/
theorem kout_apply (c : Dev nD) (b : Fin 8) (ch : Fin 256) (i j : Fin 64) :
    kout m c (ix4 b ch i j) = outsAt0 m c ⟨b.val, batch_lt b⟩ (ix3 0 ch (Cert.Spec.pix i j)) := by
  unfold kout
  refine (shapeCast_apply (G5 m c) shapeCasts_S8x256x4096_S8x256x64x64 (ix4 b ch i j) (ix3 b ch (Cert.Spec.pix i j)) ?_).trans (G5_apply m c b ch (Cert.Spec.pix i j))
  show (S8x256x4096.rowMajor _).val = (S8x256x64x64.rowMajor _).val
  rw [Shape.rowMajor_val_four, Shape.rowMajor_val_three]
  show (b.val * 256 + ch.val) * 4096 + (64 * i.val + j.val) = ((b.val * 256 + ch.val) * 64 + i.val) * 64 + j.val
  omega

/-! ## The run -/

/-- Every execution of the kernel program ends with its result buffer at `kout` and its seven argument arrays as
    launched: the affinities are an input window's array (never written back), the other six bypass the region,
    and the last host line writes none of them. -/
theorem kernel_run : θ_run (defs (F := Ideal)) (onTc (τ := τ) (main (F := Ideal))) ⟨m, fun _ => 0, ρ⟩ (fun r => ∀ c : Dev nD,
      r.2.mem ((c.tc : Thread nD τ).loc main_v6) = kout m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v6 (Pipeline.mem_restRefs_of main_v6 (by decide) (by decide))).trans (tail_main_v6 m c),
     ((h c).2 main_arg0 (Pipeline.mem_restRefs_of main_arg0 (by decide) (by decide))).trans (W_main_arg0 m (dats m) c),
     ((h c).1 1).trans (((dats m 0 c).arrAt_in 1 rfl _).trans ((A_eq m c 1).trans (V_main_arg1 m c))),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c),
     ((h c).2 main_arg6 (Pipeline.mem_restRefs_of main_arg6 (by decide) (by decide))).trans (W_main_arg6 m (dats m) c)⟩) (run_main m ρ)

end Cert.KernelIdeal.Val
end
-- ==== Proof.KV.PayA.lean ====
/-
  The prologue of the kernel's body, read entry by entry over the extended reals (every float an
  extended real, a change of float format the identity, every operation its textbook one).

  Five values are read here at explicit coordinates:
  • the channel normalisation of the pixels: at channel `c`, pixel `n` it is the centred value times the
    reciprocal square root of (variance + ε), times the scale of `c`, plus the shift of `c`; mean and
    variance are the sums over the 256 channels divided by 256 (`xn_apply`);
  • the pooling divisor of superpixel `m`: a row of ones against the affinities over the pixel axis,
    i.e. the sum of the affinities of `m`, plus the small constant (`msum_apply`);
  • the affinities themselves with their leading unit axis dropped (`maskbf_apply`);
  • the scaled superpixel tokens: the sum over the pixels of (normalised pixel × affinity), divided by
    the pooling divisor, times the score scale (`sth_apply`);
  • the stacked projections: weights against normalised pixels, summed over the channels (`qkv_apply`).

  What is not pointwise is read once, at literal shapes: a column repeated along the rows, the sum over
  the rows of a `[256, 4096]` array, and the three matrix products, each as a sum over its one
  contracted axis.
-/
import proofs.«409201_j15178414424521_3_alg».proof.Proof.Gen.KernelIdeal.Skeleton
import proofs.«409201_j15178414424521_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val

open Idealize.ShloMosaic Idealize.ShloMosaic.ValueIdx Cert.KernelIdeal Cert.KernelIdeal.Gen
open scoped BigOperators

/-! ## Two words: the real one in both formats -/

theorem one_f32 : Ideal.ofBits .f32 0x3F800000#32 = 1 := IdealRules.sign_bit.ideal_onePat .f32
theorem one_bf16 : Ideal.ofBits .bf16 0x3F80#16 = 1 := IdealRules.sign_bit.ideal_onePat .bf16

/-! ## Layout operations at coordinates -/

/-- A column `[a, 1]` repeated along the rows to `[a, b]` reads, at `(p, q)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- Over result index `n`, the source index with `k` inserted on the dropped axis 0 is `(k, n)`. -/
theorem lift0_eq (h : S256x4096.Reduces [0] S4096) (n : Fin 4096) (k : Fin 256) :
    h.lift (ix1 n) k = ix2 k n :=
  funext fun a => Fin.ext (by
    match a with
    | ⟨0, _⟩ => rfl
    | ⟨1, _⟩ => rfl)

/-- The sum over the 256 rows of a `[256, 4096]` array, read at column `n`. -/
theorem sum0_apply (src : FVec Ideal S256x4096 .f32) (hφ : FKind.Formats .f32)
    (hacc : (0x00000000#32 : BitVec 32) = 0x00000000#32) (n : Fin 4096) :
    multiReduction (F := Ideal) .add [0] S4096 src 0x00000000#32 reduces_S256x4096_S4096 hφ hacc (ix1 n)
      = ∑ k : Fin 256, src (ix2 k n) :=
  (Ideal.multiReduction_add_single src _ reduces_S256x4096_S4096 hφ hacc (ix1 n)).trans
    (Finset.sum_congr rfl fun k _ => congrArg src (lift0_eq _ n k))

/-- A reciprocal square root at an index is the ideal one of the element. -/
theorem rsqrt_apply {s : Shape} {φ : FTy} (a : FVec Ideal s φ) (i : s.Idx) : rsqrt a i = Ideal.rsqrt (a i) := rfl

/-! ## The three products of the prologue, each read at an index as a sum over its one contracted axis

For each product: where its two operands are read, axis by axis (a kept axis reads the result's
coordinate, the contracted axis the summation variable), then the product at `(row, column)`. -/

/-! ### Pixels against pixels: `[256, 4096] × [256, 4096]ᵀ → [256, 256]` -/

theorem lhs_tok_0 (i : S256x256.Idx) (q : dot_S256x4096_S256x4096_S256x256_1_1_0_0_n_n.contr.Idx) :
    (dot_S256x4096_S256x4096_S256x256_1_1_0_0_n_n.lhsIdx i q 0).val = (i 0).val := by
  unfold DotDims.lhsIdx
  rw [dif_neg (show ¬(0 : Fin S256x4096.rank) ∈ dot_S256x4096_S256x4096_S256x256_1_1_0_0_n_n.lhsBatch by decide), dif_pos (show (0 : Fin S256x4096.rank) ∈ dot_S256x4096_S256x4096_S256x256_1_1_0_0_n_n.lhsNonContracting by decide)]
  rfl
theorem lhs_tok_1 (i : S256x256.Idx) (q : dot_S256x4096_S256x4096_S256x256_1_1_0_0_n_n.contr.Idx) :
    (dot_S256x4096_S256x4096_S256x256_1_1_0_0_n_n.lhsIdx i q 1).val = (q ⟨0, by decide⟩).val :=
  dot_S256x4096_S256x4096_S256x256_1_1_0_0_n_n.lhsIdx_val_of_single rfl i q
theorem rhs_tok_0 (i : S256x256.Idx) (q : dot_S256x4096_S256x4096_S256x256_1_1_0_0_n_n.contr.Idx) :
    (dot_S256x4096_S256x4096_S256x256_1_1_0_0_n_n.rhsIdx i q 0).val = (i 1).val := by
  unfold DotDims.rhsIdx
  rw [dif_neg (show ¬(0 : Fin S256x4096.rank) ∈ dot_S256x4096_S256x4096_S256x256_1_1_0_0_n_n.rhsBatch by decide), dif_pos (show (0 : Fin S256x4096.rank) ∈ dot_S256x4096_S256x4096_S256x256_1_1_0_0_n_n.rhsNonContracting by decide)]
  rfl
theorem rhs_tok_1 (i : S256x256.Idx) (q : dot_S256x4096_S256x4096_S256x256_1_1_0_0_n_n.contr.Idx) :
    (dot_S256x4096_S256x4096_S256x256_1_1_0_0_n_n.rhsIdx i q 1).val = (q ⟨0, by decide⟩).val :=
  dot_S256x4096_S256x4096_S256x256_1_1_0_0_n_n.rhsIdx_val_of_single rfl i q

/-- The product of two `[256, 4096]` arrays over their pixel axis, at `(c, m)`. -/
theorem tok_matmul_apply (prec : Option ContractPrecision) (lhs rhs : FVec Ideal S256x4096 .bf16) (c m : Fin 256) :
    matmul dot_S256x4096_S256x4096_S256x256_1_1_0_0_n_n prec lhs rhs (constant (F := Ideal) S256x256 .f32 0x00000000#32) (ix2 c m)
      = ∑ n : Fin 4096, lhs (ix2 c n) * rhs (ix2 m n) := by
  simp only [matmul]
  rw [Ideal.matmul_constant_zero_apply, ← Equiv.sum_comp (contrEquiv1 dot_S256x4096_S256x4096_S256x256_1_1_0_0_n_n 4096 rfl rfl).symm]
  refine Finset.sum_congr rfl fun k _ => ?_
  have hk := contrEquiv1_symm_val dot_S256x4096_S256x4096_S256x256_1_1_0_0_n_n 4096 rfl rfl k
  have el : dot_S256x4096_S256x4096_S256x256_1_1_0_0_n_n.lhsIdx (ix2 c m) ((contrEquiv1 dot_S256x4096_S256x4096_S256x256_1_1_0_0_n_n 4096 rfl rfl).symm k) = ix2 c k := funext fun a => Fin.ext (by
    match a with
    | ⟨0, _⟩ => exact lhs_tok_0 _ _
    | ⟨1, _⟩ => exact (lhs_tok_1 _ _).trans hk)
  have er : dot_S256x4096_S256x4096_S256x256_1_1_0_0_n_n.rhsIdx (ix2 c m) ((contrEquiv1 dot_S256x4096_S256x4096_S256x256_1_1_0_0_n_n 4096 rfl rfl).symm k) = ix2 m k := funext fun a => Fin.ext (by
    match a with
    | ⟨0, _⟩ => exact rhs_tok_0 _ _
    | ⟨1, _⟩ => exact (rhs_tok_1 _ _).trans hk)
  rw [el, er]

/-! ### Weights against pixels: `[768, 256] × [256, 4096] → [768, 4096]` -/

theorem lhs_prj_0 (i : S768x4096.Idx) (q : dot_S768x256_S256x4096_S768x4096_1_0_0_1_n_n.contr.Idx) :
    (dot_S768x256_S256x4096_S768x4096_1_0_0_1_n_n.lhsIdx i q 0).val = (i 0).val := by
  unfold DotDims.lhsIdx
  rw [dif_neg (show ¬(0 : Fin S768x256.rank) ∈ dot_S768x256_S256x4096_S768x4096_1_0_0_1_n_n.lhsBatch by decide), dif_pos (show (0 : Fin S768x256.rank) ∈ dot_S768x256_S256x4096_S768x4096_1_0_0_1_n_n.lhsNonContracting by decide)]
  rfl
theorem lhs_prj_1 (i : S768x4096.Idx) (q : dot_S768x256_S256x4096_S768x4096_1_0_0_1_n_n.contr.Idx) :
    (dot_S768x256_S256x4096_S768x4096_1_0_0_1_n_n.lhsIdx i q 1).val = (q ⟨0, by decide⟩).val :=
  dot_S768x256_S256x4096_S768x4096_1_0_0_1_n_n.lhsIdx_val_of_single rfl i q
theorem rhs_prj_1 (i : S768x4096.Idx) (q : dot_S768x256_S256x4096_S768x4096_1_0_0_1_n_n.contr.Idx) :
    (dot_S768x256_S256x4096_S768x4096_1_0_0_1_n_n.rhsIdx i q 1).val = (i 1).val := by
  unfold DotDims.rhsIdx
  rw [dif_neg (show ¬(1 : Fin S256x4096.rank) ∈ dot_S768x256_S256x4096_S768x4096_1_0_0_1_n_n.rhsBatch by decide), dif_pos (show (1 : Fin S256x4096.rank) ∈ dot_S768x256_S256x4096_S768x4096_1_0_0_1_n_n.rhsNonContracting by decide)]
  rfl
theorem rhs_prj_0 (i : S768x4096.Idx) (q : dot_S768x256_S256x4096_S768x4096_1_0_0_1_n_n.contr.Idx) :
    (dot_S768x256_S256x4096_S768x4096_1_0_0_1_n_n.rhsIdx i q 0).val = (q ⟨0, by decide⟩).val :=
  dot_S768x256_S256x4096_S768x4096_1_0_0_1_n_n.rhsIdx_val_of_single rfl i q

/-- The product of a `[768, 256]` array with a `[256, 4096]` one over the channel axis, at `(o, n)`. -/
theorem prj_matmul_apply (prec : Option ContractPrecision) (lhs : FVec Ideal S768x256 .bf16) (rhs : FVec Ideal S256x4096 .bf16)
    (o : Fin 768) (n : Fin 4096) :
    matmul dot_S768x256_S256x4096_S768x4096_1_0_0_1_n_n prec lhs rhs (constant (F := Ideal) S768x4096 .f32 0x00000000#32) (ix2 o n)
      = ∑ c : Fin 256, lhs (ix2 o c) * rhs (ix2 c n) := by
  simp only [matmul]
  rw [Ideal.matmul_constant_zero_apply, ← Equiv.sum_comp (contrEquiv1 dot_S768x256_S256x4096_S768x4096_1_0_0_1_n_n 256 rfl rfl).symm]
  refine Finset.sum_congr rfl fun k _ => ?_
  have hk := contrEquiv1_symm_val dot_S768x256_S256x4096_S768x4096_1_0_0_1_n_n 256 rfl rfl k
  have el : dot_S768x256_S256x4096_S768x4096_1_0_0_1_n_n.lhsIdx (ix2 o n) ((contrEquiv1 dot_S768x256_S256x4096_S768x4096_1_0_0_1_n_n 256 rfl rfl).symm k) = ix2 o k := funext fun a => Fin.ext (by
    match a with
    | ⟨0, _⟩ => exact lhs_prj_0 _ _
    | ⟨1, _⟩ => exact (lhs_prj_1 _ _).trans hk)
  have er : dot_S768x256_S256x4096_S768x4096_1_0_0_1_n_n.rhsIdx (ix2 o n) ((contrEquiv1 dot_S768x256_S256x4096_S768x4096_1_0_0_1_n_n 256 rfl rfl).symm k) = ix2 k n := funext fun a => Fin.ext (by
    match a with
    | ⟨0, _⟩ => exact (rhs_prj_0 _ _).trans hk
    | ⟨1, _⟩ => exact rhs_prj_1 _ _)
  rw [el, er]

/-! ### A row against pixels: `[1, 4096] × [256, 4096]ᵀ → [1, 256]` -/

theorem lhs_row_0 (i : S1x256.Idx) (q : dot_S1x4096_S256x4096_S1x256_1_1_0_0_n_n.contr.Idx) :
    (dot_S1x4096_S256x4096_S1x256_1_1_0_0_n_n.lhsIdx i q 0).val = (i 0).val := by
  unfold DotDims.lhsIdx
  rw [dif_neg (show ¬(0 : Fin S1x4096.rank) ∈ dot_S1x4096_S256x4096_S1x256_1_1_0_0_n_n.lhsBatch by decide), dif_pos (show (0 : Fin S1x4096.rank) ∈ dot_S1x4096_S256x4096_S1x256_1_1_0_0_n_n.lhsNonContracting by decide)]
  rfl
theorem lhs_row_1 (i : S1x256.Idx) (q : dot_S1x4096_S256x4096_S1x256_1_1_0_0_n_n.contr.Idx) :
    (dot_S1x4096_S256x4096_S1x256_1_1_0_0_n_n.lhsIdx i q 1).val = (q ⟨0, by decide⟩).val :=
  dot_S1x4096_S256x4096_S1x256_1_1_0_0_n_n.lhsIdx_val_of_single rfl i q
theorem rhs_row_0 (i : S1x256.Idx) (q : dot_S1x4096_S256x4096_S1x256_1_1_0_0_n_n.contr.Idx) :
    (dot_S1x4096_S256x4096_S1x256_1_1_0_0_n_n.rhsIdx i q 0).val = (i 1).val := by
  unfold DotDims.rhsIdx
  rw [dif_neg (show ¬(0 : Fin S256x4096.rank) ∈ dot_S1x4096_S256x4096_S1x256_1_1_0_0_n_n.rhsBatch by decide), dif_pos (show (0 : Fin S256x4096.rank) ∈ dot_S1x4096_S256x4096_S1x256_1_1_0_0_n_n.rhsNonContracting by decide)]
  rfl
theorem rhs_row_1 (i : S1x256.Idx) (q : dot_S1x4096_S256x4096_S1x256_1_1_0_0_n_n.contr.Idx) :
    (dot_S1x4096_S256x4096_S1x256_1_1_0_0_n_n.rhsIdx i q 1).val = (q ⟨0, by decide⟩).val :=
  dot_S1x4096_S256x4096_S1x256_1_1_0_0_n_n.rhsIdx_val_of_single rfl i q

/-- The product of a `[1, 4096]` row with a `[256, 4096]` array over the pixel axis, at `(0, m)`. -/
theorem row_matmul_apply (prec : Option ContractPrecision) (lhs : FVec Ideal S1x4096 .f32) (rhs : FVec Ideal S256x4096 .f32)
    (u : Fin 1) (m : Fin 256) :
    matmul dot_S1x4096_S256x4096_S1x256_1_1_0_0_n_n prec lhs rhs (constant (F := Ideal) S1x256 .f32 0x00000000#32) (ix2 u m)
      = ∑ n : Fin 4096, lhs (ix2 u n) * rhs (ix2 m n) := by
  simp only [matmul]
  rw [Ideal.matmul_constant_zero_apply, ← Equiv.sum_comp (contrEquiv1 dot_S1x4096_S256x4096_S1x256_1_1_0_0_n_n 4096 rfl rfl).symm]
  refine Finset.sum_congr rfl fun k _ => ?_
  have hk := contrEquiv1_symm_val dot_S1x4096_S256x4096_S1x256_1_1_0_0_n_n 4096 rfl rfl k
  have el : dot_S1x4096_S256x4096_S1x256_1_1_0_0_n_n.lhsIdx (ix2 u m) ((contrEquiv1 dot_S1x4096_S256x4096_S1x256_1_1_0_0_n_n 4096 rfl rfl).symm k) = ix2 u k := funext fun a => Fin.ext (by
    match a with
    | ⟨0, _⟩ => exact lhs_row_0 _ _
    | ⟨1, _⟩ => exact (lhs_row_1 _ _).trans hk)
  have er : dot_S1x4096_S256x4096_S1x256_1_1_0_0_n_n.rhsIdx (ix2 u m) ((contrEquiv1 dot_S1x4096_S256x4096_S1x256_1_1_0_0_n_n 4096 rfl rfl).symm k) = ix2 m k := funext fun a => Fin.ext (by
    match a with
    | ⟨0, _⟩ => exact rhs_row_0 _ _
    | ⟨1, _⟩ => exact (rhs_row_1 _ _).trans hk)
  rw [el, er]

/-! ## The five values of the prologue at an index -/

theorem xn_apply (v0 : Vec Ideal S1x256x4096 .f32) (v18 v22 : Vec Ideal S256x1 .f32) (c : Fin 256) (n : Fin 4096) :
    k0_pay7 (F := Ideal) v0 v18 v22 (ix2 c n) = Cert.Spec.xn (fun _ c n => v0 (ix3 0 c n)) (fun c => v18 (ix2 c 0)) (fun c => v22 (ix2 c 0)) 0 c n := by
  unfold k0_pay7
  simp only [truncf_apply, shapeCast_self, addf_apply, mulf_apply, subf_apply, divf_apply, rsqrt_apply, broadcast_apply,
    broadcastTo_1b_ab_apply, broadcastTo_a1_ab_apply, shapeCast_1ab_ab_apply, shapeCast_a_1a_apply]
  rw [sum0_apply, sum0_apply]
  simp only [mulf_apply, subf_apply, divf_apply, broadcast_apply, broadcastTo_1b_ab_apply, shapeCast_1ab_ab_apply,
    shapeCast_a_1a_apply]
  rw [sum0_apply]
  simp only [shapeCast_1ab_ab_apply]
  rfl

theorem maskbf_apply (v30 : Vec Ideal S1x256x4096 .f32) (m : Fin 256) (n : Fin 4096) :
    k0_pay10 (F := Ideal) v30 (ix2 m n) = v30 (ix3 0 m n) := by
  unfold k0_pay10 k0_pay8
  exact shapeCast_1ab_ab_apply v30 _ m n

theorem msum_apply (v30 : Vec Ideal S1x256x4096 .f32) (m : Fin 256) :
    k0_pay9 (F := Ideal) v30 (ix2 0 m) = Cert.Spec.msum (fun _ m n => v30 (ix3 0 m n)) 0 m := by
  unfold k0_pay9 k0_pay8
  simp only [addf_apply, broadcast_apply]
  rw [row_matmul_apply]
  simp only [broadcast_apply, shapeCast_1ab_ab_apply]
  simp only [Ideal.ofBits_def, one_f32, one_mul]
  rfl

theorem sth_apply (v35 : FVec Ideal S1x256 .f32) (v36 : FVec Ideal S256x4096 .bf16) (v37 : Vec Ideal S256x4096 .bf16) (c m : Fin 256) :
    k0_pay1 (F := Ideal) v35 v36 v37 (ix2 c m) = Ideal.div (∑ n : Fin 4096, v37 (ix2 c n) * v36 (ix2 m n)) (v35 (ix2 0 m)) * Cert.Spec.scl := by
  unfold k0_pay1
  simp only [shapeCast_self, truncf_apply, mulf_apply, divf_apply, broadcast_apply, broadcastTo_1b_ab_apply]
  rw [tok_matmul_apply]
  rfl

theorem qkv_apply (v47 : Vec Ideal S768x256 .bf16) (v49 : Vec Ideal S256x4096 .bf16) (o : Fin 768) (n : Fin 4096) :
    k0_pay2 (F := Ideal) v47 v49 (ix2 o n) = ∑ c : Fin 256, v47 (ix2 o c) * v49 (ix2 c n) := by
  unfold k0_pay2
  simp only [shapeCast_self, truncf_apply]
  exact prj_matmul_apply none v47 v49 o n

end Cert.KernelIdeal.Val

end
-- ==== Proof.LibNary3.lean ====
/-
  A host operation over a LITERAL family of three references (a concatenate of three operands): its result with each
  operand's contents at its own reference, so that a run read back by rewriting goes on into the three operands. The
  general result of an n-ary operation leaves the operands under a binder, `fun k => F (![x, a, b] k)`, where no
  reference is a literal and nothing more can be rewritten; spelt out over `Fin.cons` at the three literals it can.
-/
import Idealize.ShloMosaic.Lib.StableHlo.Run

noncomputable section

namespace Cert.Lib

open Idealize.ShloMosaic Idealize.ShloMosaic.StableHlo Idealize.SL.Sem

variable {nD : Nat} {τ : Topo} {sig : RefSig} {Val : EltTy → Type}
variable {x a b y : Ref sig .tc}

/-- The result of a three-operand operation, the operands read one by one. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, stated for the simplifier (the result reference un-indexed, as the library states its own). -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Cert.Lib

end
-- ==== Proof.KV.Blocks.lean ====
/-
  The blocks the kernel's body is handed, read at an index.  Each of the five input windows shows the body a
  block of its array at a grid point (a batch): the image and the affinities one batch's slab, the stacked
  weights and the two normalisation columns whole.  The arrays behind three of the windows were written by the
  host lines before the region (the image with its two spatial axes flattened, the three weights stacked by
  rows, each normalisation vector as a column); reading those lines at an index turns every block entry into an
  entry of a launched argument, spelt with the shared specification's adapters.
-/
import proofs.«409201_j15178414424521_3_alg».proof.Proof.KI.Runs
import proofs.«409201_j15178414424521_3_alg».proof.Proof.Spec
import proofs.«409201_j15178414424521_3_alg».proof.Proof.LibNary3
import Idealize.ShloMosaic.Lib.Pipeline.Value
import Idealize.ShloMosaic.Lib.ValueIdx
import Idealize.ShloMosaic.Lib.Tactic

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-! ## Where each window's block sits in its array

A block's coordinate along an axis is the block index times the block size plus the coordinate inside the block.
The index maps are decided once over the eight grid points: the image, the affinities and the result move with
the batch (block index `t` on the batch axis), the stacked weights and the two normalisation columns are whole. -/

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)

/-- A grid point is a batch. -/
theorem lt8 (t : Fin cfg0.N) : t.val < 8 := by have := t.isLt; have h : cfg0.N = 8 := N_0; omega

theorem emb0 (t : Fin cfg0.N) (ch : Fin 256) (n : Fin 4096) :
    ((cfg0.win 0).blk t).view.emb (ix3 0 ch n : S1x256x4096.Idx) = (ix3 ⟨t.val, lt8 t⟩ ch n : S8x256x4096.Idx) := by
  obtain ⟨e0, e1, e2⟩ := idx0 t
  funext a; apply Fin.ext
  match a with
  | ⟨0, _⟩ => show win0_0.index t (0 : Fin 3) * 1 + 1 * 0 = t.val; omega
  | ⟨1, _⟩ => show win0_0.index t (1 : Fin 3) * 256 + 1 * ch.val = ch.val; omega
  | ⟨2, _⟩ => show win0_0.index t (2 : Fin 3) * 4096 + 1 * n.val = n.val; omega
theorem emb1 (t : Fin cfg0.N) (mm : Fin 256) (n : Fin 4096) :
    ((cfg0.win 1).blk t).view.emb (ix3 0 mm n : S1x256x4096.Idx) = (ix3 ⟨t.val, lt8 t⟩ mm n : S8x256x4096.Idx) := by
  obtain ⟨e0, e1, e2⟩ := idx1 t
  funext a; apply Fin.ext
  match a with
  | ⟨0, _⟩ => show win0_1.index t (0 : Fin 3) * 1 + 1 * 0 = t.val; omega
  | ⟨1, _⟩ => show win0_1.index t (1 : Fin 3) * 256 + 1 * mm.val = mm.val; omega
  | ⟨2, _⟩ => show win0_1.index t (2 : Fin 3) * 4096 + 1 * n.val = n.val; omega
theorem emb2 (t : Fin cfg0.N) (o : Fin 768) (cc : Fin 256) :
    ((cfg0.win 2).blk t).view.emb (ix2 o cc : S768x256.Idx) = (ix2 o cc : S768x256.Idx) := by
  obtain ⟨e0, e1⟩ := idx2 t
  funext a; apply Fin.ext
  match a with
  | ⟨0, _⟩ => show win0_2.index t (0 : Fin 2) * 768 + 1 * o.val = o.val; omega
  | ⟨1, _⟩ => show win0_2.index t (1 : Fin 2) * 256 + 1 * cc.val = cc.val; omega
theorem emb3 (t : Fin cfg0.N) (cc : Fin 256) :
    ((cfg0.win 3).blk t).view.emb (ix2 cc 0 : S256x1.Idx) = (ix2 cc 0 : S256x1.Idx) := by
  obtain ⟨e0, e1⟩ := idx3 t
  funext a; apply Fin.ext
  match a with
  | ⟨0, _⟩ => show win0_3.index t (0 : Fin 2) * 256 + 1 * cc.val = cc.val; omega
  | ⟨1, _⟩ => show win0_3.index t (1 : Fin 2) * 1 + 1 * 0 = 0; omega
theorem emb4 (t : Fin cfg0.N) (cc : Fin 256) :
    ((cfg0.win 4).blk t).view.emb (ix2 cc 0 : S256x1.Idx) = (ix2 cc 0 : S256x1.Idx) := by
  obtain ⟨e0, e1⟩ := idx4 t
  funext a; apply Fin.ext
  match a with
  | ⟨0, _⟩ => show win0_4.index t (0 : Fin 2) * 256 + 1 * cc.val = cc.val; omega
  | ⟨1, _⟩ => show win0_4.index t (1 : Fin 2) * 1 + 1 * 0 = 0; omega

/-! ## The arrays the host lines before the region wrote -/

/-- The image array as the region finds it: the launched image with its two spatial axes flattened. -/
theorem V_main_v0 (c : Dev nD) : (V m c main_v0 : S8x256x4096.Idx → EReal)
    = shapeCast S8x256x4096 (m ((c.tc : Thread nD τ).loc main_arg0) : S8x256x64x64.Idx → EReal) shapeCasts_S8x256x64x64_S8x256x4096 := by
  show StableHlo.after hostOps0 (fun b => m (c, b)) (Proc.devRef .tc main_v0) = _
  after_results
  rfl
/-- The two normalisation vectors as columns. -/
theorem V_main_v3 (c : Dev nD) : (V m c main_v3 : S256x1.Idx → EReal)
    = shapeCast S256x1 (m ((c.tc : Thread nD τ).loc main_arg5) : S256.Idx → EReal) shapeCasts_S256_S256x1 := by
  show StableHlo.after hostOps0 (fun b => m (c, b)) (Proc.devRef .tc main_v3) = _
  after_results
  rfl
theorem V_main_v4 (c : Dev nD) : (V m c main_v4 : S256x1.Idx → EReal)
    = shapeCast S256x1 (m ((c.tc : Thread nD τ).loc main_arg6) : S256.Idx → EReal) shapeCasts_S256_S256x1 := by
  show StableHlo.after hostOps0 (fun b => m (c, b)) (Proc.devRef .tc main_v4) = _
  after_results
  rfl

/-! ## The input blocks read at an index -/

/-- The image block at batch `t`: channel `ch`, pixel `n` of the launched image at that batch. -/
theorem iblk0_apply (c : Dev nD) (t : Fin cfg0.N) (ch : Fin 256) (n : Fin 4096) :
    (iblk m c 0 t : S1x256x4096.Idx → EReal) (ix3 0 ch n) = Cert.Spec.x3 (m ((c.tc : Thread nD τ).loc main_arg0)) ⟨t.val, lt8 t⟩ ch n := by
  unfold iblk
  rw [View.read_apply, emb0]
  show (V m c main_v0 : S8x256x4096.Idx → EReal) _ = _
  rw [V_main_v0]
  unfold Cert.Spec.x3
  refine shapeCast_apply _ _ _ _ ?_
  show (S8x256x64x64.rowMajor _).val = (S8x256x4096.rowMajor _).val
  rw [Shape.rowMajor_val_four, Shape.rowMajor_val_three]
  show ((t.val * 256 + ch.val) * 64 + n.val / 64) * 64 + n.val % 64 = (t.val * 256 + ch.val) * 4096 + n.val
  omega

/-- The affinity block at batch `t`. -/
theorem iblk1_apply (c : Dev nD) (t : Fin cfg0.N) (mm : Fin 256) (n : Fin 4096) :
    (iblk m c 1 t : S1x256x4096.Idx → EReal) (ix3 0 mm n) = Cert.Spec.m3 (m ((c.tc : Thread nD τ).loc main_arg1)) ⟨t.val, lt8 t⟩ mm n := by
  unfold iblk
  rw [View.read_apply, emb1]
  show (V m c main_arg1 : S8x256x4096.Idx → EReal) _ = _
  rw [V_main_arg1]
  rfl

/-- A normalisation column's block is the whole column: entry `cc` of the launched vector. -/
theorem iblk3_apply (c : Dev nD) (t : Fin cfg0.N) (cc : Fin 256) :
    (iblk m c 3 t : S256x1.Idx → EReal) (ix2 cc 0) = Cert.Spec.g1 (m ((c.tc : Thread nD τ).loc main_arg5)) cc := by
  unfold iblk
  rw [View.read_apply, emb3]
  show (V m c main_v3 : S256x1.Idx → EReal) _ = _
  rw [V_main_v3]
  unfold Cert.Spec.g1
  refine shapeCast_apply _ _ _ _ ?_
  show (S256.rowMajor _).val = (S256x1.rowMajor _).val
  rw [Shape.rowMajor_val_one, Shape.rowMajor_val_two]
  show cc.val = cc.val * 1 + 0
  omega
theorem iblk4_apply (c : Dev nD) (t : Fin cfg0.N) (cc : Fin 256) :
    (iblk m c 4 t : S256x1.Idx → EReal) (ix2 cc 0) = Cert.Spec.g1 (m ((c.tc : Thread nD τ).loc main_arg6)) cc := by
  unfold iblk
  rw [View.read_apply, emb4]
  show (V m c main_v4 : S256x1.Idx → EReal) _ = _
  rw [V_main_v4]
  unfold Cert.Spec.g1
  refine shapeCast_apply _ _ _ _ ?_
  show (S256.rowMajor _).val = (S256x1.rowMajor _).val
  rw [Shape.rowMajor_val_one, Shape.rowMajor_val_two]
  show cc.val = cc.val * 1 + 0
  omega

open StableHlo in
/-- The stacked weights as the region finds them: the three launched weight matrices stacked by rows (the
    narrowing of the stack to the shorter float format changes nothing over the extended reals). -/
theorem V_main_v2 (c : Dev nD) : (V m c main_v2 : S768x256.Idx → EReal)
    = concatenate S768x256 0 [⟨S256x256, (m ((c.tc : Thread nD τ).loc main_arg2) : S256x256.Idx → EReal)⟩, ⟨S256x256, (m ((c.tc : Thread nD τ).loc main_arg3) : S256x256.Idx → EReal)⟩, ⟨S256x256, (m ((c.tc : Thread nD τ).loc main_arg4) : S256x256.Idx → EReal)⟩] concatenates_S256x256_S256x256_S256x256_S768x256_d0 := by
  show StableHlo.after hostOps0 (fun b => m (c, b)) (Proc.devRef .tc main_v2) = _
  simp only [after_cons, after_nil]
  repeat (first
    | rw [unary_result] | rw [reshape_result] | rw [Cert.Lib.nary3_result]
    | (rw [unary_result_ne]; rotate_left; decide)
    | (rw [reshape_result_ne]; rotate_left; decide)
    | (rw [nary_result_ne]; rotate_left; decide))
  rfl

/-- Three 256-row matrices stacked by rows, read at row `o`: the matrix whose span of rows holds `o`, at the row
    counted from that span's start. -/
theorem stack3_apply (x0 x1 x2 : S256x256.Idx → EReal) (o : Fin 768) (cc : Fin 256) :
    concatenate S768x256 0 [⟨S256x256, x0⟩, ⟨S256x256, x1⟩, ⟨S256x256, x2⟩] concatenates_S256x256_S256x256_S256x256_S768x256_d0 (ix2 o cc)
      = Cert.Spec.wcat (Cert.Spec.w2 x0) (Cert.Spec.w2 x1) (Cert.Spec.w2 x2) o cc := by
  unfold Cert.Spec.wcat Cert.Spec.w2
  split_ifs with h1 h2
  · refine concatenate_apply_piece (0 : Fin 2) [⟨S256x256, x0⟩, ⟨S256x256, x1⟩, ⟨S256x256, x2⟩] _ (ix2 o cc) 0 (by show 0 < 3; omega) S256x256 x0 rfl rfl 0 rfl (ix2 ⟨o.val, h1⟩ cc) ?_ ?_
    · intro b hb
      match b with
      | ⟨0, _⟩ => exact absurd rfl hb
      | ⟨1, _⟩ => rfl
    · show 0 + o.val = o.val; omega
  · refine concatenate_apply_piece (0 : Fin 2) [⟨S256x256, x0⟩, ⟨S256x256, x1⟩, ⟨S256x256, x2⟩] _ (ix2 o cc) 1 (by show 1 < 3; omega) S256x256 x1 rfl rfl 256 rfl (ix2 ⟨o.val - 256, by omega⟩ cc) ?_ ?_
    · intro b hb
      match b with
      | ⟨0, _⟩ => exact absurd rfl hb
      | ⟨1, _⟩ => rfl
    · show 256 + (o.val - 256) = o.val; omega
  · refine concatenate_apply_piece (0 : Fin 2) [⟨S256x256, x0⟩, ⟨S256x256, x1⟩, ⟨S256x256, x2⟩] _ (ix2 o cc) 2 (by show 2 < 3; omega) S256x256 x2 rfl rfl 512 rfl (ix2 ⟨o.val - 512, by omega⟩ cc) ?_ ?_
    · intro b hb
      match b with
      | ⟨0, _⟩ => exact absurd rfl hb
      | ⟨1, _⟩ => rfl
    · show 512 + (o.val - 512) = o.val; omega

/-- The stacked-weights block is the whole stack: row `o`, column `cc` is the query, key or value weight whose
    rows hold `o`. -/
theorem iblk2_apply (c : Dev nD) (t : Fin cfg0.N) (o : Fin 768) (cc : Fin 256) :
    (iblk m c 2 t : S768x256.Idx → EReal) (ix2 o cc)
      = Cert.Spec.wcat (Cert.Spec.w2 (m ((c.tc : Thread nD τ).loc main_arg2))) (Cert.Spec.w2 (m ((c.tc : Thread nD τ).loc main_arg3)))
          (Cert.Spec.w2 (m ((c.tc : Thread nD τ).loc main_arg4))) o cc := by
  unfold iblk
  rw [View.read_apply, emb2]
  show (V m c main_v2 : S768x256.Idx → EReal) _ = _
  rw [V_main_v2]
  exact stack3_apply _ _ _ o cc

end Cert.KernelIdeal.Val
end
-- ==== Proof.SpecCongr.lean ====
/-
  The normalised pixels and the pooling divisors of one batch entry depend only on that entry's slice of the
  inputs: two input families that agree on the slices compared give the same values there.
-/
import proofs.«409201_j15178414424521_3_alg».proof.Proof.Spec

noncomputable section

namespace Cert.Spec

open Idealize.ShloMosaic
open scoped BigOperators

theorem mu_congr (x x' : Fin 8 → Fin 256 → Fin 4096 → EReal) (b b' : Fin 8) (hx : ∀ c n, x b c n = x' b' c n) (n : Fin 4096) :
    mu x b n = mu x' b' n := by
  unfold mu; simp only [hx]

theorem xc_congr (x x' : Fin 8 → Fin 256 → Fin 4096 → EReal) (b b' : Fin 8) (hx : ∀ c n, x b c n = x' b' c n) (c : Fin 256) (n : Fin 4096) :
    xc x b c n = xc x' b' c n := by
  unfold xc; rw [hx, mu_congr x x' b b' hx]

theorem var_congr (x x' : Fin 8 → Fin 256 → Fin 4096 → EReal) (b b' : Fin 8) (hx : ∀ c n, x b c n = x' b' c n) (n : Fin 4096) :
    var x b n = var x' b' n := by
  unfold var; simp only [xc_congr x x' b b' hx]

/-- The normalised pixel of batch entry `b` reads `x` at `b` only. -/
theorem xn_congr (x x' : Fin 8 → Fin 256 → Fin 4096 → EReal) (ga be ga' be' : Fin 256 → EReal) (b b' : Fin 8)
    (hx : ∀ c n, x b c n = x' b' c n) (hg : ∀ c, ga c = ga' c) (hb : ∀ c, be c = be' c) (c : Fin 256) (n : Fin 4096) :
    xn x ga be b c n = xn x' ga' be' b' c n := by
  unfold xn; rw [xc_congr x x' b b' hx, var_congr x x' b b' hx, hg, hb]

/-- The pooling divisor of batch entry `b` reads the affinities at `b` only. -/
theorem msum_congr (mk mk' : Fin 8 → Fin 256 → Fin 4096 → EReal) (b b' : Fin 8) (h : ∀ m n, mk b m n = mk' b' m n) (m : Fin 256) :
    msum mk b m = msum mk' b' m := by
  unfold msum; simp only [h]

end Cert.Spec

end
-- ==== Proof.KV.Stages.lean ====
/-
  The kernel's two intermediate arrays at a grid point, read at an index, are the specification's: the stacked
  projections of the normalised pixels of that batch entry, and that entry's superpixel tokens times the score
  scale. Each is the payload's own reading composed with what the input blocks hold.
-/
import proofs.«409201_j15178414424521_3_alg».proof.Proof.KV.PayA
import proofs.«409201_j15178414424521_3_alg».proof.Proof.KV.Blocks
import proofs.«409201_j15178414424521_3_alg».proof.Proof.SpecCongr

noncomputable section

namespace Cert.KernelIdeal.Val

open Idealize.ShloMosaic Idealize.SL.Sem Idealize.ShloMosaic.ValueIdx Cert.KernelIdeal Cert.KernelIdeal.Gen
open scoped BigOperators

variable (m : (ℓ : Loc nD τ sig) → Buf (Elt Ideal) ℓ)

/-- The normalised pixels the body computes from the blocks at point `t` are those of batch entry `t`. -/
theorem xn_blk (c : Dev nD) (t : Fin cfg0.N) (ch : Fin 256) (n : Fin 4096) :
    k0_pay7 (F := Ideal) (Fr.iblk m c 0 t) (Fr.iblk m c 3 t) (Fr.iblk m c 4 t) (ix2 ch n)
      = Cert.Spec.xn (Cert.Spec.x3 (m ((c.tc : Thread nD τ).loc main_arg0))) (Cert.Spec.g1 (m ((c.tc : Thread nD τ).loc main_arg5)))
          (Cert.Spec.g1 (m ((c.tc : Thread nD τ).loc main_arg6))) ⟨t.val, lt8 t⟩ ch n := by
  refine (xn_apply (Fr.iblk m c 0 t) (Fr.iblk m c 3 t) (Fr.iblk m c 4 t) ch n).trans ?_
  exact Cert.Spec.xn_congr _ _ _ _ _ _ 0 ⟨t.val, lt8 t⟩ (fun ch n => iblk0_apply m c t ch n) (fun ch => iblk3_apply m c t ch)
    (fun ch => iblk4_apply m c t ch) ch n

/-- The stacked projections stored at point `t`. -/
theorem qkv_blk (c : Dev nD) (t : Fin cfg0.N) (o : Fin 768) (n : Fin 4096) :
    k0_pay2 (F := Ideal) (Fr.iblk m c 2 t) (k0_pay7 (F := Ideal) (Fr.iblk m c 0 t) (Fr.iblk m c 3 t) (Fr.iblk m c 4 t)) (ix2 o n)
      = Cert.Spec.proj (Cert.Spec.x3 (m ((c.tc : Thread nD τ).loc main_arg0)))
          (Cert.Spec.wcat (Cert.Spec.w2 (m ((c.tc : Thread nD τ).loc main_arg2))) (Cert.Spec.w2 (m ((c.tc : Thread nD τ).loc main_arg3)))
            (Cert.Spec.w2 (m ((c.tc : Thread nD τ).loc main_arg4))))
          (Cert.Spec.g1 (m ((c.tc : Thread nD τ).loc main_arg5))) (Cert.Spec.g1 (m ((c.tc : Thread nD τ).loc main_arg6))) ⟨t.val, lt8 t⟩ o n := by
  refine (qkv_apply (Fr.iblk m c 2 t) (k0_pay7 (F := Ideal) (Fr.iblk m c 0 t) (Fr.iblk m c 3 t) (Fr.iblk m c 4 t)) o n).trans ?_
  unfold Cert.Spec.proj
  refine Finset.sum_congr rfl fun cc _ => ?_
  exact congrArg₂ (· * ·) (iblk2_apply m c t o cc) (xn_blk m c t cc n)

/-- The scaled tokens stored at point `t`. -/
theorem sth_blk (c : Dev nD) (t : Fin cfg0.N) (ch mm : Fin 256) :
    k0_pay1 (F := Ideal) (k0_pay9 (F := Ideal) (Fr.iblk m c 1 t)) (k0_pay10 (F := Ideal) (Fr.iblk m c 1 t))
        (k0_pay7 (F := Ideal) (Fr.iblk m c 0 t) (Fr.iblk m c 3 t) (Fr.iblk m c 4 t)) (ix2 ch mm)
      = Cert.Spec.sth (Cert.Spec.x3 (m ((c.tc : Thread nD τ).loc main_arg0))) (Cert.Spec.m3 (m ((c.tc : Thread nD τ).loc main_arg1)))
          (Cert.Spec.g1 (m ((c.tc : Thread nD τ).loc main_arg5))) (Cert.Spec.g1 (m ((c.tc : Thread nD τ).loc main_arg6))) ⟨t.val, lt8 t⟩ ch mm
        * Cert.Spec.scl := by
  refine (sth_apply (k0_pay9 (F := Ideal) (Fr.iblk m c 1 t)) (k0_pay10 (F := Ideal) (Fr.iblk m c 1 t))
    (k0_pay7 (F := Ideal) (Fr.iblk m c 0 t) (Fr.iblk m c 3 t) (Fr.iblk m c 4 t)) ch mm).trans ?_
  unfold Cert.Spec.sth Cert.Spec.stok
  refine congrArg (· * Cert.Spec.scl) (congrArg₂ Ideal.div ?_ ?_)
  · refine Finset.sum_congr rfl fun n _ => ?_
    exact congrArg₂ (· * ·) (xn_blk m c t ch n) ((maskbf_apply (Fr.iblk m c 1 t) mm n).trans (iblk1_apply m c t mm n))
  · refine (msum_apply (Fr.iblk m c 1 t) mm).trans ?_
    exact Cert.Spec.msum_congr _ _ 0 ⟨t.val, lt8 t⟩ (fun mm n => iblk1_apply m c t mm n) mm

end Cert.KernelIdeal.Val

end
-- ==== Proof.KV.Block.lean ====
/-
  What the body leaves in the output window's staging buffer, as one function of its five input blocks.

  The body first fills three work matrices, each by one store of the whole matrix: the normalised activations
  XN (from the image block and the two affine vectors), the scaled tokens STH (from XN and the mask block) and
  the stacked projections QKV (from XN and the stacked weights).  It then makes eight trips, one per head: trip h
  takes rows 32h … 32h+31 of the queries, rows 256+32h … of the keys, rows 512+32h … of the values and rows
  32h … of the tokens, applies the head arithmetic, and stores the result as rows 32h … 32h+31 of the output block.

  So the eight stored slabs tile the 256 rows of the block, and row 32h+d of the block is row d of head h.  Nothing
  of the arithmetic is opened here: the normalisation, the tokens, the projections and the head stay the named
  functions of the program's text.
-/
import proofs.«409201_j15178414424521_3_alg».proof.Proof.KI.Frame
import proofs.«409201_j15178414424521_3_alg».proof.Proof.Spec
import Idealize.ShloMosaic.Lib.ValueIdx
import Idealize.ShloMosaic.Lib.Writes
import Idealize.ShloMosaic.Lib.Pipeline.Value

set_option maxRecDepth 16384

noncomputable section
namespace Cert.KernelIdeal.Val
open Cert.KernelIdeal Cert.KernelIdeal.Gen Idealize.ShloMosaic Idealize.ShloMosaic.TcCoe Idealize.ShloMosaic.ValueIdx
variable {F : FTy → Type} [FloatOps F]

/-! ## Slabs of 32 rows, and one head -/

/-- Rows `r0 … r0 + 31` of a matrix. -/
def rows {R C : ℕ} {φ : FTy} (A : FVec F (⟨2, ![R, C]⟩ : Shape) φ) (r0 : ℕ) (h : r0 + 32 ≤ R) :
    FVec F (⟨2, ![32, C]⟩ : Shape) φ :=
  fun j => A (ix2 (⟨r0 + (j 0).val, by have := idx2_lt0 j; omega⟩ : Fin R) (⟨(j 1).val, idx2_lt1 j⟩ : Fin C))

/-- Row `d` of the slab is row `r0 + d` of the matrix. -/
theorem rows_apply {R C : ℕ} {φ : FTy} (A : FVec F (⟨2, ![R, C]⟩ : Shape) φ) (r0 : ℕ) (h : r0 + 32 ≤ R) (d : Fin 32) (n : Fin C) :
    rows A r0 h (ix2 d n) = A (ix2 (⟨r0 + d.val, by have := d.isLt; omega⟩ : Fin R) n) := rfl

/-- Head `h` from the stacked projections and the tokens: the head arithmetic on rows `32 h …` of the queries,
    `256 + 32 h …` (keys), `512 + 32 h …` (values) and rows `32 h …` of the tokens. -/
def headOf (QKV : FVec F S768x4096 .bf16) (STH : FVec F S256x256 .bf16) (h : Fin 8) : FVec F S32x4096 .f32 :=
  k0_pay6 (k0_pay3 (F := F)) (k0_pay4 (F := F))
    (rows QKV (32 * h.val) (by have := h.isLt; omega))
    (rows QKV (256 + 32 * h.val) (by have := h.isLt; omega))
    (rows QKV (512 + 32 * h.val) (by have := h.isLt; omega))
    (rows STH (32 * h.val) (by have := h.isLt; omega))

/-- Head `h` of the body from its five input blocks: the normalised activations, from them the scaled tokens and the
    stacked projections, and the head arithmetic on the head's rows of those. -/
def headOut (x0 x1 : Vec F S1x256x4096 .f32) (x2 : Vec F S768x256 .bf16) (x3 x4 : Vec F S256x1 .f32) (h : Fin 8) :
    FVec F S32x4096 .f32 :=
  k0_pay6 (k0_pay3 (F := F)) (k0_pay4 (F := F))
    (rows (k0_pay2 x2 (k0_pay7 x0 x3 x4)) (32 * h.val) (by have := h.isLt; omega))
    (rows (k0_pay2 x2 (k0_pay7 x0 x3 x4)) (256 + 32 * h.val) (by have := h.isLt; omega))
    (rows (k0_pay2 x2 (k0_pay7 x0 x3 x4)) (512 + 32 * h.val) (by have := h.isLt; omega))
    (rows (k0_pay1 (k0_pay9 x1) (k0_pay10 x1) (k0_pay7 x0 x3 x4)) (32 * h.val) (by have := h.isLt; omega))

theorem headOut_eq (x0 x1 : Vec F S1x256x4096 .f32) (x2 : Vec F S768x256 .bf16) (x3 x4 : Vec F S256x1 .f32) (h : Fin 8) :
    headOut x0 x1 x2 x3 x4 h
      = headOf (k0_pay2 x2 (k0_pay7 x0 x3 x4)) (k0_pay1 (k0_pay9 x1) (k0_pay10 x1) (k0_pay7 x0 x3 x4)) h := rfl

namespace Block

/-! ## The eight trips' pieces -/

/-- The counted loop over the heads makes eight trips. -/
theorem trips_eq : k0_t1_loop.trips = 8 := by decide

/-- What trip `k` computes from the two scratch buffers it reads: the head arithmetic applied to the
    32-row slabs of the stacked projections (rows 32k, 256+32k, 512+32k) and of the tokens (rows 32k). -/
def tripVal (arg8 : Memref sig .tc .vmem S256x256 .bf16) (arg9 : Memref sig .tc .vmem S768x4096 .bf16)
    (X8 : BufTy.Contents (Elt F) arg8.view.ty) (X9 : BufTy.Contents (Elt F) arg9.view.ty) (k : Fin k0_t1_loop.trips) :
    FVec F S32x4096 .f32 :=
  k0_pay6 (k0_pay3 (F := F)) (k0_pay4 (F := F))
    (arg9.view.readAt (Elt F) (Rect.unit (s := S768x4096) (k0_off1 k) S32x4096.size (k0_off1_inb k)).toLoadRect X9)
    (arg9.view.readAt (Elt F) (Rect.unit (s := S768x4096) (k0_off2 k 256#32) S32x4096.size (k0_off2_inb k 0)).toLoadRect X9)
    (arg9.view.readAt (Elt F) (Rect.unit (s := S768x4096) (k0_off2 k 512#32) S32x4096.size (k0_off2_inb k 1)).toLoadRect X9)
    (arg8.view.readAt (Elt F) (Rect.unit (s := S256x256) (k0_off3 k) S32x256.size (k0_off3_inb k)).toLoadRect X8)

/-- The one store of trip `k`: the 32-row slab of the output block at rows 32k, holding the trip's value. -/
def piece (arg8 : Memref sig .tc .vmem S256x256 .bf16) (arg9 : Memref sig .tc .vmem S768x4096 .bf16)
    (X8 : BufTy.Contents (Elt F) arg8.view.ty) (X9 : BufTy.Contents (Elt F) arg9.view.ty) (k : Fin k0_t1_loop.trips) :
    View.Piece (Elt F) S1x256x4096 .f32 :=
  ⟨Rect.unit (s := S1x256x4096) (k0_off4 k) S1x32x4096.size (k0_off4_inb k), k0_pay5 (tripVal arg8 arg9 X8 X9 k)⟩

/-- Trip `k` writes exactly that piece. -/
theorem tripL_eq (𝒱 : Variants) (c : Dev nD) (bd : Option 𝒱.V) (i : grid0.Coords) (arg1 : Memref sig .tc .vmem S1x256x4096 .f32) (harg1 : arg1.IsWhole) (arg2 : Memref sig .tc .vmem S1x256x4096 .f32) (harg2 : arg2.IsWhole) (arg3 : Memref sig .tc .vmem S768x256 .bf16) (harg3 : arg3.IsWhole) (arg4 : Memref sig .tc .vmem S256x1 .f32) (harg4 : arg4.IsWhole) (arg5 : Memref sig .tc .vmem S256x1 .f32) (harg5 : arg5.IsWhole) (arg6 : Memref sig .tc .vmem S1x256x4096 .f32) (harg6 : arg6.IsWhole) (arg7 : Memref sig .tc .vmem S256x4096 .bf16) (harg7 : arg7.IsWhole) (arg8 : Memref sig .tc .vmem S256x256 .bf16) (harg8 : arg8.IsWhole) (arg9 : Memref sig .tc .vmem S768x4096 .bf16) (harg9 : arg9.IsWhole)
    (X8 : BufTy.Contents (Elt F) arg8.view.ty) (X9 : BufTy.Contents (Elt F) arg9.view.ty) (k : Fin k0_t1_loop.trips) :
    tripL_k0_t1 (F := F) 𝒱 c bd i arg1 harg1 arg2 harg2 arg3 harg3 arg4 harg4 arg5 harg5 arg6 harg6 arg7 harg7 arg8 harg8 arg9 harg9 X8 X9 k = [piece arg8 arg9 X8 X9 k] := by
  unfold tripL_k0_t1 trip_k0_t1
  rfl

/-- The output block as one function of its index: row `32 k + d` is row `d` of trip `k`'s value. -/
def Gout (arg8 : Memref sig .tc .vmem S256x256 .bf16) (arg9 : Memref sig .tc .vmem S768x4096 .bf16)
    (X8 : BufTy.Contents (Elt F) arg8.view.ty) (X9 : BufTy.Contents (Elt F) arg9.view.ty) : S1x256x4096.Idx → Elt F .f32 := fun y =>
  k0_pay5 (tripVal arg8 arg9 X8 X9 ⟨(y 1).val / 32, by
      have h : (y 1).val < 256 := (y 1).isLt
      rw [trips_eq]; omega⟩)
    (ix3 (0 : Fin 1) (⟨(y 1).val % 32, Nat.mod_lt _ (by decide)⟩ : Fin 32) (⟨(y 2).val, (y 2).isLt⟩ : Fin 4096))

theorem Gout_apply (arg8 : Memref sig .tc .vmem S256x256 .bf16) (arg9 : Memref sig .tc .vmem S768x4096 .bf16)
    (X8 : BufTy.Contents (Elt F) arg8.view.ty) (X9 : BufTy.Contents (Elt F) arg9.view.ty)
    (y : S1x256x4096.Idx) (k : Fin k0_t1_loop.trips) (d : Fin 32) (n : Fin 4096)
    (h1 : (y 1).val = 32 * k.val + d.val) (h2 : (y 2).val = n.val) :
    Gout arg8 arg9 X8 X9 y = k0_pay5 (tripVal arg8 arg9 X8 X9 k) (ix3 (0 : Fin 1) d n) := by
  have hk : (y 1).val / 32 = k.val := by have := d.isLt; omega
  have hd : (y 1).val % 32 = d.val := by have := d.isLt; omega
  unfold Gout
  simp only [hk, hd, h2, Fin.eta]

theorem off4_0 (k : Fin k0_t1_loop.trips) : k0_off4 k 0 = 0 := by rw [k0_off4_eq]; rfl
theorem off4_1 (k : Fin k0_t1_loop.trips) : k0_off4 k 1 = 32 * k.val := by rw [k0_off4_eq]; rfl
theorem off4_2 (k : Fin k0_t1_loop.trips) : k0_off4 k 2 = 0 := by rw [k0_off4_eq]; rfl

/-- Trip `k`'s piece is that function read through the piece's rectangle. -/
theorem piece_agree (arg8 : Memref sig .tc .vmem S256x256 .bf16) (arg9 : Memref sig .tc .vmem S768x4096 .bf16)
    (X8 : BufTy.Contents (Elt F) arg8.view.ty) (X9 : BufTy.Contents (Elt F) arg9.view.ty) (k : Fin k0_t1_loop.trips)
    (x : (piece arg8 arg9 X8 X9 k).1.shape.Idx) :
    (piece arg8 arg9 X8 X9 k).2 x = Gout arg8 arg9 X8 X9 ((piece arg8 arg9 X8 X9 k).1.emb x) := by
  have hx1 : (x 1).val < 32 := (x 1).isLt
  have hx2 : (x 2).val < 4096 := (x 2).isLt
  have hx0 : (x 0).val < 1 := (x 0).isLt
  rw [Gout_apply arg8 arg9 X8 X9 _ k ⟨(x 1).val, hx1⟩ ⟨(x 2).val, hx2⟩
    (by show k0_off4 k 1 + 1 * (x 1).val = 32 * k.val + (x 1).val; rw [off4_1]; omega)
    (by show k0_off4 k 2 + 1 * (x 2).val = (x 2).val; rw [off4_2]; omega)]
  show k0_pay5 (tripVal arg8 arg9 X8 X9 k) x = _
  congr 1
  funext a
  match a with
  | ⟨0, _⟩ => exact Fin.ext (by show (x 0).val = 0; omega)
  | ⟨1, _⟩ => rfl
  | ⟨2, _⟩ => rfl

/-- Trip `k`'s piece is among the pieces of the trips before `n`, for every `n` past `k`. -/
theorem mem_pb (𝒱 : Variants) (c : Dev nD) (bd : Option 𝒱.V) (i : grid0.Coords) (arg1 : Memref sig .tc .vmem S1x256x4096 .f32) (harg1 : arg1.IsWhole) (arg2 : Memref sig .tc .vmem S1x256x4096 .f32) (harg2 : arg2.IsWhole) (arg3 : Memref sig .tc .vmem S768x256 .bf16) (harg3 : arg3.IsWhole) (arg4 : Memref sig .tc .vmem S256x1 .f32) (harg4 : arg4.IsWhole) (arg5 : Memref sig .tc .vmem S256x1 .f32) (harg5 : arg5.IsWhole) (arg6 : Memref sig .tc .vmem S1x256x4096 .f32) (harg6 : arg6.IsWhole) (arg7 : Memref sig .tc .vmem S256x4096 .bf16) (harg7 : arg7.IsWhole) (arg8 : Memref sig .tc .vmem S256x256 .bf16) (harg8 : arg8.IsWhole) (arg9 : Memref sig .tc .vmem S768x4096 .bf16) (harg9 : arg9.IsWhole)
    (X8 : BufTy.Contents (Elt F) arg8.view.ty) (X9 : BufTy.Contents (Elt F) arg9.view.ty) (k : Fin k0_t1_loop.trips) :
    ∀ n : ℕ, k.val < n → n ≤ 8 →
      piece arg8 arg9 X8 X9 k ∈ pb_k0_t1 (F := F) 𝒱 c bd i arg1 harg1 arg2 harg2 arg3 harg3 arg4 harg4 arg5 harg5 arg6 harg6 arg7 harg7 arg8 harg8 arg9 harg9 X8 X9 n
  | 0, h, _ => absurd h (Nat.not_lt_zero _)
  | n + 1, h, hn => by
    have hn' : n < k0_t1_loop.trips := by rw [trips_eq]; omega
    rw [show n + 1 = (⟨n, hn'⟩ : Fin k0_t1_loop.trips).val + 1 from rfl, pb_k0_t1_succ, tripL_eq]
    by_cases e : k.val = n
    · have hk : k = ⟨n, hn'⟩ := Fin.ext e
      rw [hk]
      exact List.mem_append_left _ (List.mem_singleton.mpr rfl)
    · exact List.mem_append_right _ (mem_pb 𝒱 c bd i arg1 harg1 arg2 harg2 arg3 harg3 arg4 harg4 arg5 harg5 arg6 harg6 arg7 harg7 arg8 harg8 arg9 harg9 X8 X9 k n (by omega) (by omega))

/-- Every piece of the trips before `n` is that one function read through the piece's rectangle. -/
theorem pb_agree (𝒱 : Variants) (c : Dev nD) (bd : Option 𝒱.V) (i : grid0.Coords) (arg1 : Memref sig .tc .vmem S1x256x4096 .f32) (harg1 : arg1.IsWhole) (arg2 : Memref sig .tc .vmem S1x256x4096 .f32) (harg2 : arg2.IsWhole) (arg3 : Memref sig .tc .vmem S768x256 .bf16) (harg3 : arg3.IsWhole) (arg4 : Memref sig .tc .vmem S256x1 .f32) (harg4 : arg4.IsWhole) (arg5 : Memref sig .tc .vmem S256x1 .f32) (harg5 : arg5.IsWhole) (arg6 : Memref sig .tc .vmem S1x256x4096 .f32) (harg6 : arg6.IsWhole) (arg7 : Memref sig .tc .vmem S256x4096 .bf16) (harg7 : arg7.IsWhole) (arg8 : Memref sig .tc .vmem S256x256 .bf16) (harg8 : arg8.IsWhole) (arg9 : Memref sig .tc .vmem S768x4096 .bf16) (harg9 : arg9.IsWhole)
    (X8 : BufTy.Contents (Elt F) arg8.view.ty) (X9 : BufTy.Contents (Elt F) arg9.view.ty) :
    ∀ n : ℕ, n ≤ 8 → ∀ p ∈ pb_k0_t1 (F := F) 𝒱 c bd i arg1 harg1 arg2 harg2 arg3 harg3 arg4 harg4 arg5 harg5 arg6 harg6 arg7 harg7 arg8 harg8 arg9 harg9 X8 X9 n,
      ∀ x : p.1.shape.Idx, p.2 x = Gout arg8 arg9 X8 X9 (p.1.emb x)
  | 0, _, p, hp => absurd hp List.not_mem_nil
  | n + 1, hn, p, hp => by
    have hn' : n < k0_t1_loop.trips := by rw [trips_eq]; omega
    rw [show n + 1 = (⟨n, hn'⟩ : Fin k0_t1_loop.trips).val + 1 from rfl, pb_k0_t1_succ, tripL_eq] at hp
    rcases List.mem_append.mp hp with h | h
    · rw [List.mem_singleton.mp h]
      exact piece_agree arg8 arg9 X8 X9 ⟨n, hn'⟩
    · exact pb_agree 𝒱 c bd i arg1 harg1 arg2 harg2 arg3 harg3 arg4 harg4 arg5 harg5 arg6 harg6 arg7 harg7 arg8 harg8 arg9 harg9 X8 X9 n (by omega) p h

/-- The eight slabs cover the block: row `r` lies in the slab of trip `r / 32`. -/
theorem pb_cover (𝒱 : Variants) (c : Dev nD) (bd : Option 𝒱.V) (i : grid0.Coords) (arg1 : Memref sig .tc .vmem S1x256x4096 .f32) (harg1 : arg1.IsWhole) (arg2 : Memref sig .tc .vmem S1x256x4096 .f32) (harg2 : arg2.IsWhole) (arg3 : Memref sig .tc .vmem S768x256 .bf16) (harg3 : arg3.IsWhole) (arg4 : Memref sig .tc .vmem S256x1 .f32) (harg4 : arg4.IsWhole) (arg5 : Memref sig .tc .vmem S256x1 .f32) (harg5 : arg5.IsWhole) (arg6 : Memref sig .tc .vmem S1x256x4096 .f32) (harg6 : arg6.IsWhole) (arg7 : Memref sig .tc .vmem S256x4096 .bf16) (harg7 : arg7.IsWhole) (arg8 : Memref sig .tc .vmem S256x256 .bf16) (harg8 : arg8.IsWhole) (arg9 : Memref sig .tc .vmem S768x4096 .bf16) (harg9 : arg9.IsWhole)
    (X8 : BufTy.Contents (Elt F) arg8.view.ty) (X9 : BufTy.Contents (Elt F) arg9.view.ty) (y : S1x256x4096.Idx) :
    ∃ p ∈ pb_k0_t1 (F := F) 𝒱 c bd i arg1 harg1 arg2 harg2 arg3 harg3 arg4 harg4 arg5 harg5 arg6 harg6 arg7 harg7 arg8 harg8 arg9 harg9 X8 X9 8, y ∈ p.1.set := by
  have h0 : (y 0).val < 1 := (y 0).isLt
  have h1 : (y 1).val < 256 := (y 1).isLt
  have h2 : (y 2).val < 4096 := (y 2).isLt
  have hk : (y 1).val / 32 < k0_t1_loop.trips := by rw [trips_eq]; omega
  refine ⟨piece arg8 arg9 X8 X9 ⟨(y 1).val / 32, hk⟩, mem_pb 𝒱 c bd i arg1 harg1 arg2 harg2 arg3 harg3 arg4 harg4 arg5 harg5 arg6 harg6 arg7 harg7 arg8 harg8 arg9 harg9 X8 X9 _ 8 (by show (y 1).val / 32 < 8; omega) (le_refl _), ?_⟩
  show y ∈ (Rect.unit (s := S1x256x4096) (k0_off4 ⟨(y 1).val / 32, hk⟩) S1x32x4096.size (k0_off4_inb ⟨(y 1).val / 32, hk⟩)).set
  refine Rect.mem_set_unit.mpr (fun a => ?_)
  match a with
  | ⟨0, _⟩ =>
    show k0_off4 ⟨(y 1).val / 32, hk⟩ 0 ≤ (y 0).val ∧ (y 0).val < k0_off4 ⟨(y 1).val / 32, hk⟩ 0 + 1
    rw [off4_0]; omega
  | ⟨1, _⟩ =>
    show k0_off4 ⟨(y 1).val / 32, hk⟩ 1 ≤ (y 1).val ∧ (y 1).val < k0_off4 ⟨(y 1).val / 32, hk⟩ 1 + 32
    rw [off4_1]; show 32 * ((y 1).val / 32) ≤ (y 1).val ∧ (y 1).val < 32 * ((y 1).val / 32) + 32; omega
  | ⟨2, _⟩ =>
    show k0_off4 ⟨(y 1).val / 32, hk⟩ 2 ≤ (y 2).val ∧ (y 2).val < k0_off4 ⟨(y 1).val / 32, hk⟩ 2 + 4096
    rw [off4_2]; omega

/-- So the block the eight trips leave, read through any view of its shape over any earlier contents, is that function. -/
theorem read_pb {sig' : RefSig} {κ' : Kind} {sp' : Space} (v : View sig' κ' sp' S1x256x4096 .f32) (f : v.ty.Contents (Elt F))
    (𝒱 : Variants) (c : Dev nD) (bd : Option 𝒱.V) (i : grid0.Coords) (arg1 : Memref sig .tc .vmem S1x256x4096 .f32) (harg1 : arg1.IsWhole) (arg2 : Memref sig .tc .vmem S1x256x4096 .f32) (harg2 : arg2.IsWhole) (arg3 : Memref sig .tc .vmem S768x256 .bf16) (harg3 : arg3.IsWhole) (arg4 : Memref sig .tc .vmem S256x1 .f32) (harg4 : arg4.IsWhole) (arg5 : Memref sig .tc .vmem S256x1 .f32) (harg5 : arg5.IsWhole) (arg6 : Memref sig .tc .vmem S1x256x4096 .f32) (harg6 : arg6.IsWhole) (arg7 : Memref sig .tc .vmem S256x4096 .bf16) (harg7 : arg7.IsWhole) (arg8 : Memref sig .tc .vmem S256x256 .bf16) (harg8 : arg8.IsWhole) (arg9 : Memref sig .tc .vmem S768x4096 .bf16) (harg9 : arg9.IsWhole)
    (X8 : BufTy.Contents (Elt F) arg8.view.ty) (X9 : BufTy.Contents (Elt F) arg9.view.ty) (y : S1x256x4096.Idx) :
    v.read (Elt F) (v.writes (Elt F) f (pb_k0_t1 (F := F) 𝒱 c bd i arg1 harg1 arg2 harg2 arg3 harg3 arg4 harg4 arg5 harg5 arg6 harg6 arg7 harg7 arg8 harg8 arg9 harg9 X8 X9 8)) y = Gout arg8 arg9 X8 X9 y :=
  View.read_writes_apply_of_pieces v f (Gout arg8 arg9 X8 X9) _ (pb_agree 𝒱 c bd i arg1 harg1 arg2 harg2 arg3 harg3 arg4 harg4 arg5 harg5 arg6 harg6 arg7 harg7 arg8 harg8 arg9 harg9 X8 X9 8 (le_refl _)) y
    (pb_cover 𝒱 c bd i arg1 harg1 arg2 harg2 arg3 harg3 arg4 harg4 arg5 harg5 arg6 harg6 arg7 harg7 arg8 harg8 arg9 harg9 X8 X9 y)

/-! ## A load of a slab of 32 rows -/

/-- A load of 32 whole rows starting at row `r0` reads those rows of what the buffer reads as. -/
theorem readAt_rows {sig' : RefSig} {κ' : Kind} {sp' : Space} {R C : ℕ} (v : View sig' κ' sp' (⟨2, ![R, C]⟩ : Shape) .bf16)
    (X : v.ty.Contents (Elt F)) (off : Fin 2 → ℕ)
    (inb : ∀ a, off a + (⟨2, ![32, C]⟩ : Shape).size a ≤ (⟨2, ![R, C]⟩ : Shape).size a)
    (r0 : ℕ) (h : r0 + 32 ≤ R) (h0 : off 0 = r0) (h1 : off 1 = 0) :
    v.readAt (Elt F) (Rect.unit (s := (⟨2, ![R, C]⟩ : Shape)) off (⟨2, ![32, C]⟩ : Shape).size inb).toLoadRect X
      = rows (F := F) (φ := .bf16) (v.read (Elt F) X) r0 h := by
  funext j
  show v.read (Elt F) X _ = v.read (Elt F) X _
  congr 1
  funext a
  match a with
  | ⟨0, _⟩ => exact Fin.ext (by show off 0 + 1 * (j 0).val = r0 + (j 0).val; omega)
  | ⟨1, _⟩ => exact Fin.ext (by show off 1 + 1 * (j 1).val = (j 1).val; omega)

theorem off1_0 (k : Fin k0_t1_loop.trips) : k0_off1 k 0 = 32 * k.val := by rw [k0_off1_eq]; rfl
theorem off1_1 (k : Fin k0_t1_loop.trips) : k0_off1 k 1 = 0 := by rw [k0_off1_eq]; rfl
theorem off3_0 (k : Fin k0_t1_loop.trips) : k0_off3 k 0 = 32 * k.val := by rw [k0_off3_eq]; rfl
theorem off3_1 (k : Fin k0_t1_loop.trips) : k0_off3 k 1 = 0 := by rw [k0_off3_eq]; rfl
theorem off2a_0 (k : Fin k0_t1_loop.trips) : k0_off2 k 256#32 0 = 256 + 32 * k.val := by
  rw [show k0_off2 k 256#32 = ![256 * 0 + 32 * k.val + 256, 0] from k0_off2_eq k ⟨0, by decide⟩]
  show 256 * 0 + 32 * k.val + 256 = _; omega
theorem off2a_1 (k : Fin k0_t1_loop.trips) : k0_off2 k 256#32 1 = 0 := by
  rw [show k0_off2 k 256#32 = ![256 * 0 + 32 * k.val + 256, 0] from k0_off2_eq k ⟨0, by decide⟩]; rfl
theorem off2b_0 (k : Fin k0_t1_loop.trips) : k0_off2 k 512#32 0 = 512 + 32 * k.val := by
  rw [show k0_off2 k 512#32 = ![256 * 1 + 32 * k.val + 256, 0] from k0_off2_eq k ⟨1, by decide⟩]
  show 256 * 1 + 32 * k.val + 256 = _; omega
theorem off2b_1 (k : Fin k0_t1_loop.trips) : k0_off2 k 512#32 1 = 0 := by
  rw [show k0_off2 k 512#32 = ![256 * 1 + 32 * k.val + 256, 0] from k0_off2_eq k ⟨1, by decide⟩]; rfl

/-- Trip `h`'s value is head `h` of what the two scratch buffers read as. -/
theorem tripVal_eq (arg8 : Memref sig .tc .vmem S256x256 .bf16) (arg9 : Memref sig .tc .vmem S768x4096 .bf16)
    (X8 : BufTy.Contents (Elt F) arg8.view.ty) (X9 : BufTy.Contents (Elt F) arg9.view.ty) (h : Fin 8)
    (hk : h.val < k0_t1_loop.trips) :
    tripVal arg8 arg9 X8 X9 ⟨h.val, hk⟩ = headOf (arg9.view.read (Elt F) X9) (arg8.view.read (Elt F) X8) h := by
  unfold tripVal headOf
  rw [readAt_rows arg9.view X9 (k0_off1 ⟨h.val, hk⟩) _ (32 * h.val) _ (off1_0 _) (off1_1 _),
    readAt_rows arg9.view X9 (k0_off2 ⟨h.val, hk⟩ 256#32) _ (256 + 32 * h.val) _ (off2a_0 _) (off2a_1 _),
    readAt_rows arg9.view X9 (k0_off2 ⟨h.val, hk⟩ 512#32) _ (512 + 32 * h.val) _ (off2b_0 _) (off2b_1 _),
    readAt_rows arg8.view X8 (k0_off3 ⟨h.val, hk⟩) _ (32 * h.val) _ (off3_0 _) (off3_1 _)]

/-! ## Whole-buffer stores and loads -/

theorem hz2 : (![0, 0] : Fin 2 → ℕ) = fun _ => 0 := by funext a; fin_cases a <;> rfl
theorem hz3 : (![0, 0, 0] : Fin 3 → ℕ) = fun _ => 0 := by funext a; fin_cases a <;> rfl

/-- One store of a whole buffer, over anything, reads back as its payload. -/
theorem read_whole_store {sig' : RefSig} {κ' : Kind} {sp' : Space} {S : Shape} {e : EltTy} (v : View sig' κ' sp' S e)
    (f : v.ty.Contents (Elt F)) {off : Fin S.rank → ℕ} (hz : off = fun _ => 0) (inb : ∀ a, off a + S.size a ≤ S.size a)
    (P : S.Idx → Elt F e) :
    v.read (Elt F) (v.writes (Elt F) f [(⟨Rect.unit off S.size inb, P⟩ : View.Piece (Elt F) S e)]) = P := by
  rw [View.read_writes_eq_canon v f _ (fun y => ⟨_, List.mem_singleton_self _, View.mem_set_unit_zero hz inb y⟩),
    View.canon_unit_zero hz]

/-- A load of a whole region that reads as `x` returns `x`. -/
theorem readAt_whole_unread {sig' : RefSig} {κ' : Kind} {sp' : Space} {S : Shape} {e : EltTy} {m : Memref sig' κ' sp' S e}
    (h : m.IsWhole) (x : S.Idx → Elt F e) {off : Fin S.rank → ℕ} (hz : off = fun _ => 0) (inb : ∀ a, off a + S.size a ≤ S.size a) :
    m.view.readAt (Elt F) (Rect.unit off S.size inb).toLoadRect (h.unread x) = x := by
  rw [View.readAt_eq_ld, h.read_unread, View.ld_unit_zero hz]

/-! ## The two scratch buffers the trips read, as the run left them -/

/-- The normalised activations, read back from their scratch buffer after its one whole store. -/
theorem v37_eq (c : Dev nD) (arg1 : Memref sig .tc .vmem S1x256x4096 .f32) (harg1 : arg1.IsWhole)
    (arg4 : Memref sig .tc .vmem S256x1 .f32) (harg4 : arg4.IsWhole) (arg5 : Memref sig .tc .vmem S256x1 .f32) (harg5 : arg5.IsWhole)
    (arg7 : Memref sig .tc .vmem S256x4096 .bf16) (x0 : Vec F S1x256x4096 .f32) (x3 x4 : Vec F S256x1 .f32) :
    Fr.kernelRun0_A.sl.v37 c arg1 harg1 arg4 harg4 arg5 harg5 arg7 x0 x3 x4 = k0_pay7 x0 x3 x4 := by
  unfold Fr.kernelRun0_A.sl.v37 Fr.kernelRun0_A.sl.HS0_1
  rw [View.readCov_unit_zero (S := S256x4096) _ hz2, readAt_whole_unread harg1 x0 hz3, readAt_whole_unread harg4 x3 hz2,
    readAt_whole_unread harg5 x4 hz2]

/-- The stacked projections' buffer reads as the projections of the normalised activations. -/
theorem X9_read (c : Dev nD) (arg1 : Memref sig .tc .vmem S1x256x4096 .f32) (harg1 : arg1.IsWhole)
    (arg3 : Memref sig .tc .vmem S768x256 .bf16) (harg3 : arg3.IsWhole)
    (arg4 : Memref sig .tc .vmem S256x1 .f32) (harg4 : arg4.IsWhole) (arg5 : Memref sig .tc .vmem S256x1 .f32) (harg5 : arg5.IsWhole)
    (arg7 : Memref sig .tc .vmem S256x4096 .bf16) (arg9 : Memref sig .tc .vmem S768x4096 .bf16)
    (x0 : Vec F S1x256x4096 .f32) (x2 : Vec F S768x256 .bf16) (x3 x4 : Vec F S256x1 .f32) :
    arg9.view.read (Elt F) (arg9.view.writes (Elt F) arg9.view.junk
        (Fr.kernelRun0_A.sl.HS2_1 c arg1 harg1 arg3 harg3 arg4 harg4 arg5 harg5 arg7 x0 x2 x3 x4))
      = k0_pay2 x2 (k0_pay7 x0 x3 x4) := by
  unfold Fr.kernelRun0_A.sl.HS2_1
  rw [read_whole_store (S := S768x4096) _ _ hz2, v37_eq, readAt_whole_unread harg3 x2 hz2]

/-- The tokens' buffer reads as the scaled tokens of the normalised activations and the mask. -/
theorem X8_read (c : Dev nD) (arg1 : Memref sig .tc .vmem S1x256x4096 .f32) (harg1 : arg1.IsWhole)
    (arg2 : Memref sig .tc .vmem S1x256x4096 .f32) (harg2 : arg2.IsWhole)
    (arg4 : Memref sig .tc .vmem S256x1 .f32) (harg4 : arg4.IsWhole) (arg5 : Memref sig .tc .vmem S256x1 .f32) (harg5 : arg5.IsWhole)
    (arg7 : Memref sig .tc .vmem S256x4096 .bf16) (arg8 : Memref sig .tc .vmem S256x256 .bf16)
    (x0 x1 : Vec F S1x256x4096 .f32) (x3 x4 : Vec F S256x1 .f32) :
    arg8.view.read (Elt F) (arg8.view.writes (Elt F) arg8.view.junk
        (Fr.kernelRun0_A.sl.HS1_1 c arg1 harg1 arg2 harg2 arg4 harg4 arg5 harg5 arg7 x0 x1 x3 x4))
      = k0_pay1 (k0_pay9 x1) (k0_pay10 x1) (k0_pay7 x0 x3 x4) := by
  unfold Fr.kernelRun0_A.sl.HS1_1 Fr.kernelRun0_A.sl.r Fr.kernelRun0_A.sl.r_1
  rw [read_whole_store (S := S256x256) _ _ hz2, v37_eq, readAt_whole_unread harg2 x1 hz3]

end Block

open Block

/-! ## The output block -/

/-- THE OUTPUT BLOCK: row `32 h + d` of what the body leaves in the output window's staging buffer is row `d` of head `h`
    computed from the five input blocks. -/
theorem out0_A_5_apply (c : Dev nD) (i : grid0.Coords) (arg1 : Memref sig .tc .vmem S1x256x4096 .f32) (harg1 : arg1.IsWhole) (arg2 : Memref sig .tc .vmem S1x256x4096 .f32) (harg2 : arg2.IsWhole) (arg3 : Memref sig .tc .vmem S768x256 .bf16) (harg3 : arg3.IsWhole) (arg4 : Memref sig .tc .vmem S256x1 .f32) (harg4 : arg4.IsWhole) (arg5 : Memref sig .tc .vmem S256x1 .f32) (harg5 : arg5.IsWhole) (arg6 : Memref sig .tc .vmem S1x256x4096 .f32) (harg6 : arg6.IsWhole) (arg7 : Memref sig .tc .vmem S256x4096 .bf16) (harg7 : arg7.IsWhole) (arg8 : Memref sig .tc .vmem S256x256 .bf16) (harg8 : arg8.IsWhole) (arg9 : Memref sig .tc .vmem S768x4096 .bf16) (harg9 : arg9.IsWhole)
    (x0 x1 : Vec F S1x256x4096 .f32) (x2 : Vec F S768x256 .bf16) (x3 x4 : Vec F S256x1 .f32)
    (h : Fin 8) (d : Fin 32) (n : Fin 4096) :
    Cert.KernelIdeal.Fr.out0_A_5 c i arg1 harg1 arg2 harg2 arg3 harg3 arg4 harg4 arg5 harg5 arg6 harg6 arg7 harg7 arg8 harg8 arg9 harg9 x0 x1 x2 x3 x4 (ix3 (0 : Fin 1) (Cert.Spec.hd h d) n)
      = k0_pay5 (headOut x0 x1 x2 x3 x4 h) (ix3 (0 : Fin 1) d n) := by
  have hk : h.val < k0_t1_loop.trips := by rw [trips_eq]; exact h.isLt
  unfold Fr.out0_A_5
  rw [Fr.kernelRun0_A_pieces, read_pb,
    Gout_apply _ _ _ _ (ix3 (0 : Fin 1) (Cert.Spec.hd h d) n) ⟨h.val, hk⟩ d n rfl rfl,
    tripVal_eq _ _ _ _ h hk, X9_read, X8_read, headOut_eq]

end Cert.KernelIdeal.Val
end
-- ==== Proof.KV.PayHeadDots1.lean ====
/-
  The matrix products of an attention head's first half (keys against tokens, then the pixel
  weights against a row of ones and against the values), each read at one element of its result.

  Every product accumulates into the zero matrix, so its element is the plain sum, over the one
  contracted axis, of the products of the operands' elements.  Two arrangements occur: both operands
  contracted along their rows (result element (a, b) = Σ_d l[d, a] · r[d, b]), and the ordinary
  row-by-column product (result element (a, b) = Σ_k l[a, k] · r[k, b]).  For each set of dimension
  numbers four small facts say which coordinate of the result index or of the contraction index each
  operand axis reads; the product lemma re-indexes the sum over the contraction shape by its single
  coordinate and identifies the two operand indices with those facts.
-/
import proofs.«409201_j15178414424521_3_alg».proof.Proof.Gen.KernelIdeal.Skeleton
import Idealize.ShloMosaic.Lib.ValueIdx
import Idealize.ShloMosaic.PureOps.Ideal.Laws

noncomputable section

namespace Cert.KernelIdeal.Val

open Idealize.ShloMosaic Idealize.ShloMosaic.ValueIdx Cert.KernelIdeal Cert.KernelIdeal.Gen
open scoped BigOperators

/-! ## Keys against tokens: 32×4096 and 32×256, rows contracted, into 4096×256 -/

theorem lhsKS_0 (i : S4096x256.Idx) (q : dot_S32x4096_S32x256_S4096x256_0_0_1_1_n_n.contr.Idx) :
    (dot_S32x4096_S32x256_S4096x256_0_0_1_1_n_n.lhsIdx i q 0).val = (q ⟨0, by decide⟩).val :=
  dot_S32x4096_S32x256_S4096x256_0_0_1_1_n_n.lhsIdx_val_of_single rfl i q
theorem lhsKS_1 (i : S4096x256.Idx) (q : dot_S32x4096_S32x256_S4096x256_0_0_1_1_n_n.contr.Idx) :
    (dot_S32x4096_S32x256_S4096x256_0_0_1_1_n_n.lhsIdx i q 1).val = (i 0).val := by
  unfold DotDims.lhsIdx
  rw [dif_neg (show ¬(1 : Fin S32x4096.rank) ∈ dot_S32x4096_S32x256_S4096x256_0_0_1_1_n_n.lhsBatch by decide), dif_pos (show (1 : Fin S32x4096.rank) ∈ dot_S32x4096_S32x256_S4096x256_0_0_1_1_n_n.lhsNonContracting by decide)]
  rfl
theorem rhsKS_0 (i : S4096x256.Idx) (q : dot_S32x4096_S32x256_S4096x256_0_0_1_1_n_n.contr.Idx) :
    (dot_S32x4096_S32x256_S4096x256_0_0_1_1_n_n.rhsIdx i q 0).val = (q ⟨0, by decide⟩).val :=
  dot_S32x4096_S32x256_S4096x256_0_0_1_1_n_n.rhsIdx_val_of_single rfl i q
theorem rhsKS_1 (i : S4096x256.Idx) (q : dot_S32x4096_S32x256_S4096x256_0_0_1_1_n_n.contr.Idx) :
    (dot_S32x4096_S32x256_S4096x256_0_0_1_1_n_n.rhsIdx i q 1).val = (i 1).val := by
  unfold DotDims.rhsIdx
  rw [dif_neg (show ¬(1 : Fin S32x256.rank) ∈ dot_S32x4096_S32x256_S4096x256_0_0_1_1_n_n.rhsBatch by decide), dif_pos (show (1 : Fin S32x256.rank) ∈ dot_S32x4096_S32x256_S4096x256_0_0_1_1_n_n.rhsNonContracting by decide)]
  rfl

/-- Element (a, b) of the product is Σ_d l[d, a] · r[d, b]. -/
theorem dotKS_apply {φ₁ φ₂ : FTy} (l : FVec Ideal S32x4096 φ₁) (r : FVec Ideal S32x256 φ₂) (a : Fin 4096) (b : Fin 256) :
    matmul dot_S32x4096_S32x256_S4096x256_0_0_1_1_n_n none l r (constant (F := Ideal) S4096x256 .f32 0x00000000#32) (ix2 a b)
      = ∑ d : Fin 32, l (ix2 d a) * r (ix2 d b) := by
  simp only [matmul]
  rw [Ideal.matmul_constant_zero_apply, ← Equiv.sum_comp (contrEquiv1 dot_S32x4096_S32x256_S4096x256_0_0_1_1_n_n 32 rfl rfl).symm]
  refine Finset.sum_congr rfl fun k _ => ?_
  have hk := contrEquiv1_symm_val dot_S32x4096_S32x256_S4096x256_0_0_1_1_n_n 32 rfl rfl k
  have el : dot_S32x4096_S32x256_S4096x256_0_0_1_1_n_n.lhsIdx (ix2 a b) ((contrEquiv1 dot_S32x4096_S32x256_S4096x256_0_0_1_1_n_n 32 rfl rfl).symm k) = ix2 k a := funext fun c => Fin.ext (by
    match c with
    | ⟨0, _⟩ => exact (lhsKS_0 _ _).trans hk
    | ⟨1, _⟩ => exact lhsKS_1 _ _)
  have er : dot_S32x4096_S32x256_S4096x256_0_0_1_1_n_n.rhsIdx (ix2 a b) ((contrEquiv1 dot_S32x4096_S32x256_S4096x256_0_0_1_1_n_n 32 rfl rfl).symm k) = ix2 k b := funext fun c => Fin.ext (by
    match c with
    | ⟨0, _⟩ => exact (rhsKS_0 _ _).trans hk
    | ⟨1, _⟩ => exact rhsKS_1 _ _)
  rw [el, er]

/-! ## A row of 4096 against 4096×256, into 1×256 -/

theorem lhsOneE_0 (i : S1x256.Idx) (q : dot_S1x4096_S4096x256_S1x256_1_0_0_1_n_n.contr.Idx) :
    (dot_S1x4096_S4096x256_S1x256_1_0_0_1_n_n.lhsIdx i q 0).val = (i 0).val := by
  unfold DotDims.lhsIdx
  rw [dif_neg (show ¬(0 : Fin S1x4096.rank) ∈ dot_S1x4096_S4096x256_S1x256_1_0_0_1_n_n.lhsBatch by decide), dif_pos (show (0 : Fin S1x4096.rank) ∈ dot_S1x4096_S4096x256_S1x256_1_0_0_1_n_n.lhsNonContracting by decide)]
  rfl
theorem lhsOneE_1 (i : S1x256.Idx) (q : dot_S1x4096_S4096x256_S1x256_1_0_0_1_n_n.contr.Idx) :
    (dot_S1x4096_S4096x256_S1x256_1_0_0_1_n_n.lhsIdx i q 1).val = (q ⟨0, by decide⟩).val :=
  dot_S1x4096_S4096x256_S1x256_1_0_0_1_n_n.lhsIdx_val_of_single rfl i q
theorem rhsOneE_0 (i : S1x256.Idx) (q : dot_S1x4096_S4096x256_S1x256_1_0_0_1_n_n.contr.Idx) :
    (dot_S1x4096_S4096x256_S1x256_1_0_0_1_n_n.rhsIdx i q 0).val = (q ⟨0, by decide⟩).val :=
  dot_S1x4096_S4096x256_S1x256_1_0_0_1_n_n.rhsIdx_val_of_single rfl i q
theorem rhsOneE_1 (i : S1x256.Idx) (q : dot_S1x4096_S4096x256_S1x256_1_0_0_1_n_n.contr.Idx) :
    (dot_S1x4096_S4096x256_S1x256_1_0_0_1_n_n.rhsIdx i q 1).val = (i 1).val := by
  unfold DotDims.rhsIdx
  rw [dif_neg (show ¬(1 : Fin S4096x256.rank) ∈ dot_S1x4096_S4096x256_S1x256_1_0_0_1_n_n.rhsBatch by decide), dif_pos (show (1 : Fin S4096x256.rank) ∈ dot_S1x4096_S4096x256_S1x256_1_0_0_1_n_n.rhsNonContracting by decide)]
  rfl

/-- Element (a, b) of the product is Σ_k l[a, k] · r[k, b]. -/
theorem dotOneE_apply {φ₁ φ₂ : FTy} (l : FVec Ideal S1x4096 φ₁) (r : FVec Ideal S4096x256 φ₂) (a : Fin 1) (b : Fin 256) :
    matmul dot_S1x4096_S4096x256_S1x256_1_0_0_1_n_n none l r (constant (F := Ideal) S1x256 .f32 0x00000000#32) (ix2 a b)
      = ∑ k : Fin 4096, l (ix2 a k) * r (ix2 k b) := by
  simp only [matmul]
  rw [Ideal.matmul_constant_zero_apply, ← Equiv.sum_comp (contrEquiv1 dot_S1x4096_S4096x256_S1x256_1_0_0_1_n_n 4096 rfl rfl).symm]
  refine Finset.sum_congr rfl fun k _ => ?_
  have hk := contrEquiv1_symm_val dot_S1x4096_S4096x256_S1x256_1_0_0_1_n_n 4096 rfl rfl k
  have el : dot_S1x4096_S4096x256_S1x256_1_0_0_1_n_n.lhsIdx (ix2 a b) ((contrEquiv1 dot_S1x4096_S4096x256_S1x256_1_0_0_1_n_n 4096 rfl rfl).symm k) = ix2 a k := funext fun c => Fin.ext (by
    match c with
    | ⟨0, _⟩ => exact lhsOneE_0 _ _
    | ⟨1, _⟩ => exact (lhsOneE_1 _ _).trans hk)
  have er : dot_S1x4096_S4096x256_S1x256_1_0_0_1_n_n.rhsIdx (ix2 a b) ((contrEquiv1 dot_S1x4096_S4096x256_S1x256_1_0_0_1_n_n 4096 rfl rfl).symm k) = ix2 k b := funext fun c => Fin.ext (by
    match c with
    | ⟨0, _⟩ => exact (rhsOneE_0 _ _).trans hk
    | ⟨1, _⟩ => exact rhsOneE_1 _ _)
  rw [el, er]

/-! ## Values against the pixel weights: 32×4096 times 4096×256, into 32×256 -/

theorem lhsVE_0 (i : S32x256.Idx) (q : dot_S32x4096_S4096x256_S32x256_1_0_0_1_n_n.contr.Idx) :
    (dot_S32x4096_S4096x256_S32x256_1_0_0_1_n_n.lhsIdx i q 0).val = (i 0).val := by
  unfold DotDims.lhsIdx
  rw [dif_neg (show ¬(0 : Fin S32x4096.rank) ∈ dot_S32x4096_S4096x256_S32x256_1_0_0_1_n_n.lhsBatch by decide), dif_pos (show (0 : Fin S32x4096.rank) ∈ dot_S32x4096_S4096x256_S32x256_1_0_0_1_n_n.lhsNonContracting by decide)]
  rfl
theorem lhsVE_1 (i : S32x256.Idx) (q : dot_S32x4096_S4096x256_S32x256_1_0_0_1_n_n.contr.Idx) :
    (dot_S32x4096_S4096x256_S32x256_1_0_0_1_n_n.lhsIdx i q 1).val = (q ⟨0, by decide⟩).val :=
  dot_S32x4096_S4096x256_S32x256_1_0_0_1_n_n.lhsIdx_val_of_single rfl i q
theorem rhsVE_0 (i : S32x256.Idx) (q : dot_S32x4096_S4096x256_S32x256_1_0_0_1_n_n.contr.Idx) :
    (dot_S32x4096_S4096x256_S32x256_1_0_0_1_n_n.rhsIdx i q 0).val = (q ⟨0, by decide⟩).val :=
  dot_S32x4096_S4096x256_S32x256_1_0_0_1_n_n.rhsIdx_val_of_single rfl i q
theorem rhsVE_1 (i : S32x256.Idx) (q : dot_S32x4096_S4096x256_S32x256_1_0_0_1_n_n.contr.Idx) :
    (dot_S32x4096_S4096x256_S32x256_1_0_0_1_n_n.rhsIdx i q 1).val = (i 1).val := by
  unfold DotDims.rhsIdx
  rw [dif_neg (show ¬(1 : Fin S4096x256.rank) ∈ dot_S32x4096_S4096x256_S32x256_1_0_0_1_n_n.rhsBatch by decide), dif_pos (show (1 : Fin S4096x256.rank) ∈ dot_S32x4096_S4096x256_S32x256_1_0_0_1_n_n.rhsNonContracting by decide)]
  rfl

/-- Element (a, b) of the product is Σ_k l[a, k] · r[k, b]. -/
theorem dotVE_apply {φ₁ φ₂ : FTy} (l : FVec Ideal S32x4096 φ₁) (r : FVec Ideal S4096x256 φ₂) (a : Fin 32) (b : Fin 256) :
    matmul dot_S32x4096_S4096x256_S32x256_1_0_0_1_n_n none l r (constant (F := Ideal) S32x256 .f32 0x00000000#32) (ix2 a b)
      = ∑ k : Fin 4096, l (ix2 a k) * r (ix2 k b) := by
  simp only [matmul]
  rw [Ideal.matmul_constant_zero_apply, ← Equiv.sum_comp (contrEquiv1 dot_S32x4096_S4096x256_S32x256_1_0_0_1_n_n 4096 rfl rfl).symm]
  refine Finset.sum_congr rfl fun k _ => ?_
  have hk := contrEquiv1_symm_val dot_S32x4096_S4096x256_S32x256_1_0_0_1_n_n 4096 rfl rfl k
  have el : dot_S32x4096_S4096x256_S32x256_1_0_0_1_n_n.lhsIdx (ix2 a b) ((contrEquiv1 dot_S32x4096_S4096x256_S32x256_1_0_0_1_n_n 4096 rfl rfl).symm k) = ix2 a k := funext fun c => Fin.ext (by
    match c with
    | ⟨0, _⟩ => exact lhsVE_0 _ _
    | ⟨1, _⟩ => exact (lhsVE_1 _ _).trans hk)
  have er : dot_S32x4096_S4096x256_S32x256_1_0_0_1_n_n.rhsIdx (ix2 a b) ((contrEquiv1 dot_S32x4096_S4096x256_S32x256_1_0_0_1_n_n 4096 rfl rfl).symm k) = ix2 k b := funext fun c => Fin.ext (by
    match c with
    | ⟨0, _⟩ => exact (rhsVE_0 _ _).trans hk
    | ⟨1, _⟩ => exact rhsVE_1 _ _)
  rw [el, er]

end Cert.KernelIdeal.Val

end
-- ==== Proof.KV.PayHeadDots2.lean ====
/-
  The matrix products of an attention head's second half (tokens against queries, then the token
  weights against a row of ones and against the pooled values), each read at one element of its
  result.

  Every product accumulates into the zero matrix, so its element is the plain sum, over the one
  contracted axis, of the products of the operands' elements.  Two arrangements occur: both operands
  contracted along their rows (result element (a, b) = Σ_d l[d, a] · r[d, b]), and the ordinary
  row-by-column product (result element (a, b) = Σ_k l[a, k] · r[k, b]).  For each set of dimension
  numbers four small facts say which coordinate of the result index or of the contraction index each
  operand axis reads; the product lemma re-indexes the sum over the contraction shape by its single
  coordinate and identifies the two operand indices with those facts.
-/
import proofs.«409201_j15178414424521_3_alg».proof.Proof.Gen.KernelIdeal.Skeleton
import Idealize.ShloMosaic.Lib.ValueIdx
import Idealize.ShloMosaic.PureOps.Ideal.Laws

noncomputable section

namespace Cert.KernelIdeal.Val

open Idealize.ShloMosaic Idealize.ShloMosaic.ValueIdx Cert.KernelIdeal Cert.KernelIdeal.Gen
open scoped BigOperators

/-! ## Tokens against queries: 32×256 and 32×4096, rows contracted, into 256×4096 -/

theorem lhsSQ_0 (i : S256x4096.Idx) (q : dot_S32x256_S32x4096_S256x4096_0_0_1_1_n_n.contr.Idx) :
    (dot_S32x256_S32x4096_S256x4096_0_0_1_1_n_n.lhsIdx i q 0).val = (q ⟨0, by decide⟩).val :=
  dot_S32x256_S32x4096_S256x4096_0_0_1_1_n_n.lhsIdx_val_of_single rfl i q
theorem lhsSQ_1 (i : S256x4096.Idx) (q : dot_S32x256_S32x4096_S256x4096_0_0_1_1_n_n.contr.Idx) :
    (dot_S32x256_S32x4096_S256x4096_0_0_1_1_n_n.lhsIdx i q 1).val = (i 0).val := by
  unfold DotDims.lhsIdx
  rw [dif_neg (show ¬(1 : Fin S32x256.rank) ∈ dot_S32x256_S32x4096_S256x4096_0_0_1_1_n_n.lhsBatch by decide), dif_pos (show (1 : Fin S32x256.rank) ∈ dot_S32x256_S32x4096_S256x4096_0_0_1_1_n_n.lhsNonContracting by decide)]
  rfl
theorem rhsSQ_0 (i : S256x4096.Idx) (q : dot_S32x256_S32x4096_S256x4096_0_0_1_1_n_n.contr.Idx) :
    (dot_S32x256_S32x4096_S256x4096_0_0_1_1_n_n.rhsIdx i q 0).val = (q ⟨0, by decide⟩).val :=
  dot_S32x256_S32x4096_S256x4096_0_0_1_1_n_n.rhsIdx_val_of_single rfl i q
theorem rhsSQ_1 (i : S256x4096.Idx) (q : dot_S32x256_S32x4096_S256x4096_0_0_1_1_n_n.contr.Idx) :
    (dot_S32x256_S32x4096_S256x4096_0_0_1_1_n_n.rhsIdx i q 1).val = (i 1).val := by
  unfold DotDims.rhsIdx
  rw [dif_neg (show ¬(1 : Fin S32x4096.rank) ∈ dot_S32x256_S32x4096_S256x4096_0_0_1_1_n_n.rhsBatch by decide), dif_pos (show (1 : Fin S32x4096.rank) ∈ dot_S32x256_S32x4096_S256x4096_0_0_1_1_n_n.rhsNonContracting by decide)]
  rfl

/-- Element (a, b) of the product is Σ_d l[d, a] · r[d, b]. -/
theorem dotSQ_apply {φ₁ φ₂ : FTy} (l : FVec Ideal S32x256 φ₁) (r : FVec Ideal S32x4096 φ₂) (a : Fin 256) (b : Fin 4096) :
    matmul dot_S32x256_S32x4096_S256x4096_0_0_1_1_n_n none l r (constant (F := Ideal) S256x4096 .f32 0x00000000#32) (ix2 a b)
      = ∑ d : Fin 32, l (ix2 d a) * r (ix2 d b) := by
  simp only [matmul]
  rw [Ideal.matmul_constant_zero_apply, ← Equiv.sum_comp (contrEquiv1 dot_S32x256_S32x4096_S256x4096_0_0_1_1_n_n 32 rfl rfl).symm]
  refine Finset.sum_congr rfl fun k _ => ?_
  have hk := contrEquiv1_symm_val dot_S32x256_S32x4096_S256x4096_0_0_1_1_n_n 32 rfl rfl k
  have el : dot_S32x256_S32x4096_S256x4096_0_0_1_1_n_n.lhsIdx (ix2 a b) ((contrEquiv1 dot_S32x256_S32x4096_S256x4096_0_0_1_1_n_n 32 rfl rfl).symm k) = ix2 k a := funext fun c => Fin.ext (by
    match c with
    | ⟨0, _⟩ => exact (lhsSQ_0 _ _).trans hk
    | ⟨1, _⟩ => exact lhsSQ_1 _ _)
  have er : dot_S32x256_S32x4096_S256x4096_0_0_1_1_n_n.rhsIdx (ix2 a b) ((contrEquiv1 dot_S32x256_S32x4096_S256x4096_0_0_1_1_n_n 32 rfl rfl).symm k) = ix2 k b := funext fun c => Fin.ext (by
    match c with
    | ⟨0, _⟩ => exact (rhsSQ_0 _ _).trans hk
    | ⟨1, _⟩ => exact rhsSQ_1 _ _)
  rw [el, er]

/-! ## A row of 256 against 256×4096, into 1×4096 -/

theorem lhsOneF_0 (i : S1x4096.Idx) (q : dot_S1x256_S256x4096_S1x4096_1_0_0_1_n_n.contr.Idx) :
    (dot_S1x256_S256x4096_S1x4096_1_0_0_1_n_n.lhsIdx i q 0).val = (i 0).val := by
  unfold DotDims.lhsIdx
  rw [dif_neg (show ¬(0 : Fin S1x256.rank) ∈ dot_S1x256_S256x4096_S1x4096_1_0_0_1_n_n.lhsBatch by decide), dif_pos (show (0 : Fin S1x256.rank) ∈ dot_S1x256_S256x4096_S1x4096_1_0_0_1_n_n.lhsNonContracting by decide)]
  rfl
theorem lhsOneF_1 (i : S1x4096.Idx) (q : dot_S1x256_S256x4096_S1x4096_1_0_0_1_n_n.contr.Idx) :
    (dot_S1x256_S256x4096_S1x4096_1_0_0_1_n_n.lhsIdx i q 1).val = (q ⟨0, by decide⟩).val :=
  dot_S1x256_S256x4096_S1x4096_1_0_0_1_n_n.lhsIdx_val_of_single rfl i q
theorem rhsOneF_0 (i : S1x4096.Idx) (q : dot_S1x256_S256x4096_S1x4096_1_0_0_1_n_n.contr.Idx) :
    (dot_S1x256_S256x4096_S1x4096_1_0_0_1_n_n.rhsIdx i q 0).val = (q ⟨0, by decide⟩).val :=
  dot_S1x256_S256x4096_S1x4096_1_0_0_1_n_n.rhsIdx_val_of_single rfl i q
theorem rhsOneF_1 (i : S1x4096.Idx) (q : dot_S1x256_S256x4096_S1x4096_1_0_0_1_n_n.contr.Idx) :
    (dot_S1x256_S256x4096_S1x4096_1_0_0_1_n_n.rhsIdx i q 1).val = (i 1).val := by
  unfold DotDims.rhsIdx
  rw [dif_neg (show ¬(1 : Fin S256x4096.rank) ∈ dot_S1x256_S256x4096_S1x4096_1_0_0_1_n_n.rhsBatch by decide), dif_pos (show (1 : Fin S256x4096.rank) ∈ dot_S1x256_S256x4096_S1x4096_1_0_0_1_n_n.rhsNonContracting by decide)]
  rfl

/-- Element (a, b) of the product is Σ_k l[a, k] · r[k, b]. -/
theorem dotOneF_apply {φ₁ φ₂ : FTy} (l : FVec Ideal S1x256 φ₁) (r : FVec Ideal S256x4096 φ₂) (a : Fin 1) (b : Fin 4096) :
    matmul dot_S1x256_S256x4096_S1x4096_1_0_0_1_n_n none l r (constant (F := Ideal) S1x4096 .f32 0x00000000#32) (ix2 a b)
      = ∑ k : Fin 256, l (ix2 a k) * r (ix2 k b) := by
  simp only [matmul]
  rw [Ideal.matmul_constant_zero_apply, ← Equiv.sum_comp (contrEquiv1 dot_S1x256_S256x4096_S1x4096_1_0_0_1_n_n 256 rfl rfl).symm]
  refine Finset.sum_congr rfl fun k _ => ?_
  have hk := contrEquiv1_symm_val dot_S1x256_S256x4096_S1x4096_1_0_0_1_n_n 256 rfl rfl k
  have el : dot_S1x256_S256x4096_S1x4096_1_0_0_1_n_n.lhsIdx (ix2 a b) ((contrEquiv1 dot_S1x256_S256x4096_S1x4096_1_0_0_1_n_n 256 rfl rfl).symm k) = ix2 a k := funext fun c => Fin.ext (by
    match c with
    | ⟨0, _⟩ => exact lhsOneF_0 _ _
    | ⟨1, _⟩ => exact (lhsOneF_1 _ _).trans hk)
  have er : dot_S1x256_S256x4096_S1x4096_1_0_0_1_n_n.rhsIdx (ix2 a b) ((contrEquiv1 dot_S1x256_S256x4096_S1x4096_1_0_0_1_n_n 256 rfl rfl).symm k) = ix2 k b := funext fun c => Fin.ext (by
    match c with
    | ⟨0, _⟩ => exact (rhsOneF_0 _ _).trans hk
    | ⟨1, _⟩ => exact rhsOneF_1 _ _)
  rw [el, er]

/-! ## The pooled values against the token weights: 32×256 times 256×4096, into 32×4096 -/

theorem lhsOF_0 (i : S32x4096.Idx) (q : dot_S32x256_S256x4096_S32x4096_1_0_0_1_n_n.contr.Idx) :
    (dot_S32x256_S256x4096_S32x4096_1_0_0_1_n_n.lhsIdx i q 0).val = (i 0).val := by
  unfold DotDims.lhsIdx
  rw [dif_neg (show ¬(0 : Fin S32x256.rank) ∈ dot_S32x256_S256x4096_S32x4096_1_0_0_1_n_n.lhsBatch by decide), dif_pos (show (0 : Fin S32x256.rank) ∈ dot_S32x256_S256x4096_S32x4096_1_0_0_1_n_n.lhsNonContracting by decide)]
  rfl
theorem lhsOF_1 (i : S32x4096.Idx) (q : dot_S32x256_S256x4096_S32x4096_1_0_0_1_n_n.contr.Idx) :
    (dot_S32x256_S256x4096_S32x4096_1_0_0_1_n_n.lhsIdx i q 1).val = (q ⟨0, by decide⟩).val :=
  dot_S32x256_S256x4096_S32x4096_1_0_0_1_n_n.lhsIdx_val_of_single rfl i q
theorem rhsOF_0 (i : S32x4096.Idx) (q : dot_S32x256_S256x4096_S32x4096_1_0_0_1_n_n.contr.Idx) :
    (dot_S32x256_S256x4096_S32x4096_1_0_0_1_n_n.rhsIdx i q 0).val = (q ⟨0, by decide⟩).val :=
  dot_S32x256_S256x4096_S32x4096_1_0_0_1_n_n.rhsIdx_val_of_single rfl i q
theorem rhsOF_1 (i : S32x4096.Idx) (q : dot_S32x256_S256x4096_S32x4096_1_0_0_1_n_n.contr.Idx) :
    (dot_S32x256_S256x4096_S32x4096_1_0_0_1_n_n.rhsIdx i q 1).val = (i 1).val := by
  unfold DotDims.rhsIdx
  rw [dif_neg (show ¬(1 : Fin S256x4096.rank) ∈ dot_S32x256_S256x4096_S32x4096_1_0_0_1_n_n.rhsBatch by decide), dif_pos (show (1 : Fin S256x4096.rank) ∈ dot_S32x256_S256x4096_S32x4096_1_0_0_1_n_n.rhsNonContracting by decide)]
  rfl

/-- Element (a, b) of the product is Σ_k l[a, k] · r[k, b]. -/
theorem dotOF_apply {φ₁ φ₂ : FTy} (l : FVec Ideal S32x256 φ₁) (r : FVec Ideal S256x4096 φ₂) (a : Fin 32) (b : Fin 4096) :
    matmul dot_S32x256_S256x4096_S32x4096_1_0_0_1_n_n none l r (constant (F := Ideal) S32x4096 .f32 0x00000000#32) (ix2 a b)
      = ∑ k : Fin 256, l (ix2 a k) * r (ix2 k b) := by
  simp only [matmul]
  rw [Ideal.matmul_constant_zero_apply, ← Equiv.sum_comp (contrEquiv1 dot_S32x256_S256x4096_S32x4096_1_0_0_1_n_n 256 rfl rfl).symm]
  refine Finset.sum_congr rfl fun k _ => ?_
  have hk := contrEquiv1_symm_val dot_S32x256_S256x4096_S32x4096_1_0_0_1_n_n 256 rfl rfl k
  have el : dot_S32x256_S256x4096_S32x4096_1_0_0_1_n_n.lhsIdx (ix2 a b) ((contrEquiv1 dot_S32x256_S256x4096_S32x4096_1_0_0_1_n_n 256 rfl rfl).symm k) = ix2 a k := funext fun c => Fin.ext (by
    match c with
    | ⟨0, _⟩ => exact lhsOF_0 _ _
    | ⟨1, _⟩ => exact (lhsOF_1 _ _).trans hk)
  have er : dot_S32x256_S256x4096_S32x4096_1_0_0_1_n_n.rhsIdx (ix2 a b) ((contrEquiv1 dot_S32x256_S256x4096_S32x4096_1_0_0_1_n_n 256 rfl rfl).symm k) = ix2 k b := funext fun c => Fin.ext (by
    match c with
    | ⟨0, _⟩ => exact (rhsOF_0 _ _).trans hk
    | ⟨1, _⟩ => exact rhsOF_1 _ _)
  rw [el, er]

end Cert.KernelIdeal.Val

end
-- ==== Proof.KV.PayHead.lean ====
/-
  One attention head of the kernel, read at a single element, against the specification's head.

  The head takes 32 query, key and value rows over the 4096 pixels and 32 token rows over the 256
  superpixels.  It forms the key-token scores S[n, m] = Σ_d k[d, n] · s[d, m], subtracts from each
  column its maximum over the pixels (a fold of max from minus infinity), exponentiates, and divides
  the value-weighted sums Σ_n v[d, n] · e[n, m] by the column sums Σ_n e[n, m]; then the same with the
  token-query scores X[m, n] = Σ_d s[d, m] · q[d, n], the maximum and the sums now over the
  superpixels, and the pooled values in place of the values.  The column sums are written as products
  with a row of ones; one times a weight is the weight.  Changes of float format are the identity on
  the extended reals, a row broadcast over the rows reads the row, and a vector given a leading unit
  axis reads the vector.

  Each step is a small lemma over an arbitrary matrix at explicit coordinates; the last theorem strings
  them together and lands on the specification's expressions verbatim.  A second, one-line theorem
  reads the stored block: the head's result with a unit axis in front.
-/
import proofs.«409201_j15178414424521_3_alg».proof.Proof.Gen.KernelIdeal.Skeleton
import proofs.«409201_j15178414424521_3_alg».proof.Proof.Spec
import proofs.«409201_j15178414424521_3_alg».proof.Proof.KV.PayHeadDots1
import proofs.«409201_j15178414424521_3_alg».proof.Proof.KV.PayHeadDots2
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.IdealRules

noncomputable section

namespace Cert.KernelIdeal.Val

open Idealize.ShloMosaic Idealize.ShloMosaic.ValueIdx Cert.KernelIdeal Cert.KernelIdeal.Gen
open scoped BigOperators

/-- The bf16 word 0x3F80 denotes the real number one. -/
theorem one_bf16 : Ideal.ofBits .bf16 0x3F80#16 = 1 := IdealRules.sign_bit.ideal_onePat .bf16

/-- The row of 4096 ones reads one everywhere. -/
theorem pay3_apply (u : Fin 1) (n : Fin 4096) : k0_pay3 (F := Ideal) (ix2 u n) = 1 := one_bf16
/-- The row of 256 ones reads one everywhere. -/
theorem pay4_apply (u : Fin 1) (m : Fin 256) : k0_pay4 (F := Ideal) (ix2 u m) = 1 := one_bf16

/-- The maximum over the 4096 rows of a 4096×256 matrix, at column m, starting from minus infinity. -/
theorem colMax1 (x : FVec Ideal S4096x256 .f32) (h : S4096x256.Reduces [0] S256) (hφ : FKind.Formats .f32)
    (hacc : (0xFF800000#32 : BitVec (FTy.bits .f32)) = 0xFF800000#32) (m : Fin 256) :
    multiReduction (F := Ideal) .maximumf [0] S256 x 0xFF800000#32 h hφ hacc (ix1 m)
      = (Finset.univ : Finset (Fin 4096)).fold max Cert.Spec.negInf (fun n => x (ix2 n m)) := by
  refine (Ideal.multiReduction_maximumf_single x 0xFF800000#32 h hφ hacc (ix1 m)).trans ?_
  show (Finset.univ : Finset (Fin 4096)).fold max (Ideal.ofBits .f32 0xFF800000#32) (fun n => x (h.lift (ix1 m) n)) = _
  have e : ∀ n : Fin 4096, h.lift (ix1 m) n = ix2 n m := fun n => funext fun a => Fin.ext (by
    match a with
    | ⟨0, _⟩ => rfl
    | ⟨1, _⟩ => rfl)
  exact congrArg (fun f : Fin 4096 → EReal => (Finset.univ : Finset (Fin 4096)).fold max Cert.Spec.negInf f)
    (funext fun n => congrArg x (e n))

/-- The maximum over the 256 rows of a 256×4096 matrix, at column n, starting from minus infinity. -/
theorem colMax2 (x : FVec Ideal S256x4096 .f32) (h : S256x4096.Reduces [0] S4096) (hφ : FKind.Formats .f32)
    (hacc : (0xFF800000#32 : BitVec (FTy.bits .f32)) = 0xFF800000#32) (n : Fin 4096) :
    multiReduction (F := Ideal) .maximumf [0] S4096 x 0xFF800000#32 h hφ hacc (ix1 n)
      = (Finset.univ : Finset (Fin 256)).fold max Cert.Spec.negInf (fun m => x (ix2 m n)) := by
  refine (Ideal.multiReduction_maximumf_single x 0xFF800000#32 h hφ hacc (ix1 n)).trans ?_
  show (Finset.univ : Finset (Fin 256)).fold max (Ideal.ofBits .f32 0xFF800000#32) (fun m => x (h.lift (ix1 n) m)) = _
  have e : ∀ m : Fin 256, h.lift (ix1 n) m = ix2 m n := fun m => funext fun a => Fin.ext (by
    match a with
    | ⟨0, _⟩ => rfl
    | ⟨1, _⟩ => rfl)
  exact congrArg (fun f : Fin 256 → EReal => (Finset.univ : Finset (Fin 256)).fold max Cert.Spec.negInf f)
    (funext fun m => congrArg x (e m))

/-- The exponential of a 4096×256 matrix less its column maxima, at (n, m). -/
theorem expSub1 (x : FVec Ideal S4096x256 .f32) (h : S4096x256.Reduces [0] S256) (hφ : FKind.Formats .f32)
    (hacc : (0xFF800000#32 : BitVec (FTy.bits .f32)) = 0xFF800000#32) (hc : S256.ShapeCasts S1x256)
    (hb : S1x256.Broadcasts S4096x256) (n : Fin 4096) (m : Fin 256) :
    exp (subf x (broadcastTo S4096x256 (shapeCast S1x256 (multiReduction (F := Ideal) .maximumf [0] S256 x 0xFF800000#32 h hφ hacc) hc) hb)) (ix2 n m)
      = Ideal.exp (x (ix2 n m) - (Finset.univ : Finset (Fin 4096)).fold max Cert.Spec.negInf (fun n' => x (ix2 n' m))) := by
  show Ideal.exp (x (ix2 n m) - broadcastTo S4096x256 (shapeCast S1x256 (multiReduction (F := Ideal) .maximumf [0] S256 x 0xFF800000#32 h hφ hacc) hc) hb (ix2 n m)) = _
  rw [broadcastTo_1b_ab_apply, shapeCast_a_1a_apply, colMax1]

/-- The exponential of a 256×4096 matrix less its column maxima, at (m, n). -/
theorem expSub2 (x : FVec Ideal S256x4096 .f32) (h : S256x4096.Reduces [0] S4096) (hφ : FKind.Formats .f32)
    (hacc : (0xFF800000#32 : BitVec (FTy.bits .f32)) = 0xFF800000#32) (hc : S4096.ShapeCasts S1x4096)
    (hb : S1x4096.Broadcasts S256x4096) (m : Fin 256) (n : Fin 4096) :
    exp (subf x (broadcastTo S256x4096 (shapeCast S1x4096 (multiReduction (F := Ideal) .maximumf [0] S4096 x 0xFF800000#32 h hφ hacc) hc) hb)) (ix2 m n)
      = Ideal.exp (x (ix2 m n) - (Finset.univ : Finset (Fin 256)).fold max Cert.Spec.negInf (fun m' => x (ix2 m' n))) := by
  show Ideal.exp (x (ix2 m n) - broadcastTo S256x4096 (shapeCast S1x4096 (multiReduction (F := Ideal) .maximumf [0] S4096 x 0xFF800000#32 h hφ hacc) hc) hb (ix2 m n)) = _
  rw [broadcastTo_1b_ab_apply, shapeCast_a_1a_apply, colMax2]

/-- A row of ones times a 4096×256 matrix (rounded to bf16, the identity here): the column sums. -/
theorem sumOne1 (e : FVec Ideal S4096x256 .f32) (hlt : FTy.bits .bf16 < FTy.bits .f32) (u : Fin 1) (m : Fin 256) :
    matmul dot_S1x4096_S4096x256_S1x256_1_0_0_1_n_n none (k0_pay3 (F := Ideal)) (truncf .bf16 e hlt)
        (constant (F := Ideal) S1x256 .f32 0x00000000#32) (ix2 u m)
      = ∑ n : Fin 4096, e (ix2 n m) := by
  rw [dotOneE_apply]
  refine Finset.sum_congr rfl fun n _ => ?_
  rw [pay3_apply, truncf_apply, one_mul]

/-- A row of ones times a 256×4096 matrix: the column sums. -/
theorem sumOne2 (e : FVec Ideal S256x4096 .f32) (hlt : FTy.bits .bf16 < FTy.bits .f32) (u : Fin 1) (n : Fin 4096) :
    matmul dot_S1x256_S256x4096_S1x4096_1_0_0_1_n_n none (k0_pay4 (F := Ideal)) (truncf .bf16 e hlt)
        (constant (F := Ideal) S1x4096 .f32 0x00000000#32) (ix2 u n)
      = ∑ m : Fin 256, e (ix2 m n) := by
  rw [dotOneF_apply]
  refine Finset.sum_congr rfl fun m _ => ?_
  rw [pay4_apply, truncf_apply, one_mul]

/-- The values times the pixel weights. -/
theorem weighted1 (v : FVec Ideal S32x4096 .bf16) (e : FVec Ideal S4096x256 .f32) (hlt : FTy.bits .bf16 < FTy.bits .f32)
    (d : Fin 32) (m : Fin 256) :
    matmul dot_S32x4096_S4096x256_S32x256_1_0_0_1_n_n none v (truncf .bf16 e hlt)
        (constant (F := Ideal) S32x256 .f32 0x00000000#32) (ix2 d m)
      = ∑ n : Fin 4096, v (ix2 d n) * e (ix2 n m) := by
  rw [dotVE_apply]
  refine Finset.sum_congr rfl fun n _ => ?_
  rw [truncf_apply]

/-- The pooled values (rounded to bf16, the identity here) times the token weights. -/
theorem weighted2 (o : FVec Ideal S32x256 .f32) (e : FVec Ideal S256x4096 .f32) (hlt : FTy.bits .bf16 < FTy.bits .f32)
    (d : Fin 32) (n : Fin 4096) :
    matmul dot_S32x256_S256x4096_S32x4096_1_0_0_1_n_n none (truncf .bf16 o hlt) (truncf .bf16 e hlt)
        (constant (F := Ideal) S32x4096 .f32 0x00000000#32) (ix2 d n)
      = ∑ m : Fin 256, o (ix2 d m) * e (ix2 m n) := by
  rw [dotOF_apply]
  refine Finset.sum_congr rfl fun m _ => ?_
  rw [truncf_apply, truncf_apply]

/-- A 32×256 matrix divided by a row broadcast over its rows. -/
theorem quot1 (a : FVec Ideal S32x256 .f32) (b : FVec Ideal S1x256 .f32) (hb : S1x256.Broadcasts S32x256)
    (d : Fin 32) (m : Fin 256) :
    divf a (broadcastTo S32x256 b hb) (ix2 d m) = Ideal.div (a (ix2 d m)) (b (ix2 (0 : Fin 1) m)) := by
  rw [divf_apply, broadcastTo_1b_ab_apply]

/-- A 32×4096 matrix divided by a row broadcast over its rows. -/
theorem quot2 (a : FVec Ideal S32x4096 .f32) (b : FVec Ideal S1x4096 .f32) (hb : S1x4096.Broadcasts S32x4096)
    (d : Fin 32) (n : Fin 4096) :
    divf a (broadcastTo S32x4096 b hb) (ix2 d n) = Ideal.div (a (ix2 d n)) (b (ix2 (0 : Fin 1) n)) := by
  rw [divf_apply, broadcastTo_1b_ab_apply]

/-- The stored block is the head's result with a unit axis in front. -/
theorem pay5_apply (v98 : FVec Ideal S32x4096 .f32) (d : Fin 32) (n : Fin 4096) :
    k0_pay5 (F := Ideal) v98 (ix3 0 d n) = v98 (ix2 d n) := by
  unfold k0_pay5
  exact shapeCast_ab_1ab_apply v98 _ 0 d n

/-- One head of the kernel, read at channel d of the head and pixel n, is the specification's head
    over the same rows: the two score products, their column maxima from minus infinity, the
    exponentials, the sums against the rows of ones (one times a weight is the weight), the two
    weighted products and the two divisions by a broadcast row are, element by element, the
    specification's own expressions. -/
theorem head_apply (q k v : Vec Ideal S32x4096 .bf16) (s : Vec Ideal S32x256 .bf16) (d : Fin 32) (n : Fin 4096) :
    k0_pay6 (F := Ideal) (k0_pay3 (F := Ideal)) (k0_pay4 (F := Ideal)) q k v s (ix2 d n)
      = Cert.Spec.headK (fun d n => q (ix2 d n)) (fun d n => k (ix2 d n)) (fun d n => v (ix2 d n)) (fun d m => s (ix2 d m)) d n := by
  unfold k0_pay6
  -- the two divisions, the two weighted products and the two sums against ones
  simp only [quot2, weighted2, sumOne2, quot1, weighted1, sumOne1]
  -- the two exponentials, each over its own score matrix
  have e1 := expSub1 (matmul (φ₁ := .bf16) (φ₂ := .bf16) dot_S32x4096_S32x256_S4096x256_0_0_1_1_n_n none k s
    (constant (F := Ideal) S4096x256 .f32 0x00000000#32)) reduces_S4096x256_S256 (.inl rfl) rfl shapeCasts_S256_S1x256
    broadcasts_S1x256_S4096x256
  have e2 := expSub2 (matmul (φ₁ := .bf16) (φ₂ := .bf16) dot_S32x256_S32x4096_S256x4096_0_0_1_1_n_n none s q
    (constant (F := Ideal) S256x4096 .f32 0x00000000#32)) reduces_S256x4096_S4096 (.inl rfl) rfl shapeCasts_S4096_S1x4096
    broadcasts_S1x4096_S256x4096
  simp only [e1, e2]
  -- the two score products
  simp only [dotSQ_apply, dotKS_apply]
  rfl

end Cert.KernelIdeal.Val

end
-- ==== Proof.KV.Value.lean ====
/-
  What the kernel leaves in its output block at a grid point, read at a row of a head, is the specification's
  kernel-side arrangement at that batch entry: the row slab the head's trip stored is the head's payload, the
  payload read at an index is the head function of the slabs it loaded, and the slabs are rows of the stacked
  projections and of the scaled tokens.
-/
import proofs.«409201_j15178414424521_3_alg».proof.Proof.KV.Stages
import proofs.«409201_j15178414424521_3_alg».proof.Proof.KV.Block
import proofs.«409201_j15178414424521_3_alg».proof.Proof.KV.PayHead

noncomputable section

namespace Cert.KernelIdeal.Val

open Idealize.ShloMosaic Idealize.SL.Sem Idealize.ShloMosaic.ValueIdx Cert.KernelIdeal Cert.KernelIdeal.Gen
open scoped BigOperators

variable (m : (ℓ : Loc nD τ sig) → Buf (Elt Ideal) ℓ)

/-- The output block at point `t`, at row `32 h + d` and pixel `n`. -/
theorem outs_apply (c : Dev nD) (t : Fin cfg0.N) (h : Fin 8) (d : Fin 32) (n : Fin 4096) :
    Fr.outsAt0 m c t (ix3 (0 : Fin 1) (Cert.Spec.hd h d) n)
      = Cert.Spec.outK (Cert.Spec.x3 (m ((c.tc : Thread nD τ).loc main_arg0))) (Cert.Spec.m3 (m ((c.tc : Thread nD τ).loc main_arg1)))
          (Cert.Spec.wcat (Cert.Spec.w2 (m ((c.tc : Thread nD τ).loc main_arg2))) (Cert.Spec.w2 (m ((c.tc : Thread nD τ).loc main_arg3))) (Cert.Spec.w2 (m ((c.tc : Thread nD τ).loc main_arg4))))
          (Cert.Spec.g1 (m ((c.tc : Thread nD τ).loc main_arg5))) (Cert.Spec.g1 (m ((c.tc : Thread nD τ).loc main_arg6))) ⟨t.val, lt8 t⟩ h d n := by
  unfold Fr.outsAt0
  refine (out0_A_5_apply c (grid0.coords t) (Fr.ms0_0 t) (Fr.hs0_0 t) (Fr.ms0_1 t) (Fr.hs0_1 t) (Fr.ms0_2 t) (Fr.hs0_2 t)
    (Fr.ms0_3 t) (Fr.hs0_3 t) (Fr.ms0_4 t) (Fr.hs0_4 t) (Fr.ms0_5 t) (Fr.hs0_5 t) Fr.scM0_0 (Memref.isWhole_whole _) Fr.scM0_1 (Memref.isWhole_whole _)
    Fr.scM0_2 (Memref.isWhole_whole _) (Fr.iblk m c 0 t) (Fr.iblk m c 1 t) (Fr.iblk m c 2 t) (Fr.iblk m c 3 t) (Fr.iblk m c 4 t) h d n).trans ?_
  refine (pay5_apply (headOut (Fr.iblk m c 0 t) (Fr.iblk m c 1 t) (Fr.iblk m c 2 t) (Fr.iblk m c 3 t) (Fr.iblk m c 4 t) h) d n).trans ?_
  unfold headOut
  refine (head_apply _ _ _ _ d n).trans ?_
  unfold Cert.Spec.outK
  have eq : (fun (d : Fin 32) (n : Fin 4096) =>
        rows (k0_pay2 (F := Ideal) (Fr.iblk m c 2 t) (k0_pay7 (F := Ideal) (Fr.iblk m c 0 t) (Fr.iblk m c 3 t) (Fr.iblk m c 4 t))) (32 * h.val) (by omega) (ix2 d n))
      = fun d n => Cert.Spec.proj (Cert.Spec.x3 (m ((c.tc : Thread nD τ).loc main_arg0)))
          (Cert.Spec.wcat (Cert.Spec.w2 (m ((c.tc : Thread nD τ).loc main_arg2))) (Cert.Spec.w2 (m ((c.tc : Thread nD τ).loc main_arg3))) (Cert.Spec.w2 (m ((c.tc : Thread nD τ).loc main_arg4))))
          (Cert.Spec.g1 (m ((c.tc : Thread nD τ).loc main_arg5))) (Cert.Spec.g1 (m ((c.tc : Thread nD τ).loc main_arg6))) ⟨t.val, lt8 t⟩ (Cert.Spec.qrow h d) n := by
    funext d' n'
    exact qkv_blk m c t (Cert.Spec.qrow h d') n'
  have ek : (fun (d : Fin 32) (n : Fin 4096) =>
        rows (k0_pay2 (F := Ideal) (Fr.iblk m c 2 t) (k0_pay7 (F := Ideal) (Fr.iblk m c 0 t) (Fr.iblk m c 3 t) (Fr.iblk m c 4 t))) (256 + 32 * h.val) (by omega) (ix2 d n))
      = fun d n => Cert.Spec.proj (Cert.Spec.x3 (m ((c.tc : Thread nD τ).loc main_arg0)))
          (Cert.Spec.wcat (Cert.Spec.w2 (m ((c.tc : Thread nD τ).loc main_arg2))) (Cert.Spec.w2 (m ((c.tc : Thread nD τ).loc main_arg3))) (Cert.Spec.w2 (m ((c.tc : Thread nD τ).loc main_arg4))))
          (Cert.Spec.g1 (m ((c.tc : Thread nD τ).loc main_arg5))) (Cert.Spec.g1 (m ((c.tc : Thread nD τ).loc main_arg6))) ⟨t.val, lt8 t⟩ (Cert.Spec.krow h d) n := by
    funext d' n'
    have hr : (⟨256 + 32 * h.val + d'.val, by omega⟩ : Fin 768) = Cert.Spec.krow h d' := Fin.ext (by show 256 + 32 * h.val + d'.val = 256 + (32 * h.val + d'.val); omega)
    refine Eq.trans ?_ (qkv_blk m c t (Cert.Spec.krow h d') n')
    rw [← hr]; rfl
  have ev : (fun (d : Fin 32) (n : Fin 4096) =>
        rows (k0_pay2 (F := Ideal) (Fr.iblk m c 2 t) (k0_pay7 (F := Ideal) (Fr.iblk m c 0 t) (Fr.iblk m c 3 t) (Fr.iblk m c 4 t))) (512 + 32 * h.val) (by omega) (ix2 d n))
      = fun d n => Cert.Spec.proj (Cert.Spec.x3 (m ((c.tc : Thread nD τ).loc main_arg0)))
          (Cert.Spec.wcat (Cert.Spec.w2 (m ((c.tc : Thread nD τ).loc main_arg2))) (Cert.Spec.w2 (m ((c.tc : Thread nD τ).loc main_arg3))) (Cert.Spec.w2 (m ((c.tc : Thread nD τ).loc main_arg4))))
          (Cert.Spec.g1 (m ((c.tc : Thread nD τ).loc main_arg5))) (Cert.Spec.g1 (m ((c.tc : Thread nD τ).loc main_arg6))) ⟨t.val, lt8 t⟩ (Cert.Spec.vrow h d) n := by
    funext d' n'
    have hr : (⟨512 + 32 * h.val + d'.val, by omega⟩ : Fin 768) = Cert.Spec.vrow h d' := Fin.ext (by show 512 + 32 * h.val + d'.val = 512 + (32 * h.val + d'.val); omega)
    refine Eq.trans ?_ (qkv_blk m c t (Cert.Spec.vrow h d') n')
    rw [← hr]; rfl
  have es : (fun (d : Fin 32) (mm : Fin 256) =>
        rows (k0_pay1 (F := Ideal) (k0_pay9 (F := Ideal) (Fr.iblk m c 1 t)) (k0_pay10 (F := Ideal) (Fr.iblk m c 1 t))
          (k0_pay7 (F := Ideal) (Fr.iblk m c 0 t) (Fr.iblk m c 3 t) (Fr.iblk m c 4 t))) (32 * h.val) (by omega) (ix2 d mm))
      = fun d mm => Cert.Spec.sth (Cert.Spec.x3 (m ((c.tc : Thread nD τ).loc main_arg0))) (Cert.Spec.m3 (m ((c.tc : Thread nD τ).loc main_arg1)))
          (Cert.Spec.g1 (m ((c.tc : Thread nD τ).loc main_arg5))) (Cert.Spec.g1 (m ((c.tc : Thread nD τ).loc main_arg6))) ⟨t.val, lt8 t⟩ (Cert.Spec.hd h d) mm * Cert.Spec.scl := by
    funext d' mm
    exact sth_blk m c t (Cert.Spec.hd h d') mm
  exact congrFun (congrFun (congr (congr (congr (congrArg Cert.Spec.headK eq) ek) ev) es) d) n

end Cert.KernelIdeal.Val

end
-- ==== Proof.KV.Result.lean ====
/-
  The kernel's result array, read at batch entry `b`, channel `ch`, image position `(i, j)`, is the
  specification's kernel-side arrangement there: the array's entry lies in the block flushed at grid point `b`,
  at the row of head `ch / 32`, channel `ch % 32` of that head.
-/
import proofs.«409201_j15178414424521_3_alg».proof.Proof.KV.Final
import proofs.«409201_j15178414424521_3_alg».proof.Proof.KV.Value

noncomputable section

namespace Cert.KernelIdeal.Val

open Idealize.ShloMosaic Idealize.SL.Sem Idealize.ShloMosaic.ValueIdx Cert.KernelIdeal Cert.KernelIdeal.Gen

variable (m : (ℓ : Loc nD τ sig) → Buf (Elt Ideal) ℓ)

theorem kout_eq (c : Dev nD) (b : Fin 8) (ch : Fin 256) (i j : Fin 64) :
    kout m c (ix4 b ch i j)
      = Cert.Spec.GK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) b ch i j := by
  obtain ⟨h, d, rfl⟩ : ∃ (h : Fin 8) (d : Fin 32), ch = Cert.Spec.hd h d :=
    ⟨⟨ch.val / 32, by omega⟩, ⟨ch.val % 32, by omega⟩, Fin.ext (by show ch.val = 32 * (ch.val / 32) + ch.val % 32; omega)⟩
  refine (kout_apply m c b (Cert.Spec.hd h d) i j).trans ?_
  refine (outs_apply m c ⟨b.val, batch_lt b⟩ h d (Cert.Spec.pix i j)).trans ?_
  unfold Cert.Spec.GK
  have e1 : (⟨(Cert.Spec.hd h d).val / 32, by omega⟩ : Fin 8) = h := Fin.ext (by show (32 * h.val + d.val) / 32 = h.val; omega)
  have e2 : (⟨(Cert.Spec.hd h d).val % 32, by omega⟩ : Fin 32) = d := Fin.ext (by show (32 * h.val + d.val) % 32 = d.val; omega)
  rw [e1, e2]

end Cert.KernelIdeal.Val

end
-- ==== Proof.RefImport.lean ====
/-
  The reference's run and its operations read one at a time, as generated; the modules that read the reference's result import this one.
-/
import proofs.«409201_j15178414424521_3_alg».proof.Proof.Gen.ReferenceIdeal.Run
import proofs.«409201_j15178414424521_3_alg».proof.Proof.Gen.ReferenceIdeal.Read
-- ==== Proof.Ref.Part1.lean ====
/-
  The reference's first half read against the shared specification, one named intermediate at a
  time: the pixels flattened and put channel-last, their mean and variance over the channels, the
  normalised pixels, the affinity-pooled tokens, and the three projections split into heads.
-/
import proofs.«409201_j15178414424521_3_alg».proof.Proof.RefImport
import proofs.«409201_j15178414424521_3_alg».proof.Proof.Spec

noncomputable section

namespace Cert.ReferenceIdeal.RefValue

open Idealize.ShloMosaic Idealize.ShloMosaic.ValueIdx Cert.ReferenceIdeal Cert.ReferenceIdeal.Gen Cert.ReferenceIdeal.Read
open scoped BigOperators

/-! ## The normalised pixels -/

section
variable (x0 : (⟨S8x256x64x64, .f32⟩ : BufTy).Contents (Elt Ideal))
  (x5 x6 : (⟨S256, .f32⟩ : BufTy).Contents (Elt Ideal))

/-- Pixel `n` of the flattened image is row `n / 64`, column `n % 64`; the transposition only swaps
    which coordinate is named second. -/
theorem flat_ref (b : Fin 8) (n : Fin 4096) (c : Fin 256) :
    val_main_v1 (F := Ideal) x0 (ix3 b n c) = Cert.Spec.x3 x0 b c n := by
  rw [val_main_v1_apply, val_main_v0_apply]
  unfold Cert.Spec.x3
  refine congrArg x0 (funext fun a => Fin.ext ?_)
  have hb : b.val < 8 := b.isLt
  have hn : n.val < 4096 := n.isLt
  have hc : c.val < 256 := c.isLt
  match a with
  | ⟨0, _⟩ => show ((b.val * 256 + c.val) * 4096 + n.val) / 1048576 = b.val; omega
  | ⟨1, _⟩ => show ((b.val * 256 + c.val) * 4096 + n.val) / 4096 % 256 = c.val; omega
  | ⟨2, _⟩ => show ((b.val * 256 + c.val) * 4096 + n.val) / 64 % 64 = n.val / 64; omega
  | ⟨3, _⟩ => show ((b.val * 256 + c.val) * 4096 + n.val) % 64 = n.val % 64; omega

/-- The mean over the channels: the sum from zero, divided by the channel count. -/
theorem mean_ref (b : Fin 8) (n : Fin 4096) (z : Fin 1) :
    val_main_v5 (F := Ideal) x0 (ix3 b n z) = Cert.Spec.mu (Cert.Spec.x3 x0) b n := by
  rw [val_main_v5_apply, val_main_v3_apply, val_main_v2_apply, val_main_v4_apply, val_main_cst_0_apply,
    val_main_cst_apply]
  simp only [Ideal.hostDivf_def, Ideal.ofBits_def, Ideal.ofBits_zero_f32, zero_add]
  unfold Cert.Spec.mu
  refine congrArg (Ideal.div · _) (Finset.sum_congr rfl fun k _ => ?_)
  exact (congrArg (val_main_v1 (F := Ideal) x0)
    (funext fun a => Fin.ext (by match a with | ⟨0, _⟩ => rfl | ⟨1, _⟩ => rfl | ⟨2, _⟩ => rfl))).trans
    (flat_ref x0 b n k)

/-- The mean spread back along the channels is the same mean at every channel. -/
theorem mean_spread (b : Fin 8) (n : Fin 4096) (c : Fin 256) :
    idx_main_v6 (ix3 b n c) = ix3 b n (⟨0, Nat.one_pos⟩ : Fin 1) :=
  funext fun a => Fin.ext (by match a with | ⟨0, _⟩ => rfl | ⟨1, _⟩ => rfl | ⟨2, _⟩ => rfl)

/-- The centred pixel (the form that is squared for the variance). -/
theorem centred_ref (b : Fin 8) (n : Fin 4096) (c : Fin 256) :
    val_main_v7 (F := Ideal) x0 (ix3 b n c) = Cert.Spec.xc (Cert.Spec.x3 x0) b c n := by
  rw [val_main_v7_apply, val_main_v6_apply, mean_spread, mean_ref, flat_ref]
  rfl

/-- The centred pixel again (the copy that is scaled). -/
theorem centred_ref' (b : Fin 8) (n : Fin 4096) (c : Fin 256) :
    val_main_v14 (F := Ideal) x0 (ix3 b n c) = Cert.Spec.xc (Cert.Spec.x3 x0) b c n := by
  have e : idx_main_v13 (ix3 b n c) = ix3 b n (⟨0, Nat.one_pos⟩ : Fin 1) :=
    funext fun a => Fin.ext (by match a with | ⟨0, _⟩ => rfl | ⟨1, _⟩ => rfl | ⟨2, _⟩ => rfl)
  rw [val_main_v14_apply, val_main_v13_apply, e, mean_ref, flat_ref]
  rfl

/-- The variance over the channels: the sum of the squared centred pixels from zero, divided by
    the channel count. -/
theorem var_ref (b : Fin 8) (n : Fin 4096) (z : Fin 1) :
    val_main_v12 (F := Ideal) x0 (ix3 b n z) = Cert.Spec.var (Cert.Spec.x3 x0) b n := by
  rw [val_main_v12_apply, val_main_v10_apply, val_main_v9_apply, val_main_v11_apply, val_main_cst_2_apply,
    val_main_cst_1_apply]
  simp only [Ideal.hostDivf_def, Ideal.ofBits_def, Ideal.ofBits_zero_f32, zero_add]
  unfold Cert.Spec.var
  refine congrArg (Ideal.div · _) (Finset.sum_congr rfl fun k _ => ?_)
  have e : idx_main_v9 (idx_main_v10 (ix3 b n z)) k = ix3 b n k :=
    funext fun a => Fin.ext (by match a with | ⟨0, _⟩ => rfl | ⟨1, _⟩ => rfl | ⟨2, _⟩ => rfl)
  rw [e, val_main_v8_apply, centred_ref]
  rfl

/-- The reciprocal root of the variance plus the small constant. -/
theorem rs_ref (b : Fin 8) (n : Fin 4096) (z : Fin 1) :
    val_main_v17 (F := Ideal) x0 (ix3 b n z)
      = Ideal.rsqrt (Cert.Spec.var (Cert.Spec.x3 x0) b n + Cert.Spec.epsLn) := by
  rw [val_main_v17_apply, val_main_v16_apply, var_ref, val_main_v15_apply, val_main_cst_3_apply]
  rfl

/-- The normalised, scaled and shifted pixel. -/
theorem xn_ref (b : Fin 8) (n : Fin 4096) (c : Fin 256) :
    val_main_v25 (F := Ideal) x0 x5 x6 (ix3 b n c)
      = Cert.Spec.xn (Cert.Spec.x3 x0) (Cert.Spec.g1 x5) (Cert.Spec.g1 x6) b c n := by
  have e18 : idx_main_v18 (ix3 b n c) = ix3 b n (⟨0, Nat.one_pos⟩ : Fin 1) :=
    funext fun a => Fin.ext (by match a with | ⟨0, _⟩ => rfl | ⟨1, _⟩ => rfl | ⟨2, _⟩ => rfl)
  have e20 : idx_main_v20 (idx_main_v21 (ix3 b n c)) = ix1 c :=
    funext fun a => Fin.ext (by match a with | ⟨0, _⟩ => rfl)
  have e23 : idx_main_v23 (idx_main_v24 (ix3 b n c)) = ix1 c :=
    funext fun a => Fin.ext (by match a with | ⟨0, _⟩ => rfl)
  rw [val_main_v25_apply, val_main_v22_apply, val_main_v19_apply, centred_ref', val_main_v18_apply, e18, rs_ref,
    val_main_v21_apply, val_main_v20_apply, e20, val_main_v24_apply, val_main_v23_apply, e23]
  rfl

end

/-! ## The tokens -/

section
variable (x0 : (⟨S8x256x64x64, .f32⟩ : BufTy).Contents (Elt Ideal))
  (x1 : (⟨S8x256x4096, .f32⟩ : BufTy).Contents (Elt Ideal))
  (x5 x6 : (⟨S256, .f32⟩ : BufTy).Contents (Elt Ideal))

/-- The affinity-weighted sum over the pixels; the reference writes the affinity first, the
    specification the pixel first, and the product commutes. -/
theorem pooled_ref (b : Fin 8) (m c : Fin 256) :
    val_main_v26 (F := Ideal) x0 x1 x5 x6 (ix3 b m c)
      = Cert.Spec.stok (Cert.Spec.x3 x0) (Cert.Spec.m3 x1) (Cert.Spec.g1 x5) (Cert.Spec.g1 x6) b c m := by
  rw [val_main_v26_apply]
  unfold Cert.Spec.stok
  refine Finset.sum_congr rfl fun k _ => ?_
  have el : lidx_main_v26 (ix3 b m c) k = ix3 b m k :=
    funext fun a => Fin.ext (by match a with | ⟨0, _⟩ => rfl | ⟨1, _⟩ => rfl | ⟨2, _⟩ => rfl)
  have er : ridx_main_v26 (ix3 b m c) k = ix3 b k c :=
    funext fun a => Fin.ext (by match a with | ⟨0, _⟩ => rfl | ⟨1, _⟩ => rfl | ⟨2, _⟩ => rfl)
  rw [el, er, xn_ref]
  exact mul_comm _ _

/-- The pooling divisor: the affinities summed from zero over the pixels, plus the small constant. -/
theorem divisor_ref (b : Fin 8) (m : Fin 256) (z : Fin 1) :
    val_main_v30 (F := Ideal) x1 (ix3 b m z) = Cert.Spec.msum (Cert.Spec.m3 x1) b m := by
  rw [val_main_v30_apply, val_main_v28_apply, val_main_v27_apply, val_main_v29_apply, val_main_cst_5_apply,
    val_main_cst_4_apply]
  simp only [Ideal.addf_def, Ideal.ofBits_def, Ideal.ofBits_zero_f32, zero_add]
  unfold Cert.Spec.msum
  refine congrArg (· + _) (Finset.sum_congr rfl fun k _ => ?_)
  exact congrArg x1 (funext fun a => Fin.ext (by match a with | ⟨0, _⟩ => rfl | ⟨1, _⟩ => rfl | ⟨2, _⟩ => rfl))

/-- The token before the head split: the pooled sum over its divisor. -/
theorem token_ref (b : Fin 8) (m c : Fin 256) :
    val_main_v32 (F := Ideal) x0 x1 x5 x6 (ix3 b m c)
      = Cert.Spec.sth (Cert.Spec.x3 x0) (Cert.Spec.m3 x1) (Cert.Spec.g1 x5) (Cert.Spec.g1 x6) b c m := by
  have e : idx_main_v31 (ix3 b m c) = ix3 b m (⟨0, Nat.one_pos⟩ : Fin 1) :=
    funext fun a => Fin.ext (by match a with | ⟨0, _⟩ => rfl | ⟨1, _⟩ => rfl | ⟨2, _⟩ => rfl)
  rw [val_main_v32_apply, pooled_ref, val_main_v31_apply, e, divisor_ref]
  rfl

/-- The token of head `h`, channel `d` of the head: channel `32 h + d`, superpixel `m`. -/
theorem sth_ref (b h : Fin 8) (d : Fin 32) (m : Fin 256) :
    val_main_v34 (F := Ideal) x0 x1 x5 x6 (ix4 b h d m)
      = Cert.Spec.sth (Cert.Spec.x3 x0) (Cert.Spec.m3 x1) (Cert.Spec.g1 x5) (Cert.Spec.g1 x6) b (Cert.Spec.hd h d) m := by
  have e : idx_main_v33 (idx_main_v34 (ix4 b h d m)) = ix3 b m (Cert.Spec.hd h d) := by
    have hb : b.val < 8 := b.isLt
    have hh : h.val < 8 := h.isLt
    have hd : d.val < 32 := d.isLt
    have hm : m.val < 256 := m.isLt
    refine funext fun a => Fin.ext ?_
    match a with
    | ⟨0, _⟩ => show (((b.val * 8 + h.val) * 32 + d.val) * 256 + m.val) / 65536 = b.val; omega
    | ⟨1, _⟩ => show (((b.val * 8 + h.val) * 32 + d.val) * 256 + m.val) % 256 = m.val; omega
    | ⟨2, _⟩ => show (((b.val * 8 + h.val) * 32 + d.val) * 256 + m.val) / 256 % 256 = 32 * h.val + d.val; omega
  rw [val_main_v34_apply, val_main_v33_apply, e, token_ref]

end

/-! ## The projections, split into heads

Each is one weight matrix against the normalised pixels over the channels; the transposition puts
the batch first and the reshape reads output row `32 h + d` as channel `d` of head `h`. -/

/-- The queries. -/
theorem q_ref (x0 : (⟨S8x256x64x64, .f32⟩ : BufTy).Contents (Elt Ideal))
    (w : (⟨S256x256, .f32⟩ : BufTy).Contents (Elt Ideal))
    (x5 x6 : (⟨S256, .f32⟩ : BufTy).Contents (Elt Ideal)) (b h : Fin 8) (d : Fin 32) (n : Fin 4096) :
    val_main_v37 (F := Ideal) x0 w x5 x6 (ix4 b h d n)
      = ∑ c : Fin 256, Cert.Spec.w2 w (Cert.Spec.hd h d) c
          * Cert.Spec.xn (Cert.Spec.x3 x0) (Cert.Spec.g1 x5) (Cert.Spec.g1 x6) b c n := by
  have e : idx_main_v36 (idx_main_v37 (ix4 b h d n)) = ix3 (Cert.Spec.hd h d) b n := by
    have hb : b.val < 8 := b.isLt
    have hh : h.val < 8 := h.isLt
    have hd : d.val < 32 := d.isLt
    have hn : n.val < 4096 := n.isLt
    refine funext fun a => Fin.ext ?_
    match a with
    | ⟨0, _⟩ => show (((b.val * 8 + h.val) * 32 + d.val) * 4096 + n.val) / 4096 % 256 = 32 * h.val + d.val; omega
    | ⟨1, _⟩ => show (((b.val * 8 + h.val) * 32 + d.val) * 4096 + n.val) / 1048576 = b.val; omega
    | ⟨2, _⟩ => show (((b.val * 8 + h.val) * 32 + d.val) * 4096 + n.val) % 4096 = n.val; omega
  rw [val_main_v37_apply, val_main_v36_apply, e, val_main_v35_apply]
  refine Finset.sum_congr rfl fun k _ => ?_
  have el : lidx_main_v35 (ix3 (Cert.Spec.hd h d) b n) k = ix2 (Cert.Spec.hd h d) k :=
    funext fun a => Fin.ext (by match a with | ⟨0, _⟩ => rfl | ⟨1, _⟩ => rfl)
  have er : ridx_main_v35 (ix3 (Cert.Spec.hd h d) b n) k = ix3 b n k :=
    funext fun a => Fin.ext (by match a with | ⟨0, _⟩ => rfl | ⟨1, _⟩ => rfl | ⟨2, _⟩ => rfl)
  rw [el, er, xn_ref]
  rfl

/-- The keys. -/
theorem k_ref (x0 : (⟨S8x256x64x64, .f32⟩ : BufTy).Contents (Elt Ideal))
    (w : (⟨S256x256, .f32⟩ : BufTy).Contents (Elt Ideal))
    (x5 x6 : (⟨S256, .f32⟩ : BufTy).Contents (Elt Ideal)) (b h : Fin 8) (d : Fin 32) (n : Fin 4096) :
    val_main_v40 (F := Ideal) x0 w x5 x6 (ix4 b h d n)
      = ∑ c : Fin 256, Cert.Spec.w2 w (Cert.Spec.hd h d) c
          * Cert.Spec.xn (Cert.Spec.x3 x0) (Cert.Spec.g1 x5) (Cert.Spec.g1 x6) b c n := by
  have e : idx_main_v39 (idx_main_v40 (ix4 b h d n)) = ix3 (Cert.Spec.hd h d) b n := by
    have hb : b.val < 8 := b.isLt
    have hh : h.val < 8 := h.isLt
    have hd : d.val < 32 := d.isLt
    have hn : n.val < 4096 := n.isLt
    refine funext fun a => Fin.ext ?_
    match a with
    | ⟨0, _⟩ => show (((b.val * 8 + h.val) * 32 + d.val) * 4096 + n.val) / 4096 % 256 = 32 * h.val + d.val; omega
    | ⟨1, _⟩ => show (((b.val * 8 + h.val) * 32 + d.val) * 4096 + n.val) / 1048576 = b.val; omega
    | ⟨2, _⟩ => show (((b.val * 8 + h.val) * 32 + d.val) * 4096 + n.val) % 4096 = n.val; omega
  rw [val_main_v40_apply, val_main_v39_apply, e, val_main_v38_apply]
  refine Finset.sum_congr rfl fun k _ => ?_
  have el : lidx_main_v38 (ix3 (Cert.Spec.hd h d) b n) k = ix2 (Cert.Spec.hd h d) k :=
    funext fun a => Fin.ext (by match a with | ⟨0, _⟩ => rfl | ⟨1, _⟩ => rfl)
  have er : ridx_main_v38 (ix3 (Cert.Spec.hd h d) b n) k = ix3 b n k :=
    funext fun a => Fin.ext (by match a with | ⟨0, _⟩ => rfl | ⟨1, _⟩ => rfl | ⟨2, _⟩ => rfl)
  rw [el, er, xn_ref]
  rfl

/-- The values. -/
theorem v_ref (x0 : (⟨S8x256x64x64, .f32⟩ : BufTy).Contents (Elt Ideal))
    (w : (⟨S256x256, .f32⟩ : BufTy).Contents (Elt Ideal))
    (x5 x6 : (⟨S256, .f32⟩ : BufTy).Contents (Elt Ideal)) (b h : Fin 8) (d : Fin 32) (n : Fin 4096) :
    val_main_v43 (F := Ideal) x0 w x5 x6 (ix4 b h d n)
      = ∑ c : Fin 256, Cert.Spec.w2 w (Cert.Spec.hd h d) c
          * Cert.Spec.xn (Cert.Spec.x3 x0) (Cert.Spec.g1 x5) (Cert.Spec.g1 x6) b c n := by
  have e : idx_main_v42 (idx_main_v43 (ix4 b h d n)) = ix3 (Cert.Spec.hd h d) b n := by
    have hb : b.val < 8 := b.isLt
    have hh : h.val < 8 := h.isLt
    have hd : d.val < 32 := d.isLt
    have hn : n.val < 4096 := n.isLt
    refine funext fun a => Fin.ext ?_
    match a with
    | ⟨0, _⟩ => show (((b.val * 8 + h.val) * 32 + d.val) * 4096 + n.val) / 4096 % 256 = 32 * h.val + d.val; omega
    | ⟨1, _⟩ => show (((b.val * 8 + h.val) * 32 + d.val) * 4096 + n.val) / 1048576 = b.val; omega
    | ⟨2, _⟩ => show (((b.val * 8 + h.val) * 32 + d.val) * 4096 + n.val) % 4096 = n.val; omega
  rw [val_main_v43_apply, val_main_v42_apply, e, val_main_v41_apply]
  refine Finset.sum_congr rfl fun k _ => ?_
  have el : lidx_main_v41 (ix3 (Cert.Spec.hd h d) b n) k = ix2 (Cert.Spec.hd h d) k :=
    funext fun a => Fin.ext (by match a with | ⟨0, _⟩ => rfl | ⟨1, _⟩ => rfl)
  have er : ridx_main_v41 (ix3 (Cert.Spec.hd h d) b n) k = ix3 b n k :=
    funext fun a => Fin.ext (by match a with | ⟨0, _⟩ => rfl | ⟨1, _⟩ => rfl | ⟨2, _⟩ => rfl)
  rw [el, er, xn_ref]
  rfl

end Cert.ReferenceIdeal.RefValue

end
-- ==== Proof.Ref.Part2a.lean ====
/-
  One head of the reference, first half: the scores of the keys against the superpixel tokens, their softmax over
  the pixels, and the values pooled by it — each intermediate of the reference read at explicit coordinates
  (batch, head, …) and identified with the specification's function of the head's key, value and token rows.
  The earlier stages (the projections and the tokens) stay closed: they enter only as the rows
  `d ↦ stage (b, h, d, ·)`.
-/
import proofs.«409201_j15178414424521_3_alg».proof.Proof.RefImport
import proofs.«409201_j15178414424521_3_alg».proof.Proof.Spec

noncomputable section

namespace Cert.ReferenceIdeal.RefValue

open Idealize.ShloMosaic Idealize.ShloMosaic.ValueIdx Cert.ReferenceIdeal Cert.ReferenceIdeal.Gen Cert.ReferenceIdeal.Read
open scoped BigOperators

/-! ## The word for minus infinity, and the host's maximum along one axis -/

/-- The word `0xFF800000` denotes the bottom of the extended reals. -/
theorem negInf_eq_bot : Cert.Spec.negInf = ⊥ := by
  simp [Cert.Spec.negInf, Ideal.ofBits, Ideal.ieee]

/-- Taking the maximum with minus infinity changes nothing. -/
theorem max_negInf (a : EReal) : max Cert.Spec.negInf a = a := by
  rw [negInf_eq_bot]; exact max_eq_right bot_le

/-- The host's maximum along axis 2 of a rank-4 array, at the result index (b, h, m), is the fold of `max` over
    that axis's coordinate, from the initial value. -/
theorem hostMax_axis2 {N M : Nat} (x : (⟨4, ![8, 8, N, M]⟩ : Shape).Idx → EReal) (init : S_.Idx → EReal)
    (h' : (⟨4, ![8, 8, N, M]⟩ : Shape).ReducesTo [2] ⟨3, ![8, 8, M]⟩)
    (h : (⟨4, ![8, 8, N, M]⟩ : Shape).Reduces [2] ⟨3, ![8, 8, M]⟩) (hu : 0 < S_.numel)
    (b h₁ : Fin 8) (m : Fin M) :
    Host.reduce (FloatOps.maximumf (F := Ideal) (φ := .f32)) x init h' hu (ix3 b h₁ m)
      = (Finset.univ : Finset (Fin N)).fold max (init (Shape.Idx.first hu)) (fun n => x (ix4 b h₁ n m)) := by
  rw [Host.reduce_eq_fold_single (FloatOps.maximumf (F := Ideal) (φ := .f32)) x init h' h hu]
  have hf : (x ∘ h.lift (ix3 b h₁ m)) = fun n : Fin N => x (ix4 b h₁ n m) :=
    funext fun k => congrArg x (funext fun c => Fin.ext (by
      match c with | ⟨0, _⟩ => rfl | ⟨1, _⟩ => rfl | ⟨2, _⟩ => rfl | ⟨3, _⟩ => rfl))
  exact congrArg (fun f => Finset.fold max (init (Shape.Idx.first hu)) f (Finset.univ : Finset (Fin N))) hf

variable (x0 : (⟨S8x256x64x64, .f32⟩ : BufTy).Contents (Elt Ideal)) (x1 : (⟨S8x256x4096, .f32⟩ : BufTy).Contents (Elt Ideal))
  (x2 x3 x4 : (⟨S256x256, .f32⟩ : BufTy).Contents (Elt Ideal)) (x5 x6 : (⟨S256, .f32⟩ : BufTy).Contents (Elt Ideal))

/-! ## The rows of one head -/

/-- Head `h` of batch `b`: its 32 key rows over the pixels. -/
abbrev kRow (b h : Fin 8) : Fin 32 → Fin 4096 → EReal := fun d n => val_main_v40 (F := Ideal) x0 x3 x5 x6 (ix4 b h d n)
/-- Its 32 value rows over the pixels. -/
abbrev vRow (b h : Fin 8) : Fin 32 → Fin 4096 → EReal := fun d n => val_main_v43 (F := Ideal) x0 x4 x5 x6 (ix4 b h d n)
/-- Its 32 token rows over the superpixels. -/
abbrev sRow (b h : Fin 8) : Fin 32 → Fin 256 → EReal := fun d m => val_main_v34 (F := Ideal) x0 x1 x5 x6 (ix4 b h d m)

/-! ## Where each operation of the first half reads its operands -/

theorem lidx44 (b h : Fin 8) (n : Fin 4096) (m : Fin 256) (d : Fin 32) :
    lidx_main_v44 (ix4 b h n m) d = ix4 b h d n :=
  funext fun a => Fin.ext (by match a with | ⟨0, _⟩ => rfl | ⟨1, _⟩ => rfl | ⟨2, _⟩ => rfl | ⟨3, _⟩ => rfl)

theorem ridx44 (b h : Fin 8) (n : Fin 4096) (m : Fin 256) (d : Fin 32) :
    ridx_main_v44 (ix4 b h n m) d = ix4 b h d m :=
  funext fun a => Fin.ext (by match a with | ⟨0, _⟩ => rfl | ⟨1, _⟩ => rfl | ⟨2, _⟩ => rfl | ⟨3, _⟩ => rfl)

theorem idx51 (b h : Fin 8) (n : Fin 4096) (m : Fin 256) :
    idx_main_v51 (ix4 b h n m) = ix4 b h (0 : Fin 1) m :=
  funext fun a => Fin.ext (by match a with | ⟨0, _⟩ => rfl | ⟨1, _⟩ => rfl | ⟨2, _⟩ => rfl | ⟨3, _⟩ => rfl)

theorem idx50 (b h : Fin 8) (m : Fin 256) :
    idx_main_v50 (ix4 b h (0 : Fin 1) m) = ix3 b h m :=
  funext fun a => Fin.ext (by match a with | ⟨0, _⟩ => rfl | ⟨1, _⟩ => rfl | ⟨2, _⟩ => rfl)

theorem idx54 (b h : Fin 8) (m : Fin 256) (n : Fin 4096) :
    idx_main_v54 (ix3 b h m) n = ix4 b h n m :=
  funext fun a => Fin.ext (by match a with | ⟨0, _⟩ => rfl | ⟨1, _⟩ => rfl | ⟨2, _⟩ => rfl | ⟨3, _⟩ => rfl)

theorem idx56 (b h : Fin 8) (n : Fin 4096) (m : Fin 256) :
    idx_main_v56 (ix4 b h n m) = ix4 b h (0 : Fin 1) m :=
  funext fun a => Fin.ext (by match a with | ⟨0, _⟩ => rfl | ⟨1, _⟩ => rfl | ⟨2, _⟩ => rfl | ⟨3, _⟩ => rfl)

theorem idx55 (b h : Fin 8) (m : Fin 256) :
    idx_main_v55 (ix4 b h (0 : Fin 1) m) = ix3 b h m :=
  funext fun a => Fin.ext (by match a with | ⟨0, _⟩ => rfl | ⟨1, _⟩ => rfl | ⟨2, _⟩ => rfl)

theorem lidx58 (b h : Fin 8) (d : Fin 32) (m : Fin 256) (n : Fin 4096) :
    lidx_main_v58 (ix4 b h d m) n = ix4 b h d n :=
  funext fun a => Fin.ext (by match a with | ⟨0, _⟩ => rfl | ⟨1, _⟩ => rfl | ⟨2, _⟩ => rfl | ⟨3, _⟩ => rfl)

theorem ridx58 (b h : Fin 8) (d : Fin 32) (m : Fin 256) (n : Fin 4096) :
    ridx_main_v58 (ix4 b h d m) n = ix4 b h n m :=
  funext fun a => Fin.ext (by match a with | ⟨0, _⟩ => rfl | ⟨1, _⟩ => rfl | ⟨2, _⟩ => rfl | ⟨3, _⟩ => rfl)

/-! ## The first half, one intermediate at a time -/

/-- The scaled scores of pixel `n` against superpixel `m`: the contraction over the head's 32 channels, times the scale. -/
theorem v46_at (b h : Fin 8) (n : Fin 4096) (m : Fin 256) :
    val_main_v46 (F := Ideal) x0 x1 x3 x5 x6 (ix4 b h n m)
      = Cert.Spec.hs1R (kRow x0 x3 x5 x6 b h) (sRow x0 x1 x5 x6 b h) n m := by
  rw [val_main_v46_apply, val_main_v44_apply, val_main_v45_apply, val_main_cst_6_apply]
  simp only [lidx44, ridx44, Ideal.mulf_def, Ideal.ofBits_def]
  rfl

/-- The column maximum over the pixels; the extra maximum with minus infinity is absorbed. -/
theorem v49_at (b h : Fin 8) (m : Fin 256) :
    val_main_v49 (F := Ideal) x0 x1 x3 x5 x6 (ix3 b h m)
      = Cert.Spec.hm1R (kRow x0 x3 x5 x6 b h) (sRow x0 x1 x5 x6 b h) m := by
  rw [val_main_v49_apply, val_main_v48_apply, val_main_cst_8_apply]
  unfold val_main_v47
  rw [hostMax_axis2 _ _ _ (by decide) _ b h m]
  simp only [val_main_cst_7_apply, v46_at, Ideal.maximumf_def, Ideal.ofBits_def]
  exact max_negInf _

/-- The exponential of the score less its column maximum. -/
theorem v53_at (b h : Fin 8) (n : Fin 4096) (m : Fin 256) :
    val_main_v53 (F := Ideal) x0 x1 x3 x5 x6 (ix4 b h n m)
      = Cert.Spec.he1R (kRow x0 x3 x5 x6 b h) (sRow x0 x1 x5 x6 b h) n m := by
  rw [val_main_v53_apply, val_main_v52_apply, val_main_v51_apply, idx51, val_main_v50_apply, idx50, v46_at, v49_at]
  simp only [Ideal.hostUnary_exp_def, Ideal.subf_def]
  rfl

/-- The column sum of the exponentials (the zero initial value drops out). -/
theorem v54_at (b h : Fin 8) (m : Fin 256) :
    val_main_v54 (F := Ideal) x0 x1 x3 x5 x6 (ix3 b h m)
      = ∑ n : Fin 4096, Cert.Spec.he1R (kRow x0 x3 x5 x6 b h) (sRow x0 x1 x5 x6 b h) n m := by
  rw [val_main_v54_apply, val_main_cst_9_apply]
  simp only [idx54, v53_at, Ideal.ofBits_def, Ideal.ofBits_zero_f32, zero_add]

/-- The softmax weight: the exponential over its column sum. -/
theorem v57_at (b h : Fin 8) (n : Fin 4096) (m : Fin 256) :
    val_main_v57 (F := Ideal) x0 x1 x3 x5 x6 (ix4 b h n m)
      = Cert.Spec.hp1R (kRow x0 x3 x5 x6 b h) (sRow x0 x1 x5 x6 b h) n m := by
  rw [val_main_v57_apply, val_main_v56_apply, idx56, val_main_v55_apply, idx55, v53_at, v54_at]
  simp only [Ideal.hostDivf_def]
  rfl

/-- The values pooled over the pixels by the softmax weights. -/
theorem v58_at (b h : Fin 8) (d : Fin 32) (m : Fin 256) :
    val_main_v58 (F := Ideal) x0 x1 x3 x4 x5 x6 (ix4 b h d m)
      = Cert.Spec.hsoR (kRow x0 x3 x5 x6 b h) (vRow x0 x4 x5 x6 b h) (sRow x0 x1 x5 x6 b h) d m := by
  rw [val_main_v58_apply]
  simp only [lidx58, ridx58, v57_at]
  rfl

end Cert.ReferenceIdeal.RefValue

end
-- ==== Proof.Ref.Part2.lean ====
/-
  One head of the reference, second half: the scores of the superpixel tokens against the queries, their softmax
  over the superpixels, and the pooled values of the first half spread back over the pixels by it — each
  intermediate read at explicit coordinates and identified with the specification's function of the head's rows;
  then the head as a whole.
-/
import proofs.«409201_j15178414424521_3_alg».proof.Proof.Ref.Part2a

noncomputable section

namespace Cert.ReferenceIdeal.RefValue

open Idealize.ShloMosaic Idealize.ShloMosaic.ValueIdx Cert.ReferenceIdeal Cert.ReferenceIdeal.Gen Cert.ReferenceIdeal.Read
open scoped BigOperators

variable (x0 : (⟨S8x256x64x64, .f32⟩ : BufTy).Contents (Elt Ideal)) (x1 : (⟨S8x256x4096, .f32⟩ : BufTy).Contents (Elt Ideal))
  (x2 x3 x4 : (⟨S256x256, .f32⟩ : BufTy).Contents (Elt Ideal)) (x5 x6 : (⟨S256, .f32⟩ : BufTy).Contents (Elt Ideal))

/-! ## The rows of one head, continued -/

/-- Head `h` of batch `b`: its 32 query rows over the pixels. -/
abbrev qRow (b h : Fin 8) : Fin 32 → Fin 4096 → EReal := fun d n => val_main_v37 (F := Ideal) x0 x2 x5 x6 (ix4 b h d n)

/-! ## Where each operation of the second half reads its operands -/

theorem lidx59 (b h : Fin 8) (m : Fin 256) (n : Fin 4096) (d : Fin 32) :
    lidx_main_v59 (ix4 b h m n) d = ix4 b h d m :=
  funext fun a => Fin.ext (by match a with | ⟨0, _⟩ => rfl | ⟨1, _⟩ => rfl | ⟨2, _⟩ => rfl | ⟨3, _⟩ => rfl)

theorem ridx59 (b h : Fin 8) (m : Fin 256) (n : Fin 4096) (d : Fin 32) :
    ridx_main_v59 (ix4 b h m n) d = ix4 b h d n :=
  funext fun a => Fin.ext (by match a with | ⟨0, _⟩ => rfl | ⟨1, _⟩ => rfl | ⟨2, _⟩ => rfl | ⟨3, _⟩ => rfl)

theorem idx66 (b h : Fin 8) (m : Fin 256) (n : Fin 4096) :
    idx_main_v66 (ix4 b h m n) = ix4 b h (0 : Fin 1) n :=
  funext fun a => Fin.ext (by match a with | ⟨0, _⟩ => rfl | ⟨1, _⟩ => rfl | ⟨2, _⟩ => rfl | ⟨3, _⟩ => rfl)

theorem idx65 (b h : Fin 8) (n : Fin 4096) :
    idx_main_v65 (ix4 b h (0 : Fin 1) n) = ix3 b h n :=
  funext fun a => Fin.ext (by match a with | ⟨0, _⟩ => rfl | ⟨1, _⟩ => rfl | ⟨2, _⟩ => rfl)

theorem idx69 (b h : Fin 8) (n : Fin 4096) (m : Fin 256) :
    idx_main_v69 (ix3 b h n) m = ix4 b h m n :=
  funext fun a => Fin.ext (by match a with | ⟨0, _⟩ => rfl | ⟨1, _⟩ => rfl | ⟨2, _⟩ => rfl | ⟨3, _⟩ => rfl)

theorem idx71 (b h : Fin 8) (m : Fin 256) (n : Fin 4096) :
    idx_main_v71 (ix4 b h m n) = ix4 b h (0 : Fin 1) n :=
  funext fun a => Fin.ext (by match a with | ⟨0, _⟩ => rfl | ⟨1, _⟩ => rfl | ⟨2, _⟩ => rfl | ⟨3, _⟩ => rfl)

theorem idx70 (b h : Fin 8) (n : Fin 4096) :
    idx_main_v70 (ix4 b h (0 : Fin 1) n) = ix3 b h n :=
  funext fun a => Fin.ext (by match a with | ⟨0, _⟩ => rfl | ⟨1, _⟩ => rfl | ⟨2, _⟩ => rfl)

theorem lidx73 (b h : Fin 8) (d : Fin 32) (n : Fin 4096) (m : Fin 256) :
    lidx_main_v73 (ix4 b h d n) m = ix4 b h d m :=
  funext fun a => Fin.ext (by match a with | ⟨0, _⟩ => rfl | ⟨1, _⟩ => rfl | ⟨2, _⟩ => rfl | ⟨3, _⟩ => rfl)

theorem ridx73 (b h : Fin 8) (d : Fin 32) (n : Fin 4096) (m : Fin 256) :
    ridx_main_v73 (ix4 b h d n) m = ix4 b h m n :=
  funext fun a => Fin.ext (by match a with | ⟨0, _⟩ => rfl | ⟨1, _⟩ => rfl | ⟨2, _⟩ => rfl | ⟨3, _⟩ => rfl)

/-! ## The second half, one intermediate at a time -/

/-- The scaled scores of superpixel `m` against pixel `n`: the contraction over the head's 32 channels, times the scale. -/
theorem v61_at (b h : Fin 8) (m : Fin 256) (n : Fin 4096) :
    val_main_v61 (F := Ideal) x0 x1 x2 x5 x6 (ix4 b h m n)
      = Cert.Spec.hs2R (qRow x0 x2 x5 x6 b h) (sRow x0 x1 x5 x6 b h) m n := by
  rw [val_main_v61_apply, val_main_v59_apply, val_main_v60_apply, val_main_cst_10_apply]
  simp only [lidx59, ridx59, Ideal.mulf_def, Ideal.ofBits_def]
  rfl

/-- The column maximum over the superpixels; the extra maximum with minus infinity is absorbed. -/
theorem v64_at (b h : Fin 8) (n : Fin 4096) :
    val_main_v64 (F := Ideal) x0 x1 x2 x5 x6 (ix3 b h n)
      = Cert.Spec.hm2R (qRow x0 x2 x5 x6 b h) (sRow x0 x1 x5 x6 b h) n := by
  rw [val_main_v64_apply, val_main_v63_apply, val_main_cst_12_apply]
  unfold val_main_v62
  rw [hostMax_axis2 _ _ _ (by decide) _ b h n]
  simp only [val_main_cst_11_apply, v61_at, Ideal.maximumf_def, Ideal.ofBits_def]
  exact max_negInf _

/-- The exponential of the score less its column maximum. -/
theorem v68_at (b h : Fin 8) (m : Fin 256) (n : Fin 4096) :
    val_main_v68 (F := Ideal) x0 x1 x2 x5 x6 (ix4 b h m n)
      = Cert.Spec.he2R (qRow x0 x2 x5 x6 b h) (sRow x0 x1 x5 x6 b h) m n := by
  rw [val_main_v68_apply, val_main_v67_apply, val_main_v66_apply, idx66, val_main_v65_apply, idx65, v61_at, v64_at]
  simp only [Ideal.hostUnary_exp_def, Ideal.subf_def]
  rfl

/-- The column sum of the exponentials (the zero initial value drops out). -/
theorem v69_at (b h : Fin 8) (n : Fin 4096) :
    val_main_v69 (F := Ideal) x0 x1 x2 x5 x6 (ix3 b h n)
      = ∑ m : Fin 256, Cert.Spec.he2R (qRow x0 x2 x5 x6 b h) (sRow x0 x1 x5 x6 b h) m n := by
  rw [val_main_v69_apply, val_main_cst_13_apply]
  simp only [idx69, v68_at, Ideal.ofBits_def, Ideal.ofBits_zero_f32, zero_add]

/-- The softmax weight: the exponential over its column sum. -/
theorem v72_at (b h : Fin 8) (m : Fin 256) (n : Fin 4096) :
    val_main_v72 (F := Ideal) x0 x1 x2 x5 x6 (ix4 b h m n)
      = Cert.Spec.hp2R (qRow x0 x2 x5 x6 b h) (sRow x0 x1 x5 x6 b h) m n := by
  rw [val_main_v72_apply, val_main_v71_apply, idx71, val_main_v70_apply, idx70, v68_at, v69_at]
  simp only [Ideal.hostDivf_def]
  rfl

/-- One head of the reference: the pooled values spread back over the pixels by the second softmax. -/
theorem head_ref (x0 : (⟨S8x256x64x64, .f32⟩ : BufTy).Contents (Elt Ideal)) (x1 : (⟨S8x256x4096, .f32⟩ : BufTy).Contents (Elt Ideal)) (x2 x3 x4 : (⟨S256x256, .f32⟩ : BufTy).Contents (Elt Ideal)) (x5 x6 : (⟨S256, .f32⟩ : BufTy).Contents (Elt Ideal)) (b h : Fin 8) (d : Fin 32) (n : Fin 4096) :
    val_main_v73 (F := Ideal) x0 x1 x2 x3 x4 x5 x6 (ix4 b h d n)
      = Cert.Spec.headR (fun d n => val_main_v37 (F := Ideal) x0 x2 x5 x6 (ix4 b h d n)) (fun d n => val_main_v40 (F := Ideal) x0 x3 x5 x6 (ix4 b h d n))
          (fun d n => val_main_v43 (F := Ideal) x0 x4 x5 x6 (ix4 b h d n)) (fun d m => val_main_v34 (F := Ideal) x0 x1 x5 x6 (ix4 b h d m)) d n := by
  rw [val_main_v73_apply]
  simp only [lidx73, ridx73, v58_at, v72_at]
  rfl

end Cert.ReferenceIdeal.RefValue

end
-- ==== Proof.SpecRows.lean ====
/-
  The stacked weight matrix read at the rows of one head: the query rows are the first block, the
  key rows the second, the value rows the third.
-/
import proofs.«409201_j15178414424521_3_alg».proof.Proof.Spec

namespace Cert.Spec

/-- Row `32 h + d` of the stack lies in the first block: it is the query matrix's row. -/
theorem wcat_qrow (wq wk wv : Fin 256 → Fin 256 → EReal) (h : Fin 8) (d : Fin 32) (c : Fin 256) :
    wcat wq wk wv (qrow h d) c = wq (hd h d) c := by
  have h₁ : (qrow h d).val < 256 := by show 32 * h.val + d.val < 256; omega
  unfold wcat
  rw [dif_pos h₁]
  rfl

/-- Row `256 + 32 h + d` lies in the second block: it is the key matrix's row `32 h + d`. -/
theorem wcat_krow (wq wk wv : Fin 256 → Fin 256 → EReal) (h : Fin 8) (d : Fin 32) (c : Fin 256) :
    wcat wq wk wv (krow h d) c = wk (hd h d) c := by
  have h₁ : ¬ (krow h d).val < 256 := by show ¬ 256 + (32 * h.val + d.val) < 256; omega
  have h₂ : (krow h d).val < 512 := by show 256 + (32 * h.val + d.val) < 512; omega
  unfold wcat
  rw [dif_neg h₁, dif_pos h₂]
  congr 1
  apply Fin.ext
  show 256 + (32 * h.val + d.val) - 256 = 32 * h.val + d.val
  omega

/-- Row `512 + 32 h + d` lies in the third block: it is the value matrix's row `32 h + d`. -/
theorem wcat_vrow (wq wk wv : Fin 256 → Fin 256 → EReal) (h : Fin 8) (d : Fin 32) (c : Fin 256) :
    wcat wq wk wv (vrow h d) c = wv (hd h d) c := by
  have h₁ : ¬ (vrow h d).val < 256 := by show ¬ 512 + (32 * h.val + d.val) < 256; omega
  have h₂ : ¬ (vrow h d).val < 512 := by show ¬ 512 + (32 * h.val + d.val) < 512; omega
  unfold wcat
  rw [dif_neg h₁, dif_neg h₂]
  congr 1
  apply Fin.ext
  show 512 + (32 * h.val + d.val) - 512 = 32 * h.val + d.val
  omega

end Cert.Spec
-- ==== Proof.Ref.Value.lean ====
/-
  The reference's whole result against the specification: the final reshape sends image position (c, i, j) to
  head `c / 32`, channel `c % 32` of the head, pixel `64 i + j`; there the reference is one head of the
  specification over the rows that the earlier stages supply — the projections of the normalised pixels by the
  query, key and value weights (the matching blocks of the stacked matrix) and the superpixel tokens.
-/
import proofs.«409201_j15178414424521_3_alg».proof.Proof.Ref.Part1
import proofs.«409201_j15178414424521_3_alg».proof.Proof.Ref.Part2
import proofs.«409201_j15178414424521_3_alg».proof.Proof.SpecRows

noncomputable section

namespace Cert.ReferenceIdeal.RefValue

open Idealize.ShloMosaic Idealize.ShloMosaic.ValueIdx Cert.ReferenceIdeal Cert.ReferenceIdeal.Gen Cert.ReferenceIdeal.Read
open scoped BigOperators

/-- The reshape back to the image reads head `c / 32`, channel `c % 32` of it, pixel `64 i + j`. -/
theorem idx74 (b : Fin 8) (c : Fin 256) (i j : Fin 64) :
    idx_main_v74 (ix4 b c i j)
      = ix4 b (⟨c.val / 32, by omega⟩ : Fin 8) (⟨c.val % 32, by omega⟩ : Fin 32) (Cert.Spec.pix i j) := by
  have hb : b.val < 8 := b.isLt
  have hc : c.val < 256 := c.isLt
  have hi : i.val < 64 := i.isLt
  have hj : j.val < 64 := j.isLt
  exact funext fun a => Fin.ext (by
    match a with
    | ⟨0, _⟩ => show (((b.val * 256 + c.val) * 64 + i.val) * 64 + j.val) / 1048576 = b.val; omega
    | ⟨1, _⟩ => show (((b.val * 256 + c.val) * 64 + i.val) * 64 + j.val) / 131072 % 8 = c.val / 32; omega
    | ⟨2, _⟩ => show (((b.val * 256 + c.val) * 64 + i.val) * 64 + j.val) / 4096 % 32 = c.val % 32; omega
    | ⟨3, _⟩ => show (((b.val * 256 + c.val) * 64 + i.val) * 64 + j.val) % 4096 = 64 * i.val + j.val; omega)

/-- The reference's whole result, at batch `b`, channel `c`, image position `(i, j)`, is the specification's:
    the head's four families of rows are the projections of the normalised pixels by the stacked weights'
    query, key and value rows of that head, and the head's tokens. -/
theorem ref_value (x0 : (⟨S8x256x64x64, .f32⟩ : BufTy).Contents (Elt Ideal)) (x1 : (⟨S8x256x4096, .f32⟩ : BufTy).Contents (Elt Ideal))
    (x2 x3 x4 : (⟨S256x256, .f32⟩ : BufTy).Contents (Elt Ideal)) (x5 x6 : (⟨S256, .f32⟩ : BufTy).Contents (Elt Ideal))
    (b : Fin 8) (c : Fin 256) (i j : Fin 64) :
    val_main_v74 (F := Ideal) x0 x1 x2 x3 x4 x5 x6 (ix4 b c i j) = Cert.Spec.GR x0 x1 x2 x3 x4 x5 x6 b c i j := by
  rw [val_main_v74_apply, idx74, head_ref]
  unfold Cert.Spec.GR Cert.Spec.outR
  have hq : ∀ h : Fin 8, (fun (d : Fin 32) (n : Fin 4096) => val_main_v37 (F := Ideal) x0 x2 x5 x6 (ix4 b h d n))
      = fun d n => Cert.Spec.proj (Cert.Spec.x3 x0) (Cert.Spec.wcat (Cert.Spec.w2 x2) (Cert.Spec.w2 x3) (Cert.Spec.w2 x4))
          (Cert.Spec.g1 x5) (Cert.Spec.g1 x6) b (Cert.Spec.qrow h d) n := fun h =>
    funext fun d => funext fun n => by
      rw [q_ref]; unfold Cert.Spec.proj; simp only [Cert.Spec.wcat_qrow]
  have hk : ∀ h : Fin 8, (fun (d : Fin 32) (n : Fin 4096) => val_main_v40 (F := Ideal) x0 x3 x5 x6 (ix4 b h d n))
      = fun d n => Cert.Spec.proj (Cert.Spec.x3 x0) (Cert.Spec.wcat (Cert.Spec.w2 x2) (Cert.Spec.w2 x3) (Cert.Spec.w2 x4))
          (Cert.Spec.g1 x5) (Cert.Spec.g1 x6) b (Cert.Spec.krow h d) n := fun h =>
    funext fun d => funext fun n => by
      rw [k_ref]; unfold Cert.Spec.proj; simp only [Cert.Spec.wcat_krow]
  have hv : ∀ h : Fin 8, (fun (d : Fin 32) (n : Fin 4096) => val_main_v43 (F := Ideal) x0 x4 x5 x6 (ix4 b h d n))
      = fun d n => Cert.Spec.proj (Cert.Spec.x3 x0) (Cert.Spec.wcat (Cert.Spec.w2 x2) (Cert.Spec.w2 x3) (Cert.Spec.w2 x4))
          (Cert.Spec.g1 x5) (Cert.Spec.g1 x6) b (Cert.Spec.vrow h d) n := fun h =>
    funext fun d => funext fun n => by
      rw [v_ref]; unfold Cert.Spec.proj; simp only [Cert.Spec.wcat_vrow]
  have hs : ∀ h : Fin 8, (fun (d : Fin 32) (m : Fin 256) => val_main_v34 (F := Ideal) x0 x1 x5 x6 (ix4 b h d m))
      = fun d m => Cert.Spec.sth (Cert.Spec.x3 x0) (Cert.Spec.m3 x1) (Cert.Spec.g1 x5) (Cert.Spec.g1 x6) b (Cert.Spec.hd h d) m := fun h =>
    funext fun d => funext fun m => sth_ref x0 x1 x5 x6 b h d m
  rw [hq, hk, hv, hs]

end Cert.ReferenceIdeal.RefValue

end
-- ==== Proof.PreDecode.lean ====
import proofs.«409201_j15178414424521_3_alg».proof.Pre_finite_inputs
import proofs.«409201_j15178414424521_3_alg».proof.Proof.Spec
import Idealize.ShloMosaic.Lib.ReduceAll
import Idealize.ShloMosaic.Lib.StableHlo.Predicate
import Idealize.ShloMosaic.PureOps.Ideal.Laws
import Idealize.ShloMosaic.Lib.ValueIdx

noncomputable section

namespace Cert.PreDecode

open Idealize.ShloMosaic
open Cert.Pre_finite_inputs (S_ S8x256 S8x256x4096)
open scoped BigOperators

/-- The scalar shape has one index. -/
instance : Subsingleton S_.Idx := ⟨fun a b => funext fun d => d.elim0⟩

/-- The word of positive infinity denotes the top of the extended reals. -/
theorem ofBits_inf : Ideal.ofBits .f32 0x7F800000#32 = (⊤ : EReal) := by
  simp [Ideal.ofBits, Ideal.ieee]

/-- The strict comparison holds exactly when the left side is below the right. -/
theorem cmp_olt_eq_one (a b : EReal) : Ideal.cmp .olt a b = 1#1 ↔ a < b := by
  unfold Ideal.cmp
  simp only [StableHlo.Predicate.ofBool_eq_one_iff, decide_eq_true_eq]

/-- The not-equal comparison holds exactly when the two sides differ (no value is unordered). -/
theorem cmp_une_eq_one (a b : EReal) : Ideal.cmp .une a b = 1#1 ↔ a ≠ b := by
  unfold Ideal.cmp
  simp only [StableHlo.Predicate.ofBool_eq_one_iff, decide_eq_true_eq]

/-- An extended real whose absolute value, the larger of it and its negation, lies strictly below the top
    is neither infinity. -/
theorem fin_of_abs_lt_top (a : EReal) (h : max a (-a) < ⊤) : Cert.Spec.Fin' a := by
  constructor
  · rintro rfl; simp at h
  · rintro rfl; simp at h

/-- All entries of an array compare below infinity in absolute value: every entry is a real number. -/
theorem all_finite {s : Shape} (hb : S_.BroadcastsInDim s (![] : Fin 0 → Fin s.rank)) {axes : List (Fin s.rank)}
    (hr : s.ReducesTo axes S_) (h0 : 0 < S_.numel) (x : FVec Ideal s .f32)
    (e : Host.reduce IntOp.andi (cmpf .olt (Host.absf x) (broadcastInDim s ![] hb (constant (F := Ideal) S_ .f32 0x7F800000#32)))
          (constantI S_ 1 1#1) hr h0 ValueIdx.ix0 = 1#1) (i : s.Idx) : Cert.Spec.Fin' (x i) := by
  have hi := Host.reduce_andi_all _ _ hr h0 _ e i
  have hc : Ideal.cmp .olt (max (x i) (-(x i))) (Ideal.ofBits .f32 0x7F800000#32) = 1#1 := hi
  rw [ofBits_inf, cmp_olt_eq_one] at hc
  exact fin_of_abs_lt_top _ hc

/-- Inserting the pixel coordinate into a (batch, superpixel) index gives the rank-three index of the three. -/
theorem lift_eq (hR : S8x256x4096.Reduces [2] S8x256) (b : Fin 8) (m : Fin 256) (n : Fin 4096) :
    hR.lift (ValueIdx.ix2 b m) n = ValueIdx.ix3 b m n := by
  funext a
  apply Fin.ext
  match a with
  | ⟨0, _⟩ => rfl
  | ⟨1, _⟩ => rfl
  | ⟨2, _⟩ => rfl

/-- The sum over the pixel axis from the zero word, read at (batch, superpixel), is the plain sum of the row. -/
theorem rowsum_apply (hr2 : S8x256x4096.ReducesTo [2] S8x256) (h0 : 0 < S_.numel) (x1 : FVec Ideal S8x256x4096 .f32)
    (b : Fin 8) (m : Fin 256) :
    Host.reduceAdd (F := Ideal) x1 (constant (F := Ideal) S_ .f32 0x00000000#32) hr2 h0 (ValueIdx.ix2 b m)
      = ∑ n : Fin 4096, x1 (ValueIdx.ix3 b m n) := by
  have hR : S8x256x4096.Reduces [2] S8x256 := by decide
  refine (Ideal.hostReduceAdd_single hr2 hR x1 (Ideal.ofBits .f32 0x00000000#32) (ValueIdx.ix2 b m)).trans ?_
  rw [Ideal.ofBits_zero_f32, zero_add]
  exact Finset.sum_congr rfl (fun n _ => congrArg x1 (lift_eq hR b m n))

/-- Every pooling divisor — a row's sum plus the small constant — compares unequal to zero. -/
theorem all_msum_ne (hr2 : S8x256x4096.ReducesTo [2] S8x256) (hb : S_.BroadcastsInDim S8x256 (![] : Fin 0 → Fin S8x256.rank))
    (hr : S8x256.ReducesTo [0, 1] S_) (h0 : 0 < S_.numel) (x1 : FVec Ideal S8x256x4096 .f32)
    (e : Host.reduce IntOp.andi
          (cmpf .une
            (addf (Host.reduceAdd (F := Ideal) x1 (constant (F := Ideal) S_ .f32 0x00000000#32) hr2 h0)
              (broadcastInDim S8x256 ![] hb (constant (F := Ideal) S_ .f32 0x24E69595#32)))
            (broadcastInDim S8x256 ![] hb (constant (F := Ideal) S_ .f32 0x00000000#32)))
          (constantI S_ 1 1#1) hr h0 ValueIdx.ix0 = 1#1) (b : Fin 8) (m : Fin 256) :
    Cert.Spec.msum (Cert.Spec.m3 x1) b m ≠ 0 := by
  have hi := Host.reduce_andi_all _ _ hr h0 _ e (ValueIdx.ix2 b m)
  have hc : Ideal.cmp .une
      (Host.reduceAdd (F := Ideal) x1 (constant (F := Ideal) S_ .f32 0x00000000#32) hr2 h0 (ValueIdx.ix2 b m)
        + Ideal.ofBits .f32 0x24E69595#32) (Ideal.ofBits .f32 0x00000000#32) = 1#1 := hi
  rw [rowsum_apply, Ideal.ofBits_zero_f32, cmp_une_eq_one] at hc
  exact hc

/-- THE PRECONDITION DECODED: every float input is real at every index, and no pooling divisor is zero. -/
theorem pre_decode [Cert.Pre_finite_inputs.Facts]
    (x0 : (⟨Cert.Pre_finite_inputs.S8x256x64x64, .f32⟩ : BufTy).Contents (Elt Ideal)) (x1 : (⟨Cert.Pre_finite_inputs.S8x256x4096, .f32⟩ : BufTy).Contents (Elt Ideal))
    (x2 x3 x4 : (⟨Cert.Pre_finite_inputs.S256x256, .f32⟩ : BufTy).Contents (Elt Ideal)) (x5 x6 : (⟨Cert.Pre_finite_inputs.S256, .f32⟩ : BufTy).Contents (Elt Ideal))
    (h : Cert.Pre_finite_inputs.fn (F := Ideal) x0 x1 x2 x3 x4 x5 x6 = fun _ => 1#1) :
    (∀ i, Cert.Spec.Fin' (x0 i)) ∧ (∀ i, Cert.Spec.Fin' (x1 i)) ∧ (∀ i, Cert.Spec.Fin' (x2 i)) ∧ (∀ i, Cert.Spec.Fin' (x3 i)) ∧ (∀ i, Cert.Spec.Fin' (x4 i))
      ∧ (∀ i, Cert.Spec.Fin' (x5 i)) ∧ (∀ i, Cert.Spec.Fin' (x6 i)) ∧ (∀ (b : Fin 8) (m : Fin 256), Cert.Spec.msum (Cert.Spec.m3 x1) b m ≠ 0) := by
  have e := congrFun h ValueIdx.ix0
  dsimp only [Cert.Pre_finite_inputs.fn, Cert.Pre_finite_inputs.fn_part1, Cert.Pre_finite_inputs.fn_part2, andi] at e
  simp only [IntOp.andi_eq_one] at e
  obtain ⟨⟨⟨⟨⟨⟨⟨e0, e1⟩, e2⟩, e3⟩, e4⟩, e5⟩, e6⟩, e7⟩ := e
  exact ⟨all_finite _ _ _ x0 e0, all_finite _ _ _ x1 e1, all_finite _ _ _ x2 e2, all_finite _ _ _ x3 e3, all_finite _ _ _ x4 e4,
    all_finite _ _ _ x5 e5, all_finite _ _ _ x6 e6, all_msum_ne _ _ _ _ x1 e7⟩

end Cert.PreDecode

end
-- ==== Proof.LibERealSoftmax.lean ====
/-
  Laws of the extended reals for reading a softmax: a nonnegative real factor moves through a finite
  sum; real numbers are closed under sums and products; the running maximum of a real-valued column
  over a nonempty index type is one of the column's values; the shifted exponentials of such a column
  add up to a positive real; and dividing a weighted sum by a positive real divides each weight.
  Everything is stated over an abstract finite index type, so nothing here enumerates an index set.
-/
import Idealize.ShloMosaic.PureOps.Ideal
import Mathlib.Data.EReal.Operations
import Mathlib.Data.EReal.Inv
import Mathlib.Data.Finset.Lattice.Fold

noncomputable section

namespace Cert.Lib

open Idealize.ShloMosaic
open scoped BigOperators

variable {ι : Type*}

/-! ## Real numbers among the extended reals -/

/-- An extended real that is neither infinity is the image of a real number. -/
theorem exists_real {a : EReal} (h : a ≠ ⊤ ∧ a ≠ ⊥) : ∃ r : ℝ, a = (r : EReal) :=
  ⟨a.toReal, (EReal.coe_toReal h.1 h.2).symm⟩

/-- The image of a real number is neither infinity. -/
theorem real_ne (r : ℝ) : (r : EReal) ≠ ⊤ ∧ (r : EReal) ≠ ⊥ :=
  ⟨EReal.coe_ne_top r, EReal.coe_ne_bot r⟩

/-- The image of a finite sum of reals is the sum of the images. -/
theorem coe_sum (t : Finset ι) (g : ι → ℝ) : ((∑ i ∈ t, g i : ℝ) : EReal) = ∑ i ∈ t, (g i : EReal) := by
  classical
  induction t using Finset.induction_on with
  | empty => simp
  | insert a t ha ih => rw [Finset.sum_insert ha, Finset.sum_insert ha, EReal.coe_add, ih]

/-- A product of two real numbers is a real number. -/
theorem real_mul {a b : EReal} (ha : a ≠ ⊤ ∧ a ≠ ⊥) (hb : b ≠ ⊤ ∧ b ≠ ⊥) : a * b ≠ ⊤ ∧ a * b ≠ ⊥ := by
  obtain ⟨x, rfl⟩ := exists_real ha
  obtain ⟨y, rfl⟩ := exists_real hb
  rw [← EReal.coe_mul]
  exact real_ne _

/-- A finite sum of real numbers is a real number. -/
theorem real_sum (t : Finset ι) (f : ι → EReal) (hf : ∀ i, f i ≠ ⊤ ∧ f i ≠ ⊥) :
    (∑ i ∈ t, f i) ≠ ⊤ ∧ (∑ i ∈ t, f i) ≠ ⊥ := by
  choose g hg using fun i => exists_real (hf i)
  have h : (∑ i ∈ t, f i) = ((∑ i ∈ t, g i : ℝ) : EReal) := by
    rw [coe_sum]; exact Finset.sum_congr rfl fun i _ => hg i
  rw [h]
  exact real_ne _

/-! ## A nonnegative real factor and a finite sum -/

/-- A factor that is a nonnegative real distributes from the right over a finite sum of any
    extended reals. -/
theorem sum_mul_of_nonneg (t : Finset ι) (f : ι → EReal) {c : EReal} (hc : 0 ≤ c) (hc' : c ≠ ⊤) :
    (∑ i ∈ t, f i) * c = ∑ i ∈ t, f i * c := by
  classical
  induction t using Finset.induction_on with
  | empty => simp
  | insert a t ha ih =>
    rw [Finset.sum_insert ha, Finset.sum_insert ha, EReal.right_distrib_of_nonneg_of_ne_top hc hc', ih]

/-! ## Division by a positive real -/

/-- Dividing by a positive real is multiplying by its reciprocal, a nonnegative real. -/
theorem div_pos_real (a : EReal) {r : ℝ} (hr : 0 < r) :
    Ideal.div a (r : EReal) = a * ((r⁻¹ : ℝ) : EReal) := by
  rw [Ideal.div_coe hr.ne', one_div]

/-- Dividing a weighted sum by a positive real divides each weight; the coefficients may be any
    extended reals. -/
theorem div_sum (t : Finset ι) (a e : ι → EReal) {r : ℝ} (hr : 0 < r) :
    Ideal.div (∑ i ∈ t, a i * e i) (r : EReal) = ∑ i ∈ t, a i * Ideal.div (e i) (r : EReal) := by
  have hc : (0 : EReal) ≤ ((r⁻¹ : ℝ) : EReal) := EReal.coe_nonneg.mpr (inv_pos.mpr hr).le
  rw [div_pos_real _ hr, sum_mul_of_nonneg t _ hc (EReal.coe_ne_top _)]
  exact Finset.sum_congr rfl fun i _ => by rw [div_pos_real _ hr, mul_assoc]

/-! ## The maximum and the shifted exponentials of a real-valued column -/

/-- Over a nonempty finite index type the running maximum started at the least element is attained:
    it is the column's value at some index, and no value exceeds it. -/
theorem fold_max_bot [Fintype ι] [Nonempty ι] (f : ι → EReal) :
    ∃ i₀, (Finset.univ : Finset ι).fold max ⊥ f = f i₀ ∧ ∀ i, f i ≤ f i₀ := by
  obtain ⟨i₀, _, h₀⟩ := Finset.exists_mem_eq_sup (Finset.univ : Finset ι) Finset.univ_nonempty f
  have hfold : (Finset.univ : Finset ι).fold max ⊥ f = Finset.univ.sup f := rfl
  refine ⟨i₀, hfold.trans h₀, fun i => ?_⟩
  rw [← h₀]
  exact Finset.le_sup (Finset.mem_univ i)

/-- The exponentials of a real-valued column, each shifted by the column's maximum, add up to a
    positive real number. -/
theorem sum_exp_shift [Fintype ι] [Nonempty ι] (f : ι → EReal) (hf : ∀ i, f i ≠ ⊤ ∧ f i ≠ ⊥) :
    ∃ r : ℝ, 0 < r ∧ ∑ i, Ideal.exp (f i - (Finset.univ : Finset ι).fold max ⊥ f) = (r : EReal) := by
  choose g hg using fun i => exists_real (hf i)
  obtain ⟨i₀, hM, _⟩ := fold_max_bot f
  refine ⟨∑ i, Real.exp (g i - g i₀), Finset.sum_pos (fun i _ => Real.exp_pos _) Finset.univ_nonempty, ?_⟩
  rw [coe_sum, hM]
  exact Finset.sum_congr rfl fun i _ => by rw [hg i, hg i₀, ← EReal.coe_sub, Ideal.exp_coe]

/-- THE SOFTMAX LAW: for a real-valued column, dividing the weighted sum of its shifted exponentials
    by their total is the weighted sum of the normalised exponentials. The coefficients may be any
    extended reals; `b` is the starting value of the running maximum, known to be the least element. -/
theorem softmax_div_sum [Fintype ι] [Nonempty ι] (f : ι → EReal) (hf : ∀ i, f i ≠ ⊤ ∧ f i ≠ ⊥)
    (a : ι → EReal) (b : EReal) (hb : b = ⊥) :
    Ideal.div (∑ i, a i * Ideal.exp (f i - (Finset.univ : Finset ι).fold max b f))
        (∑ i, Ideal.exp (f i - (Finset.univ : Finset ι).fold max b f))
      = ∑ i, a i * Ideal.div (Ideal.exp (f i - (Finset.univ : Finset ι).fold max b f))
          (∑ j, Ideal.exp (f j - (Finset.univ : Finset ι).fold max b f)) := by
  subst hb
  obtain ⟨r, hr, hL⟩ := sum_exp_shift f hf
  rw [hL]
  exact div_sum Finset.univ a _ hr

end Cert.Lib

end
-- ==== Proof.AlgHead.lean ====
/-
  One attention head: the kernel's arrangement over scaled tokens equals the reference's over unscaled ones, on real-valued rows.
-/
import proofs.«409201_j15178414424521_3_alg».proof.Proof.Spec
import proofs.«409201_j15178414424521_3_alg».proof.Proof.LibERealSoftmax

noncomputable section

namespace Cert.Spec

open Idealize.ShloMosaic
open scoped BigOperators

/-! ## The two literals -/

/-- The starting value of both running maxima is the least extended real. -/
theorem negInf_eq_bot : negInf = ⊥ := by
  simp [Ideal.ofBits, Ideal.ieee]

/-- The score scale is a nonnegative real number. -/
theorem scl_real : ∃ r : ℝ, 0 ≤ r ∧ scl = (r : EReal) := by
  refine ⟨_, ?_, by simp [Ideal.ofBits, Ideal.ieee, -EReal.coe_mul]; rfl⟩
  positivity

theorem scl_nonneg : 0 ≤ scl := by
  obtain ⟨r, hr, h⟩ := scl_real
  rw [h]; exact EReal.coe_nonneg.mpr hr

theorem scl_ne_top : scl ≠ ⊤ := by
  obtain ⟨r, _, h⟩ := scl_real
  rw [h]; exact EReal.coe_ne_top r

theorem scl_fin : Fin' scl := by
  obtain ⟨r, _, h⟩ := scl_real
  rw [h]; exact Cert.Lib.real_ne r

section
variable (q k v : Fin 32 → Fin 4096 → EReal) (s : Fin 32 → Fin 256 → EReal)

/-! ## The scale moves through each score -/

/-- Keys against scaled tokens: the scale leaves each product and then the sum over the head's
    channels (it is a nonnegative real factor). -/
theorem hs1K_scl : hs1K k (fun d m => s d m * scl) = hs1R k s := by
  funext n m
  unfold hs1K hs1R
  rw [Cert.Lib.sum_mul_of_nonneg _ _ scl_nonneg scl_ne_top]
  exact Finset.sum_congr rfl fun d _ => (mul_assoc _ _ _).symm

/-- Scaled tokens against queries: likewise, the scale first commuted to the right of each product. -/
theorem hs2K_scl : hs2K q (fun d m => s d m * scl) = hs2R q s := by
  funext m n
  unfold hs2K hs2R
  rw [Cert.Lib.sum_mul_of_nonneg _ _ scl_nonneg scl_ne_top]
  exact Finset.sum_congr rfl fun d _ => mul_right_comm _ _ _

/-! ## Every score is a real number -/

theorem hs1R_fin (hk : ∀ d n, Fin' (k d n)) (hs : ∀ d m, Fin' (s d m)) (n : Fin 4096) (m : Fin 256) :
    Fin' (hs1R k s n m) :=
  Cert.Lib.real_mul (Cert.Lib.real_sum _ _ fun d => Cert.Lib.real_mul (hk d n) (hs d m)) scl_fin

theorem hs2R_fin (hq : ∀ d n, Fin' (q d n)) (hs : ∀ d m, Fin' (s d m)) (m : Fin 256) (n : Fin 4096) :
    Fin' (hs2R q s m n) :=
  Cert.Lib.real_mul (Cert.Lib.real_sum _ _ fun d => Cert.Lib.real_mul (hs d m) (hq d n)) scl_fin

/-! ## The first softmax: over the pixels -/

/-- The kernel's token outputs over the scaled tokens are the reference's over the unscaled ones:
    the scores agree, each column of scores is real, and the softmax law divides term by term. -/
theorem hsoK_scl (hk : ∀ d n, Fin' (k d n)) (hs : ∀ d m, Fin' (s d m)) (d : Fin 32) (m : Fin 256) :
    hsoK k v (fun d m => s d m * scl) d m = hsoR k v s d m := by
  haveI : Nonempty (Fin 4096) := ⟨⟨0, by omega⟩⟩
  unfold hsoK hsoR hl1K hp1R he1K he1R hm1K hm1R
  rw [hs1K_scl]
  exact Cert.Lib.softmax_div_sum (fun n => hs1R k s n m) (fun n => hs1R_fin k s hk hs n m) (v d) negInf
    negInf_eq_bot

end

/-- ONE HEAD: on real-valued rows the kernel's arrangement over the scaled tokens is the reference's
    over the unscaled ones. The scale moves through each score's sum (a positive real factor); every
    score is then a real number, so each column's maximum is one, the shifted exponentials are
    positive reals, their sum is a positive real, and dividing a sum by it is dividing each term. -/
theorem headK_eq_headR (q k v : Fin 32 → Fin 4096 → EReal) (s : Fin 32 → Fin 256 → EReal)
    (hq : ∀ d n, Fin' (q d n)) (hk : ∀ d n, Fin' (k d n)) (hv : ∀ d n, Fin' (v d n)) (hs : ∀ d m, Fin' (s d m))
    (d : Fin 32) (n : Fin 4096) :
    headK q k v (fun d m => s d m * scl) d n = headR q k v s d n := by
  haveI : Nonempty (Fin 256) := ⟨⟨0, by omega⟩⟩
  unfold headK headR hl2K hp2R he2K he2R hm2K hm2R
  rw [hs2K_scl]
  simp only [hsoK_scl k v s hk hs]
  exact Cert.Lib.softmax_div_sum (fun m => hs2R q s m n) (fun m => hs2R_fin q s hq hs m n)
    (fun m => hsoR k v s d m) negInf negInf_eq_bot

end Cert.Spec

end
-- ==== Proof.LibRealValued.lean ====
/-
  The real numbers inside the extended reals.  An extended real that is neither infinity is the image
  of a real number; sums, differences, products and finite sums of such numbers, their quotients by
  nonzero such numbers and the reciprocal roots of the positive ones are again such numbers.  With them
  go the sign facts a variance needs: a square of a real is nonnegative, and so is a nonnegative
  extended real divided by a positive real.
-/
import Idealize.ShloMosaic.PureOps.Ideal

noncomputable section

namespace Cert.RealValued

open Idealize.ShloMosaic
open scoped BigOperators

/-- A value that is neither infinity is the image of a real. -/
theorem exists_coe {a : EReal} (h : a ≠ ⊤ ∧ a ≠ ⊥) : ∃ r : ℝ, a = (r : EReal) :=
  ⟨a.toReal, (EReal.coe_toReal h.1 h.2).symm⟩

/-- The image of a real is neither infinity. -/
theorem coe_real (r : ℝ) : (r : EReal) ≠ ⊤ ∧ (r : EReal) ≠ ⊥ :=
  ⟨EReal.coe_ne_top r, EReal.coe_ne_bot r⟩

theorem add {a b : EReal} (ha : a ≠ ⊤ ∧ a ≠ ⊥) (hb : b ≠ ⊤ ∧ b ≠ ⊥) : a + b ≠ ⊤ ∧ a + b ≠ ⊥ := by
  obtain ⟨r, rfl⟩ := exists_coe ha
  obtain ⟨s, rfl⟩ := exists_coe hb
  rw [← EReal.coe_add]
  exact coe_real _

theorem sub {a b : EReal} (ha : a ≠ ⊤ ∧ a ≠ ⊥) (hb : b ≠ ⊤ ∧ b ≠ ⊥) : a - b ≠ ⊤ ∧ a - b ≠ ⊥ := by
  obtain ⟨r, rfl⟩ := exists_coe ha
  obtain ⟨s, rfl⟩ := exists_coe hb
  rw [← EReal.coe_sub]
  exact coe_real _

theorem mul {a b : EReal} (ha : a ≠ ⊤ ∧ a ≠ ⊥) (hb : b ≠ ⊤ ∧ b ≠ ⊥) : a * b ≠ ⊤ ∧ a * b ≠ ⊥ := by
  obtain ⟨r, rfl⟩ := exists_coe ha
  obtain ⟨s, rfl⟩ := exists_coe hb
  rw [← EReal.coe_mul]
  exact coe_real _

/-- A finite sum of real values is a real value (by induction on the index set). -/
theorem sum {ι : Type*} (s : Finset ι) (f : ι → EReal) (h : ∀ i ∈ s, f i ≠ ⊤ ∧ f i ≠ ⊥) :
    (∑ i ∈ s, f i) ≠ ⊤ ∧ (∑ i ∈ s, f i) ≠ ⊥ := by
  classical
  induction s using Finset.induction_on with
  | empty =>
    rw [Finset.sum_empty, ← EReal.coe_zero]
    exact coe_real 0
  | insert a s ha ih =>
    rw [Finset.sum_insert ha]
    exact add (h a (Finset.mem_insert_self a s)) (ih fun i hi => h i (Finset.mem_insert_of_mem hi))

/-- The quotient of a real value by a nonzero real value: the product with the real reciprocal. -/
theorem div {a b : EReal} (ha : a ≠ ⊤ ∧ a ≠ ⊥) (hb : b ≠ ⊤ ∧ b ≠ ⊥) (hb0 : b ≠ 0) :
    Ideal.div a b ≠ ⊤ ∧ Ideal.div a b ≠ ⊥ := by
  obtain ⟨s, rfl⟩ := exists_coe hb
  have hs : s ≠ 0 := fun h => hb0 (by rw [h, EReal.coe_zero])
  rw [Ideal.div_coe hs]
  exact mul ha (coe_real _)

/-- The square of a real value is nonnegative. -/
theorem mul_self_nonneg {a : EReal} (ha : a ≠ ⊤ ∧ a ≠ ⊥) : 0 ≤ a * a := by
  obtain ⟨r, rfl⟩ := exists_coe ha
  rw [← EReal.coe_mul]
  exact EReal.coe_nonneg.2 (_root_.mul_self_nonneg r)

/-- A nonnegative value divided by a positive real stays nonnegative. -/
theorem div_nonneg {a : EReal} (ha : 0 ≤ a) {s : ℝ} (hs : 0 < s) : 0 ≤ Ideal.div a (s : EReal) := by
  rw [Ideal.div_coe hs.ne']
  exact EReal.mul_nonneg ha (EReal.coe_nonneg.2 (by positivity))

/-- The reciprocal root of a positive real value is a real value. -/
theorem rsqrt {a : EReal} (ha : a ≠ ⊤ ∧ a ≠ ⊥) (hpos : 0 < a) :
    Ideal.rsqrt a ≠ ⊤ ∧ Ideal.rsqrt a ≠ ⊥ := by
  obtain ⟨r, rfl⟩ := exists_coe ha
  have hr : 0 < r := EReal.coe_pos.1 hpos
  rw [Ideal.rsqrt_coe, if_neg (not_lt.2 hr.le), if_neg hr.ne']
  exact coe_real _

end Cert.RealValued

end
-- ==== Proof.AlgChain.lean ====
/-
  Real-valued inputs and nonzero pooling divisors keep the normalised pixels, the tokens and the projections real-valued.
-/
import proofs.«409201_j15178414424521_3_alg».proof.Proof.Spec
import proofs.«409201_j15178414424521_3_alg».proof.Proof.LibRealValued

noncomputable section

namespace Cert.Spec

open Idealize.ShloMosaic
open scoped BigOperators

/-! ## The literals: the channel count and the two small positive constants -/

/-- The divisor of the mean and of the variance is the real number 256. -/
theorem c256_eq : c256 = ((256 : ℝ) : EReal) := by
  simp [c256, Ideal.ofBits, Ideal.ieee, -EReal.coe_mul]; norm_num

/-- The constant added under the reciprocal root is a positive real. -/
theorem epsLn_pos_real : ∃ e : ℝ, 0 < e ∧ epsLn = (e : EReal) := by
  simp [epsLn, Ideal.ofBits, Ideal.ieee, -EReal.coe_mul]

/-- The constant added to the pooling divisor is a positive real. -/
theorem epsSp_pos_real : ∃ e : ℝ, 0 < e ∧ epsSp = (e : EReal) := by
  simp [epsSp, Ideal.ofBits, Ideal.ieee, -EReal.coe_mul]

/-! ## Normalisation over the channels -/

section
variable (x : Fin 8 → Fin 256 → Fin 4096 → EReal) (hx : ∀ b c n, Fin' (x b c n))
include hx

/-- The channel mean: a finite sum of reals divided by 256. -/
theorem mu_fin (b : Fin 8) (n : Fin 4096) : Fin' (mu x b n) := by
  unfold mu
  rw [c256_eq]
  exact RealValued.div (RealValued.sum _ _ fun c _ => hx b c n) (RealValued.coe_real _)
    (by exact_mod_cast (by norm_num : (256 : ℝ) ≠ 0))

/-- The centred value: a difference of reals. -/
theorem xc_fin (b : Fin 8) (c : Fin 256) (n : Fin 4096) : Fin' (xc x b c n) :=
  RealValued.sub (hx b c n) (mu_fin x hx b n)

/-- The variance: a finite sum of squares of reals divided by 256, so a real ... -/
theorem var_fin (b : Fin 8) (n : Fin 4096) : Fin' (var x b n) := by
  unfold var
  rw [c256_eq]
  exact RealValued.div
    (RealValued.sum _ _ fun c _ => RealValued.mul (xc_fin x hx b c n) (xc_fin x hx b c n))
    (RealValued.coe_real _) (by exact_mod_cast (by norm_num : (256 : ℝ) ≠ 0))

/-- ... and a nonnegative one: every square is nonnegative, and so is their sum over 256. -/
theorem var_nonneg (b : Fin 8) (n : Fin 4096) : 0 ≤ var x b n := by
  unfold var
  rw [c256_eq]
  exact RealValued.div_nonneg
    (Finset.sum_nonneg fun c _ => RealValued.mul_self_nonneg (xc_fin x hx b c n)) (by norm_num)

/-- The reciprocal root of the variance plus the positive constant is a real: its argument is a
    positive real. -/
theorem rstd_fin (b : Fin 8) (n : Fin 4096) : Fin' (Ideal.rsqrt (var x b n + epsLn)) := by
  obtain ⟨e, he, hE⟩ := epsLn_pos_real
  rw [hE]
  exact RealValued.rsqrt (RealValued.add (var_fin x hx b n) (RealValued.coe_real e))
    (Right.add_pos_of_nonneg_of_pos (var_nonneg x hx b n) (EReal.coe_pos.2 he))

end

/-- Real-valued inputs give real-valued normalised pixels (the variance is a nonnegative real, so the
    reciprocal root of it plus the positive constant is a positive real). -/
theorem xn_fin (x : Fin 8 → Fin 256 → Fin 4096 → EReal) (ga be : Fin 256 → EReal)
    (hx : ∀ b c n, Fin' (x b c n)) (hga : ∀ c, Fin' (ga c)) (hbe : ∀ c, Fin' (be c)) (b : Fin 8) (c : Fin 256) (n : Fin 4096) :
    Fin' (xn x ga be b c n) :=
  RealValued.add
    (RealValued.mul (RealValued.mul (xc_fin x hx b c n) (rstd_fin x hx b n)) (hga c)) (hbe c)

/-- Real-valued normalised pixels and affinities and a nonzero divisor give a real-valued token. -/
theorem sth_fin (x mk : Fin 8 → Fin 256 → Fin 4096 → EReal) (ga be : Fin 256 → EReal)
    (hx : ∀ b c n, Fin' (x b c n)) (hmk : ∀ b m n, Fin' (mk b m n)) (hga : ∀ c, Fin' (ga c)) (hbe : ∀ c, Fin' (be c))
    (hms : ∀ b m, msum mk b m ≠ 0) (b : Fin 8) (c m : Fin 256) : Fin' (sth x mk ga be b c m) := by
  -- the weighted sum is a finite sum of products of reals
  have hst : Fin' (stok x mk ga be b c m) :=
    RealValued.sum _ _ fun n _ => RealValued.mul (xn_fin x ga be hx hga hbe b c n) (hmk b m n)
  -- the divisor is a finite sum of reals plus a real
  have hm : Fin' (msum mk b m) := by
    obtain ⟨e, -, hE⟩ := epsSp_pos_real
    unfold msum
    rw [hE]
    exact RealValued.add (RealValued.sum _ _ fun n _ => hmk b m n) (RealValued.coe_real e)
  exact RealValued.div hst hm (hms b m)

/-- Real-valued weights and normalised pixels give real-valued projections. -/
theorem proj_fin (x : Fin 8 → Fin 256 → Fin 4096 → EReal) (w : Fin 768 → Fin 256 → EReal) (ga be : Fin 256 → EReal)
    (hx : ∀ b c n, Fin' (x b c n)) (hw : ∀ o c, Fin' (w o c)) (hga : ∀ c, Fin' (ga c)) (hbe : ∀ c, Fin' (be c))
    (b : Fin 8) (o : Fin 768) (n : Fin 4096) : Fin' (proj x w ga be b o n) :=
  RealValued.sum _ _ fun c _ => RealValued.mul (hw o c) (xn_fin x ga be hx hga hbe b c n)

end Cert.Spec

end
-- ==== Proof.Alg.lean ====
/-
  The two arrangements of the whole computation agree on real-valued inputs with nonzero pooling divisors.
-/
import proofs.«409201_j15178414424521_3_alg».proof.Proof.AlgHead
import proofs.«409201_j15178414424521_3_alg».proof.Proof.AlgChain

noncomputable section

namespace Cert.Spec

open Idealize.ShloMosaic
open scoped BigOperators

/-- Where every input is a real number and no pooling divisor vanishes, every intermediate value is
    a real number, each softmax's column sum is a positive real, and so dividing a sum by it is
    dividing each term by it: the two arrangements agree. -/
theorem outK_eq_outR (x mk : Fin 8 → Fin 256 → Fin 4096 → EReal) (w : Fin 768 → Fin 256 → EReal) (ga be : Fin 256 → EReal)
    (hx : ∀ b c n, Fin' (x b c n)) (hmk : ∀ b m n, Fin' (mk b m n)) (hw : ∀ o c, Fin' (w o c))
    (hga : ∀ c, Fin' (ga c)) (hbe : ∀ c, Fin' (be c)) (hms : ∀ b m, msum mk b m ≠ 0)
    (b h : Fin 8) (d : Fin 32) (n : Fin 4096) :
    outK x mk w ga be b h d n = outR x mk w ga be b h d n :=
  headK_eq_headR _ _ _ _ (fun _ _ => proj_fin x w ga be hx hw hga hbe _ _ _) (fun _ _ => proj_fin x w ga be hx hw hga hbe _ _ _)
    (fun _ _ => proj_fin x w ga be hx hw hga hbe _ _ _) (fun _ _ => sth_fin x mk ga be hx hmk hga hbe hms _ _ _) d n

end Cert.Spec

end
-- ==== Proof.lean ====
/-
  The certificate of a two-stage superpixel cross-attention kernel against its jnp reference.

  Per batch entry both programs normalise every pixel over its 256 channels, pool the normalised pixels
  into 256 superpixel tokens by the affinities (dividing by the affinities' sum plus a small constant),
  project queries, keys and values with three stacked 256×256 weights, and run, for each of 8 heads of
  32 channels, a softmax over the pixels followed by a softmax over the superpixels. The kernel does one
  batch entry per grid point, keeps the normalised pixels, the scaled tokens and the projections in three
  scratch buffers, and stores one head's 32 output rows per trip of a loop; the reference is 90 host
  operations. They differ in two rearrangements: the kernel multiplies the tokens by the score scale once
  where the reference scales each score matrix, and the kernel divides each softmax's product by the
  column sum where the reference normalises the weights first.

  The frames: each program runs to the end, faults nowhere and leaves its arguments as they were (the
  kernel programs by the pipeline's launch theorem around one region, the reference by its run).
  The values: the kernel's result array is `GK` of the arguments (the eight flushed blocks cover it; a
  block's row slab is the head's payload; the payload at an index is the head function of its loaded
  slabs), the reference's is `GR` (its operations read one at a time), and `GK = GR` wherever every input
  is a real number and no pooling divisor is zero — which is what the precondition says: then every score
  is a real number, each column's shifted exponentials lie in (0, 1] with one equal to 1, their sum is a
  positive real, and dividing a finite sum by it is dividing each term; the scale, a positive real, moves
  through a finite sum. At a zero divisor the reference itself divides by zero, and the claim is not made.
-/
import proofs.«409201_j15178414424521_3_alg».proof.Defs
import proofs.«409201_j15178414424521_3_alg».proof.Proof.Gen.Kernel
import proofs.«409201_j15178414424521_3_alg».proof.Proof.Gen.KernelIdeal
import proofs.«409201_j15178414424521_3_alg».proof.Proof.Gen.ReferenceIdeal
import proofs.«409201_j15178414424521_3_alg».proof.Proof.Gen.Pre_finite_inputs
import proofs.«409201_j15178414424521_3_alg».proof.Proof.K.Frame
import proofs.«409201_j15178414424521_3_alg».proof.Proof.KI.Frame
import proofs.«409201_j15178414424521_3_alg».proof.Proof.KV.Result
import proofs.«409201_j15178414424521_3_alg».proof.Proof.Ref.Value
import proofs.«409201_j15178414424521_3_alg».proof.Proof.PreDecode
import proofs.«409201_j15178414424521_3_alg».proof.Proof.Alg
import Idealize.ShloMosaic.Adequacy
import Idealize.ShloMosaic.Init

noncomputable section

namespace Cert.Proof

open Idealize.ShloMosaic Idealize.SL.Sem Idealize.ShloMosaic.ValueIdx

/-- Under the precondition the two whole results agree: every input entry is a real number and no pooling
    divisor vanishes, so the two arrangements of the computation coincide. -/
theorem GK_eq_GR [Cert.Pre_finite_inputs.Facts]
    (x0 : (⟨Cert.Pre_finite_inputs.S8x256x64x64, .f32⟩ : BufTy).Contents (Elt Ideal)) (x1 : (⟨Cert.Pre_finite_inputs.S8x256x4096, .f32⟩ : BufTy).Contents (Elt Ideal))
    (x2 x3 x4 : (⟨Cert.Pre_finite_inputs.S256x256, .f32⟩ : BufTy).Contents (Elt Ideal)) (x5 x6 : (⟨Cert.Pre_finite_inputs.S256, .f32⟩ : BufTy).Contents (Elt Ideal))
    (h : Cert.Pre_finite_inputs.fn (F := Ideal) x0 x1 x2 x3 x4 x5 x6 = fun _ => 1#1) (b : Fin 8) (c : Fin 256) (i j : Fin 64) :
    Cert.Spec.GK x0 x1 x2 x3 x4 x5 x6 b c i j = Cert.Spec.GR x0 x1 x2 x3 x4 x5 x6 b c i j := by
  obtain ⟨h0, h1, h2, h3, h4, h5, h6, hms⟩ := Cert.PreDecode.pre_decode x0 x1 x2 x3 x4 x5 x6 h
  unfold Cert.Spec.GK Cert.Spec.GR
  refine Cert.Spec.outK_eq_outR _ _ _ _ _ (fun _ _ _ => h0 _) (fun _ _ _ => h1 _) ?_ (fun _ => h5 _) (fun _ => h6 _) hms _ _ _ _
  intro o c
  unfold Cert.Spec.wcat
  split
  · exact h2 _
  · split
    · exact h3 _
    · exact h4 _

/-- The reference runs, and its run leaves the arguments as they were. -/
theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.ReferenceIdeal.Value.run (F := Ideal) m ρ)

/-- From memories that agree on the arguments the kernel's result array and the reference's are one function of
    them: the kernel's is `GK`, the reference's `GR`, and the two agree under the precondition. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Cert.KernelIdeal.Val.kout m c, Cert.KernelIdeal.Val.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v74_eq, (hagree c).1, (hagree c).2.1, (hagree c).2.2.1, (hagree c).2.2.2.1, (hagree c).2.2.2.2.1,
    (hagree c).2.2.2.2.2.1, (hagree c).2.2.2.2.2.2]
  funext idx
  obtain ⟨b, ch, i, j, rfl⟩ : ∃ (b : Fin 8) (ch : Fin 256) (i j : Fin 64), idx = ix4 b ch i j := ⟨idx 0, idx 1, idx 2, idx 3, eq_ix4 idx⟩
  have hp := hpre c
  haveI := Cert.Pre_finite_inputs.Gen.facts
  rw [Cert.ReferenceIdeal.RefValue.ref_value]
  exact ((Cert.KernelIdeal.Val.kout_eq m c b ch i j).trans (GK_eq_GR _ _ _ _ _ _ _ hp b ch i j)).symm

theorem claim : Cert.Claim := ⟨Cert.Kernel.Gen.facts, Cert.KernelIdeal.Gen.facts, Cert.ReferenceIdeal.Gen.facts, Cert.Pre_finite_inputs.Gen.facts,
  fun m ρ _ => Cert.Kernel.Fr.frame m ρ, fun m ρ _ => Cert.KernelIdeal.Fr.frame m ρ, frame_ri, trivial, algebraic⟩

end Cert.Proof

end
